-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S1600000 : Shape := ⟨1, ![1600000]⟩
abbrev S100000 : Shape := ⟨1, ![100000]⟩
abbrev S64x32 : Shape := ⟨2, ![64, 32]⟩
abbrev S64 : Shape := ⟨1, ![64]⟩
abbrev S96x64 : Shape := ⟨2, ![96, 64]⟩
abbrev S96 : Shape := ⟨1, ![96]⟩
abbrev S128x96 : Shape := ⟨2, ![128, 96]⟩
abbrev S128 : Shape := ⟨1, ![128]⟩
abbrev S512x128 : Shape := ⟨2, ![512, 128]⟩
abbrev S512 : Shape := ⟨1, ![512]⟩
abbrev S256x512 : Shape := ⟨2, ![256, 512]⟩
abbrev S256 : Shape := ⟨1, ![256]⟩
abbrev S170x256 : Shape := ⟨2, ![170, 256]⟩
abbrev S170 : Shape := ⟨1, ![170]⟩
abbrev S1x170 : Shape := ⟨2, ![1, 170]⟩
abbrev S1 : Shape := ⟨1, ![1]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x32 : S_.BroadcastsInDim S64x32 (![] : Fin 0 → Fin S64x32.rank)
  reducesTo_S64x32_S_d0_1 : S64x32.ReducesTo [0, 1] S_
  bcast_S_S64 : S_.BroadcastsInDim S64 (![] : Fin 0 → Fin S64.rank)
  reducesTo_S64_S_d0 : S64.ReducesTo [0] S_
  bcast_S_S96x64 : S_.BroadcastsInDim S96x64 (![] : Fin 0 → Fin S96x64.rank)
  reducesTo_S96x64_S_d0_1 : S96x64.ReducesTo [0, 1] S_
  bcast_S_S96 : S_.BroadcastsInDim S96 (![] : Fin 0 → Fin S96.rank)
  reducesTo_S96_S_d0 : S96.ReducesTo [0] S_
  bcast_S_S128x96 : S_.BroadcastsInDim S128x96 (![] : Fin 0 → Fin S128x96.rank)
  reducesTo_S128x96_S_d0_1 : S128x96.ReducesTo [0, 1] S_
  bcast_S_S128 : S_.BroadcastsInDim S128 (![] : Fin 0 → Fin S128.rank)
  reducesTo_S128_S_d0 : S128.ReducesTo [0] S_
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S170x256 : S_.BroadcastsInDim S170x256 (![] : Fin 0 → Fin S170x256.rank)
  reducesTo_S170x256_S_d0_1 : S170x256.ReducesTo [0, 1] S_
  bcast_S_S170 : S_.BroadcastsInDim S170 (![] : Fin 0 → Fin S170.rank)
  reducesTo_S170_S_d0 : S170.ReducesTo [0] S_
  bcast_S_S1x170 : S_.BroadcastsInDim S1x170 (![] : Fin 0 → Fin S1x170.rank)
  reducesTo_S1x170_S_d0_1 : S1x170.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S1x170 .f32) (main_arg17 : FVec F S1 .f32) (main_v63 : IVec S_ 1) (main_v67 : IVec S_ 1) : IVec S_ 1 :=
  let main_v68 : IVec S_ 1 := andi main_v63 main_v67
  let main_v69 : FVec F S1x170 .f32 := Host.absf main_arg16
  let main_cst_26 : FVec F S_ .f32 := constant S_ .f32 0x7F800000#32
  let main_v70 : FVec F S1x170 .f32 := broadcastInDim S1x170 ![] bcast_S_S1x170 main_cst_26
  let main_v71 : IVec S1x170 1 := cmpf .olt main_v69 main_v70
  let main_c_27 : IVec S_ 1 := constantI S_ 1 1#1
  let main_v72 : IVec S_ 1 := (fun x v => Host.reduce IntOp.andi x v reducesTo_S1x170_S_d0_1 h_S_) main_v71 main_c_27
  let main_v73 : IVec S_ 1 := andi main_v68 main_v72
  let main_v74 : FVec F S1 .f32 := Host.absf main_arg17
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg13 : FVec F S256 .f32) (main_arg14 : FVec F S170x256 .f32) (main_arg15 : FVec F S170 .f32) (main_arg16 : FVec F S1x170 .f32) (main_arg17 : FVec F S1 .f32) (main_v48 : IVec S_ 1) (main_v49 : FVec F S256x512 .f32) (main_v50 : FVec F S256x512 .f32) : IVec S_ 1 :=
  let main_v51 : IVec S256x512 1 := cmpf .olt main_v49 main_v50
  let main_c_19 : IVec S_ 1 := constantI S_ 1 1#1
  let main_v52 : IVec S_ 1 := (fun x v => Host.reduce IntOp.andi x v reducesTo_S256x512_S_d0_1 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S170x256 .f32 := Host.absf main_arg14
  let main_cst_22 : FVec F S_ .f32 := constant S_ .f32 0x7F800000#32
  let main_v60 : FVec F S170x256 .f32 := broadcastInDim S170x256 ![] bcast_S_S170x256 main_cst_22
  let main_v61 : IVec S170x256 1 := cmpf .olt main_v59 main_v60
  let main_c_23 : IVec S_ 1 := constantI S_ 1 1#1
  let main_v62 : IVec S_ 1 := (fun x v => Host.reduce IntOp.andi x v reducesTo_S170x256_S_d0_1 h_S_) main_v61 main_c_23
  let main_v63 : IVec S_ 1 := andi main_v58 main_v62
  let main_v64 : FVec F S170 .f32 := Host.absf main_arg15
  let main_cst_24 : FVec F S_ .f32 := constant S_ .f32 0x7F800000#32
  let main_v65 : FVec F S170 .f32 := broadcastInDim S170 ![] bcast_S_S170 main_cst_24
  let main_v66 : IVec S170 1 := cmpf .olt main_v64 main_v65
  let main_c_25 : IVec S_ 1 := constantI S_ 1 1#1
  let main_v67 : IVec S_ 1 := (fun x v => Host.reduce IntOp.andi x v reducesTo_S170_S_d0 h_S_) main_v66 main_c_25
  fn_part4 (F := F) main_arg16 main_arg17 main_v63 main_v67

def fn_part2 {F : FTy → Type} [FloatOps F] (main_arg9 : FVec F S128 .f32) (main_arg10 : FVec F S512x128 .f32) (main_arg11 : FVec F S512 .f32) (main_arg12 : FVec F S256x512 .f32) (main_arg13 : FVec F S256 .f32) (main_arg14 : FVec F S170x256 .f32) (main_arg15 : FVec F S170 .f32) (main_arg16 : FVec F S1x170 .f32) (main_arg17 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S512x128 .f32 := Host.absf main_arg10
  let main_cst_14 : FVec F S_ .f32 := constant S_ .f32 0x7F800000#32
  let main_v40 : FVec F S512x128 .f32 := broadcastInDim S512x128 ![] bcast_S_S512x128 main_cst_14
  let main_v41 : IVec S512x128 1 := cmpf .olt main_v39 main_v40
  let main_c_15 : IVec S_ 1 := constantI S_ 1 1#1
  let main_v42 : IVec S_ 1 := (fun x v => Host.reduce IntOp.andi x v reducesTo_S512x128_S_d0_1 h_S_) main_v41 main_c_15
  let main_v43 : IVec S_ 1 := andi main_v38 main_v42
  let main_v44 : FVec F S512 .f32 := Host.absf main_arg11
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S256x512 .f32 := Host.absf main_arg12
  let main_cst_18 : FVec F S_ .f32 := constant S_ .f32 0x7F800000#32
  let main_v50 : FVec F S256x512 .f32 := broadcastInDim S256x512 ![] bcast_S_S256x512 main_cst_18
  fn_part3 (F := F) main_arg13 main_arg14 main_arg15 main_arg16 main_arg17 main_v48 main_v49 main_v50

def fn_part1 {F : FTy → Type} [FloatOps F] (main_arg6 : FVec F S96x64 .f32) (main_arg7 : FVec F S96 .f32) (main_arg8 : FVec F S128x96 .f32) (main_arg9 : FVec F S128 .f32) (main_arg10 : FVec F S512x128 .f32) (main_arg11 : FVec F S512 .f32) (main_arg12 : FVec F S256x512 .f32) (main_arg13 : FVec F S256 .f32) (main_arg14 : FVec F S170x256 .f32) (main_arg15 : FVec F S170 .f32) (main_arg16 : FVec F S1x170 .f32) (main_arg17 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S96x64 .f32 := Host.absf main_arg6
  let main_cst_6 : FVec F S_ .f32 := constant S_ .f32 0x7F800000#32
  let main_v20 : FVec F S96x64 .f32 := broadcastInDim S96x64 ![] bcast_S_S96x64 main_cst_6
  let main_v21 : IVec S96x64 1 := cmpf .olt main_v19 main_v20
  let main_c_7 : IVec S_ 1 := constantI S_ 1 1#1
  let main_v22 : IVec S_ 1 := (fun x v => Host.reduce IntOp.andi x v reducesTo_S96x64_S_d0_1 h_S_) main_v21 main_c_7
  let main_v23 : IVec S_ 1 := andi main_v18 main_v22
  let main_v24 : FVec F S96 .f32 := Host.absf main_arg7
  let main_cst_8 : FVec F S_ .f32 := constant S_ .f32 0x7F800000#32
  let main_v25 : FVec F S96 .f32 := broadcastInDim S96 ![] bcast_S_S96 main_cst_8
  let main_v26 : IVec S96 1 := cmpf .olt main_v24 main_v25
  let main_c_9 : IVec S_ 1 := constantI S_ 1 1#1
  let main_v27 : IVec S_ 1 := (fun x v => Host.reduce IntOp.andi x v reducesTo_S96_S_d0 h_S_) main_v26 main_c_9
  let main_v28 : IVec S_ 1 := andi main_v23 main_v27
  let main_v29 : FVec F S128x96 .f32 := Host.absf main_arg8
  let main_cst_10 : FVec F S_ .f32 := constant S_ .f32 0x7F800000#32
  let main_v30 : FVec F S128x96 .f32 := broadcastInDim S128x96 ![] bcast_S_S128x96 main_cst_10
  let main_v31 : IVec S128x96 1 := cmpf .olt main_v29 main_v30
  let main_c_11 : IVec S_ 1 := constantI S_ 1 1#1
  let main_v32 : IVec S_ 1 := (fun x v => Host.reduce IntOp.andi x v reducesTo_S128x96_S_d0_1 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S100000x32 .f32) (main_arg1 : IVec S2x1600000 32) (main_arg2 : FVec F S1600000 .f32) (main_arg3 : IVec S100000 32) (main_arg4 : FVec F S64x32 .f32) (main_arg5 : FVec F S64 .f32) (main_arg6 : FVec F S96x64 .f32) (main_arg7 : FVec F S96 .f32) (main_arg8 : FVec F S128x96 .f32) (main_arg9 : FVec F S128 .f32) (main_arg10 : FVec F S512x128 .f32) (main_arg11 : FVec F S512 .f32) (main_arg12 : FVec F S256x512 .f32) (main_arg13 : FVec F S256 .f32) (main_arg14 : FVec F S170x256 .f32) (main_arg15 : FVec F S170 .f32) (main_arg16 : FVec F S1x170 .f32) (main_arg17 : FVec F S1 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x32 .f32 := Host.absf main_arg4
  let main_cst_2 : FVec F S_ .f32 := constant S_ .f32 0x7F800000#32
  let main_v10 : FVec F S64x32 .f32 := broadcastInDim S64x32 ![] bcast_S_S64x32 main_cst_2
  let main_v11 : IVec S64x32 1 := cmpf .olt main_v9 main_v10
  let main_c_3 : IVec S_ 1 := constantI S_ 1 1#1
  let main_v12 : IVec S_ 1 := (fun x v => Host.reduce IntOp.andi x v reducesTo_S64x32_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S100000x32 : Shape := ⟨2, ![100000, 32]⟩
abbrev S2x1600000 : Shape := ⟨2, ![2, 1600000]⟩
abbrev S1600000 : Shape := ⟨1, ![1600000]⟩
abbrev S100000 : Shape := ⟨1, ![100000]⟩
abbrev S64x32 : Shape := ⟨2, ![64, 32]⟩
abbrev S64 : Shape := ⟨1, ![64]⟩
abbrev S96x64 : Shape := ⟨2, ![96, 64]⟩
abbrev S96 : Shape := ⟨1, ![96]⟩
abbrev S128x96 : Shape := ⟨2, ![128, 96]⟩
abbrev S128 : Shape := ⟨1, ![128]⟩
abbrev S512x128 : Shape := ⟨2, ![512, 128]⟩
abbrev S512 : Shape := ⟨1, ![512]⟩
abbrev S256x512 : Shape := ⟨2, ![256, 512]⟩
abbrev S256 : Shape := ⟨1, ![256]⟩
abbrev S170x256 : Shape := ⟨2, ![170, 256]⟩
abbrev S170 : Shape := ⟨1, ![170]⟩
abbrev S1x170 : Shape := ⟨2, ![1, 170]⟩
abbrev S1 : Shape := ⟨1, ![1]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S2000x32 : Shape := ⟨2, ![2000, 32]⟩
abbrev S2000x64 : Shape := ⟨2, ![2000, 64]⟩
abbrev S1700000x64 : Shape := ⟨2, ![1700000, 64]⟩
abbrev S100000x96 : Shape := ⟨2, ![100000, 96]⟩
abbrev S2000x96 : Shape := ⟨2, ![2000, 96]⟩
abbrev S1x64 : Shape := ⟨2, ![1, 64]⟩
abbrev S1700000x96 : Shape := ⟨2, ![1700000, 96]⟩
abbrev S100000x128 : Shape := ⟨2, ![100000, 128]⟩
abbrev S2000x128 : Shape := ⟨2, ![2000, 128]⟩
abbrev S1x96 : Shape := ⟨2, ![1, 96]⟩
abbrev S1700000x128 : Shape := ⟨2, ![1700000, 128]⟩
abbrev S100000x512 : Shape := ⟨2, ![100000, 512]⟩
abbrev S2000x512 : Shape := ⟨2, ![2000, 512]⟩
abbrev S1x128 : Shape := ⟨2, ![1, 128]⟩
abbrev S1x512 : Shape := ⟨2, ![1, 512]⟩
abbrev S100000x256 : Shape := ⟨2, ![100000, 256]⟩
abbrev S2000x256 : Shape := ⟨2, ![2000, 256]⟩
abbrev S1x256 : Shape := ⟨2, ![1, 256]⟩
abbrev S100000x170 : Shape := ⟨2, ![100000, 170]⟩
abbrev S2000x170 : Shape := ⟨2, ![2000, 170]⟩
abbrev S100000x1 : Shape := ⟨2, ![100000, 1]⟩
abbrev S16x170 : Shape := ⟨2, ![16, 170]⟩
abbrev S2000x1 : Shape := ⟨2, ![2000, 1]⟩
abbrev S2000x16 : Shape := ⟨2, ![2000, 16]⟩
abbrev S16 : Shape := ⟨1, ![16]⟩
abbrev S16x1 : Shape := ⟨2, ![16, 1]⟩
abbrev S170x1 : Shape := ⟨2, ![170, 1]⟩
abbrev S1x1 : Shape := ⟨2, ![1, 1]⟩

abbrev nBuf : Space → Nat
  | .hbm => 141
  | .vmem => 41
  | .smem => 0
  | _ => 0

abbrev hbmTy0_0 (i : Nat) : BufTy := match i % 128 with
  | 0 => ⟨S100000x32, .f32⟩
  | 1 => ⟨S2x1600000, .i32⟩
  | 2 => ⟨S1600000, .f32⟩
  | 3 => ⟨S100000, .i32⟩
  | 4 => ⟨S64x32, .f32⟩
  | 5 => ⟨S64, .f32⟩
  | 6 => ⟨S96x64, .f32⟩
  | 7 => ⟨S96, .f32⟩
  | 8 => ⟨S128x96, .f32⟩
  | 9 => ⟨S128, .f32⟩
  | 10 => ⟨S512x128, .f32⟩
  | 11 => ⟨S512, .f32⟩
  | 12 => ⟨S256x512, .f32⟩
  | 13 => ⟨S256, .f32⟩
  | 14 => ⟨S170x256, .f32⟩
  | 15 => ⟨S170, .f32⟩
  | 16 => ⟨S1x170, .f32⟩
  | 17 => ⟨S1, .f32⟩
  | 18 => ⟨S100000, .i32⟩
  | 19 => ⟨S1x1600000, .i32⟩
  | 20 => ⟨S1600000, .i32⟩
  | 21 => ⟨S1700000, .i32⟩
  | 22 => ⟨S1x1600000, .i32⟩
  | 23 => ⟨S1600000, .i32⟩
  | 24 => ⟨S1700000, .i32⟩
  | 25 => ⟨S_, .f32⟩
  | 26 => ⟨S100000, .f32⟩
  | 27 => ⟨S1700000, .f32⟩
  | 28 => ⟨S_, .f32⟩
  | 29 => ⟨S100000, .f32⟩
  | 30 => ⟨S1700000x1, .i32⟩
  | 31 => ⟨S100000, .f32⟩
  | 32 => ⟨S_, .f32⟩
  | 33 => ⟨S100000, .f32⟩
  | 34 => ⟨S100000, .i1⟩
  | 35 => ⟨S100000, .f32⟩
  | 36 => ⟨S_, .f32⟩
  | 37 => ⟨S_, .f32⟩
  | 38 => ⟨S100000, .f32⟩
  | 39 => ⟨S100000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000, .f32⟩
  | 59 => ⟨S1700000, .f32⟩
  | 60 => ⟨S100000x64, .f32⟩
  | 61 => ⟨S_, .i32⟩
  | 62 => ⟨S1700000, .i32⟩
  | 63 => ⟨S1700000, .i1⟩
  | 64 => ⟨S_, .i32⟩
  | 65 => ⟨S1700000, .i32⟩
  | 66 => ⟨S1700000, .i32⟩
  | 67 => ⟨S1700000, .i32⟩
  | 68 => ⟨S1700000x1, .i32⟩
  | 69 => ⟨S1700000x64, .f32⟩
  | 70 => ⟨S1700000x1, .f32⟩
  | 71 => ⟨S1700000x64, .f32⟩
  | 72 => ⟨S1700000x64, .f32⟩
  | 73 => ⟨S_, .f32⟩
  | 74 => ⟨S100000x64, .f32⟩
  | 75 => ⟨S1700000x1, .i32⟩
  | 76 => ⟨S100000x64, .f32⟩
  | 77 => ⟨S100000x96, .f32⟩
  | 78 => ⟨S_, .i32⟩
  | 79 => ⟨S1700000, .i32⟩
  | 80 => ⟨S1700000, .i1⟩
  | 81 => ⟨S_, .i32⟩
  | 82 => ⟨S1700000, .i32⟩
  | 83 => ⟨S1700000, .i32⟩
  | 84 => ⟨S1700000, .i32⟩
  | 85 => ⟨S1700000x1, .i32⟩
  | 86 => ⟨S1700000x96, .f32⟩
  | 87 => ⟨S1700000x1, .f32⟩
  | 88 => ⟨S1700000x96, .f32⟩
  | 89 => ⟨S1700000x96, .f32⟩
  | 90 => ⟨S_, .f32⟩
  | 91 => ⟨S100000x96, .f32⟩
  | 92 => ⟨S1700000x1, .i32⟩
  | 93 => ⟨S100000x96, .f32⟩
  | 94 => ⟨S100000x128, .f32⟩
  | 95 => ⟨S_, .i32⟩
  | 96 => ⟨S1700000, .i32⟩
  | 97 => ⟨S1700000, .i1⟩
  | 98 => ⟨S_, .i32⟩
  | 99 => ⟨S1700000, .i32⟩
  | 100 => ⟨S1700000, .i32⟩
  | 101 => ⟨S1700000, .i32⟩
  | 102 => ⟨S1700000x1, .i32⟩
  | 103 => ⟨S1700000x128, .f32⟩
  | 104 => ⟨S1700000x1, .f32⟩
  | 105 => ⟨S1700000x128, .f32⟩
  | 106 => ⟨S1700000x128, .f32⟩
  | 107 => ⟨S_, .f32⟩
  | 108 => ⟨S100000x128, .f32⟩
  | 109 => ⟨S1700000x1, .i32⟩
  | 110 => ⟨S100000x128, .f32⟩
  | 111 => ⟨S100000x512, .f32⟩
  | 112 => ⟨S100000x256, .f32⟩
  | 113 => ⟨S100000x170, .f32⟩
  | 114 => ⟨S100000x1, .i32⟩
  | 115 => ⟨S16x170, .f32⟩
  | 116 => ⟨S_, .f32⟩
  | 117 => ⟨S100000, .f32⟩
  | 118 => ⟨S_, .f32⟩
  | 119 => ⟨S16, .f32⟩
  | 120 => ⟨S100000x1, .i32⟩
  | 121 => ⟨S16, .f32⟩
  | 122 => ⟨S_, .f32⟩
  | 123 => ⟨S16, .f32⟩
  | 124 => ⟨S16, .f32⟩
  | 125 => ⟨S16x1, .f32⟩
  | 126 => ⟨S16x170, .f32⟩
  | 127 => ⟨S16x170, .f32⟩
  | _ => ⟨S100000x32, .f32⟩

abbrev hbmTy0_1 (i : Nat) : BufTy := match i % 128 with
  | 0 => ⟨S170x1, .f32⟩
  | 1 => ⟨S16x1, .f32⟩
  | 2 => ⟨S1x1, .f32⟩
  | 3 => ⟨S16x1, .f32⟩
  | 4 => ⟨S16x1, .f32⟩
  | 5 => ⟨S16x1, .f32⟩
  | 6 => ⟨S16x1, .f32⟩
  | 7 => ⟨S_, .f32⟩
  | 8 => ⟨S16x1, .f32⟩
  | 9 => ⟨S16x1, .f32⟩
  | 10 => ⟨S_, .f32⟩
  | 11 => ⟨S16x1, .f32⟩
  | 12 => ⟨S16x1, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | .local _ .vmem, ⟨0, _⟩ => ⟨S2000x32, .f32⟩
  | .local _ .vmem, ⟨1, _⟩ => ⟨S2000x32, .f32⟩
  | .local _ .vmem, ⟨2, _⟩ => ⟨S64x32, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S64, .f32⟩
  | .local _ .vmem, ⟨8, _⟩ => ⟨S96x64, .f32⟩
  | .local _ .vmem, ⟨9, _⟩ => ⟨S2000x96, .f32⟩
  | .local _ .vmem, ⟨10, _⟩ => ⟨S2000x96, .f32⟩
  | .local _ .vmem, ⟨11, _⟩ => ⟨S2000x96, .f32⟩
  | .local _ .vmem, ⟨12, _⟩ => ⟨S2000x96, .f32⟩
  | .local _ .vmem, ⟨13, _⟩ => ⟨S96, .f32⟩
  | .local _ .vmem, ⟨14, _⟩ => ⟨S128x96, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S128, .f32⟩
  | .local _ .vmem, ⟨20, _⟩ => ⟨S512x128, .f32⟩
  | .local _ .vmem, ⟨21, _⟩ => ⟨S512, .f32⟩
  | .local _ .vmem, ⟨22, _⟩ => ⟨S2000x512, .f32⟩
  | .local _ .vmem, ⟨23, _⟩ => ⟨S2000x512, .f32⟩
  | .local _ .vmem, ⟨24, _⟩ => ⟨S2000x512, .f32⟩
  | .local _ .vmem, ⟨25, _⟩ => ⟨S2000x512, .f32⟩
  | .local _ .vmem, ⟨26, _⟩ => ⟨S256x512, .f32⟩
  | .local _ .vmem, ⟨27, _⟩ => ⟨S256, .f32⟩
  | .local _ .vmem, ⟨28, _⟩ => ⟨S2000x256, .f32⟩
  | .local _ .vmem, ⟨29, _⟩ => ⟨S2000x256, .f32⟩
  | .local _ .vmem, ⟨30, _⟩ => ⟨S2000x256, .f32⟩
  | .local _ .vmem, ⟨31, _⟩ => ⟨S2000x256, .f32⟩
  | .local _ .vmem, ⟨32, _⟩ => ⟨S170x256, .f32⟩
  | .local _ .vmem, ⟨33, _⟩ => ⟨S170, .f32⟩
  | .local _ .vmem, ⟨34, _⟩ => ⟨S2000x170, .f32⟩
  | .local _ .vmem, ⟨35, _⟩ => ⟨S2000x170, .f32⟩
  | .local _ .vmem, ⟨36, _⟩ => ⟨S2000x170, .f32⟩
  | .local _ .vmem, ⟨37, _⟩ => ⟨S2000x170, .f32⟩
  | .local _ .vmem, ⟨38, _⟩ => ⟨S2000x1, .i32⟩
  | .local _ .vmem, ⟨39, _⟩ => ⟨S2000x1, .i32⟩
  | .local _ .vmem, ⟨40, _⟩ => ⟨S16x170, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_cst_0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_1 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_v15 : Ref sig .tc := ⟨.hbm, 39, rfl⟩
abbrev main_c : Ref sig .tc := ⟨.hbm, 40, rfl⟩
abbrev main_v16 : Ref sig .tc := ⟨.hbm, 41, rfl⟩
abbrev main_v17 : Ref sig .tc := ⟨.hbm, 42, rfl⟩
abbrev main_c_3 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_c_4 : Ref sig .tc := ⟨.hbm, 50, rfl⟩
abbrev main_v24 : Ref sig .tc := ⟨.hbm, 51, rfl⟩
abbrev main_v25 : Ref sig .tc := ⟨.hbm, 52, rfl⟩
abbrev main_c_5 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_c_6 : Ref sig .tc := ⟨.hbm, 61, rfl⟩
abbrev main_v33 : Ref sig .tc := ⟨.hbm, 62, rfl⟩
abbrev main_v34 : Ref sig .tc := ⟨.hbm, 63, rfl⟩
abbrev main_c_7 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_8 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_c_9 : Ref sig .tc := ⟨.hbm, 78, rfl⟩
abbrev main_v47 : Ref sig .tc := ⟨.hbm, 79, rfl⟩
abbrev main_v48 : Ref sig .tc := ⟨.hbm, 80, rfl⟩
abbrev main_c_10 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_11 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_c_12 : Ref sig .tc := ⟨.hbm, 95, rfl⟩
abbrev main_v61 : Ref sig .tc := ⟨.hbm, 96, rfl⟩
abbrev main_v62 : Ref sig .tc := ⟨.hbm, 97, rfl⟩
abbrev main_c_13 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_14 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_15 : Ref sig .tc := ⟨.hbm, 116, rfl⟩
abbrev main_v79 : Ref sig .tc := ⟨.hbm, 117, rfl⟩
abbrev main_cst_16 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_cst_17 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_cst_18 : Ref sig .tc := ⟨.hbm, 135, rfl⟩
abbrev main_v95 : Ref sig .tc := ⟨.hbm, 136, rfl⟩
abbrev main_v96 : Ref sig .tc := ⟨.hbm, 137, rfl⟩
abbrev main_cst_19 : Ref sig .tc := ⟨.hbm, 138, rfl⟩
abbrev main_v97 : Ref sig .tc := ⟨.hbm, 139, rfl⟩
abbrev main_v98 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg4_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg1_1 : Ref sig .tc := ⟨.vmem, 39, rfl⟩
abbrev cc6_stg2_0 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem4_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem1_1 : DmaSem sig := 39
abbrev cc6_sem2_0 : DmaSem sig := 40

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S96x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x96 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S96 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x96 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S512x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S170x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S170 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x170 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S2000x170 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x1 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S16x170 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S2000x32_S2000x32_0_0 : ∀ a, (![0, 0] : Fin 2 → Nat) a + S2000x32.size a ≤ S2000x32.size a
  h_S2000x32 : 0 < S2000x32.numel
  inb_S64x32_S64x32_0_0 : ∀ a, (![0, 0] : Fin 2 → Nat) a + S64x32.size a ≤ S64x32.size a
  h_S64x32 : 0 < S64x32.numel
  bitsLt_bf16_f32 : FTy.bits .bf16 < FTy.bits .f32
  inb_S2000x64_S2000x64_0_0 : ∀ a, (![0, 0] : Fin 2 → Nat) a + S2000x64.size a ≤ S2000x64.size a
  h_S2000x64 : 0 < S2000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S2000x64_S2000x64 : S2000x64.ShapeCasts S2000x64
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  inb_S96x64_S96x64_0_0 : ∀ a, (![0, 0] : Fin 2 → Nat) a + S96x64.size a ≤ S96x64.size a
  h_S96x64 : 0 < S96x64.numel
  inb_S2000x96_S2000x96_0_0 : ∀ a, (![0, 0] : Fin 2 → Nat) a + S2000x96.size a ≤ S2000x96.size a
  h_S2000x96 : 0 < S2000x96.numel
  bcast_S1700000x1_S1700000x96_0_1 : S1700000x1.BroadcastsInDim S1700000x96 (![0, 1] : Fin 2 → Fin S1700000x96.rank)
  bcast_S_S100000x96 : S_.BroadcastsInDim S100000x96 (![] : Fin 0 → Fin S100000x96.rank)
  shapeCasts_S2000x96_S2000x96 : S2000x96.ShapeCasts S2000x96
  inb_S96_S96_0 : ∀ a, (![0] : Fin 1 → Nat) a + S96.size a ≤ S96.size a
  h_S96 : 0 < S96.numel
  shapeCasts_S96_S1x96 : S96.ShapeCasts S1x96
  broadcasts_S1x96_S2000x96 : S1x96.Broadcasts S2000x96
  inb_S128x96_S128x96_0_0 : ∀ a, (![0, 0] : Fin 2 → Nat) a + S128x96.size a ≤ S128x96.size a
  h_S128x96 : 0 < S128x96.numel
  inb_S2000x128_S2000x128_0_0 : ∀ a, (![0, 0] : Fin 2 → Nat) a + S2000x128.size a ≤ S2000x128.size a
  h_S2000x128 : 0 < S2000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S2000x128_S2000x128 : S2000x128.ShapeCasts S2000x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S512x128_S512x128_0_0 : ∀ a, (![0, 0] : Fin 2 → Nat) a + S512x128.size a ≤ S512x128.size a
  h_S512x128 : 0 < S512x128.numel
  inb_S512_S512_0 : ∀ a, (![0] : Fin 1 → Nat) a + S512.size a ≤ S512.size a
  h_S512 : 0 < S512.numel
  shapeCasts_S512_S1x512 : S512.ShapeCasts S1x512
  broadcasts_S1x512_S2000x512 : S1x512.Broadcasts S2000x512
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S256x512_S256x512_0_0 : ∀ a, (![0, 0] : Fin 2 → Nat) a + S256x512.size a ≤ S256x512.size a
  h_S256x512 : 0 < S256x512.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S170x256_S170x256_0_0 : ∀ a, (![0, 0] : Fin 2 → Nat) a + S170x256.size a ≤ S170x256.size a
  h_S170x256 : 0 < S170x256.numel
  inb_S170_S170_0 : ∀ a, (![0] : Fin 1 → Nat) a + S170.size a ≤ S170.size a
  h_S170 : 0 < S170.numel
  shapeCasts_S170_S1x170 : S170.ShapeCasts S1x170
  broadcasts_S1x170_S2000x170 : S1x170.Broadcasts S2000x170
  inb_S2000x170_S2000x170_0_0 : ∀ a, (![0, 0] : Fin 2 → Nat) a + S2000x170.size a ≤ S2000x170.size a
  h_S2000x170 : 0 < S2000x170.numel
  shapeCasts_S100000_S100000x1 : S100000.ShapeCasts S100000x1
  inb_S16x170_S16x170_0_0 : ∀ a, (![0, 0] : Fin 2 → Nat) a + S16x170.size a ≤ S16x170.size a
  h_S16x170 : 0 < S16x170.numel
  iota_S2000x16_d1_w32 : S2000x16.Iotas .tc 32 [1]
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x16 : S2000x1.Broadcasts S2000x16
  natLt_1_32 : 1 < 32
  shapeCasts_S2000x170_S2000x170 : S2000x170.ShapeCasts S2000x170
  shapeCasts_S16x170_S16x170 : S16x170.ShapeCasts S16x170
  bcast_S_S16 : S_.BroadcastsInDim S16 (![] : Fin 0 → Fin S16.rank)
  bcast_S100000_S100000x1_0 : S100000.BroadcastsInDim S100000x1 (![0] : Fin 1 → Fin S100000x1.rank)
  bcast_S16_S16x1_0 : S16.BroadcastsInDim S16x1 (![0] : Fin 1 → Fin S16x1.rank)
  bcast_S16x1_S16x170_0_1 : S16x1.BroadcastsInDim S16x170 (![0, 1] : Fin 2 → Fin S16x170.rank)
  transposes_S1x170_S170x1_1_0 : S1x170.Transposes [1, 0] S170x1
  bcast_S1_S1x1_1 : S1.BroadcastsInDim S1x1 (![1] : Fin 1 → Fin S1x1.rank)
  bcast_S1x1_S16x1_0_1 : S1x1.BroadcastsInDim S16x1 (![0, 1] : Fin 2 → Fin S16x1.rank)
  bcast_S_S16x1 : S_.BroadcastsInDim S16x1 (![] : Fin 0 → Fin S16x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x32_S64x32_S2000x64_1_1_0_0_n_n_wf : DotDims.WF S2000x32 S64x32 S2000x64 [1] [1] [0] [0] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S2000x64_S96x64_S2000x96_1_1_0_0_n_n_wf : DotDims.WF S2000x64 S96x64 S2000x96 [1] [1] [0] [0] [] []
  gather_S100000x96_S1700000x1_S1700000x96_1_0_n_n_0_1_196_wf : GatherDims.WF S100000x96 S1700000x1 S1700000x96 [1] [0] [] [0] [] 1 ![1, 96]
  scatter_S100000x96_S1700000x1_S1700000x96_1_0_0_1_wf : ScatterDims.WF S100000x96 S1700000x1 S1700000x96 [1] [0] [0] 1
  dot_S2000x96_S128x96_S2000x128_1_1_0_0_n_n_wf : DotDims.WF S2000x96 S128x96 S2000x128 [1] [1] [0] [0] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S512x128_S2000x512_1_1_0_0_n_n_wf : DotDims.WF S2000x128 S512x128 S2000x512 [1] [1] [0] [0] [] []
  dot_S2000x512_S256x512_S2000x256_1_1_0_0_n_n_wf : DotDims.WF S2000x512 S256x512 S2000x256 [1] [1] [0] [0] [] []
  dot_S2000x256_S170x256_S2000x170_1_1_0_0_n_n_wf : DotDims.WF S2000x256 S170x256 S2000x170 [1] [1] [0] [0] [] []
  dot_S2000x16_S2000x170_S16x170_0_0_1_1_n_n_wf : DotDims.WF S2000x16 S2000x170 S16x170 [0] [0] [1] [1] [] []
  scatter_S16_S100000x1_S100000_n_0_0_1_wf : ScatterDims.WF S16 S100000x1 S100000 [] [0] [0] 1
  dot_S16x170_S170x1_S16x1_1_0_0_1_n_n_wf : DotDims.WF S16x170 S170x1 S16x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x32.size a ≤ S100000x32.size a
  hwx0_0 : ∀ i : grid0.Coords, EltTy.bits .f32 = 32 ∨ (Rect.block (s := S100000x32) S2000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x32.size a ≤ S64x32.size a
  hwx0_1 : ∀ i : grid0.Coords, EltTy.bits .f32 = 32 ∨ (Rect.block (s := S64x32) S64x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S96x64.size a ≤ S96x64.size a
  hwx1_2 : ∀ i : grid1.Coords, EltTy.bits .f32 = 32 ∨ (Rect.block (s := S96x64) S96x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x96.size a ≤ S100000x96.size a
  hwx1_3 : ∀ i : grid1.Coords, EltTy.bits .f32 = 32 ∨ (Rect.block (s := S100000x96) S2000x96.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x96.size a ≤ S100000x96.size a
  hwx2_0 : ∀ i : grid2.Coords, EltTy.bits .f32 = 32 ∨ (Rect.block (s := S100000x96) S2000x96.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S96.size a ≤ S96.size a
  hwx2_1 : ∀ i : grid2.Coords, EltTy.bits .f32 = 32 ∨ (Rect.block (s := S96) S96.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x96.size a ≤ S128x96.size a
  hwx2_2 : ∀ i : grid2.Coords, EltTy.bits .f32 = 32 ∨ (Rect.block (s := S128x96) S128x96.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S100000x128.size a
  hwx2_3 : ∀ i : grid2.Coords, EltTy.bits .f32 = 32 ∨ (Rect.block (s := S100000x128) S2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S512x128.size a ≤ S512x128.size a
  hwx3_2 : ∀ i : grid3.Coords, EltTy.bits .f32 = 32 ∨ (Rect.block (s := S512x128) S512x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512.size a ≤ S512.size a
  hwx3_3 : ∀ i : grid3.Coords, EltTy.bits .f32 = 32 ∨ (Rect.block (s := S512) S512.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x512.size a ≤ S100000x512.size a
  hwx3_4 : ∀ i : grid3.Coords, EltTy.bits .f32 = 32 ∨ (Rect.block (s := S100000x512) S2000x512.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x512.size a ≤ S100000x512.size a
  hwx4_0 : ∀ i : grid4.Coords, EltTy.bits .f32 = 32 ∨ (Rect.block (s := S100000x512) S2000x512.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x512.size a ≤ S256x512.size a
  hwx4_1 : ∀ i : grid4.Coords, EltTy.bits .f32 = 32 ∨ (Rect.block (s := S256x512) S256x512.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256.size a ≤ S256.size a
  hwx4_2 : ∀ i : grid4.Coords, EltTy.bits .f32 = 32 ∨ (Rect.block (s := S256) S256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x256.size a ≤ S100000x256.size a
  hwx4_3 : ∀ i : grid4.Coords, EltTy.bits .f32 = 32 ∨ (Rect.block (s := S100000x256) S2000x256.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S100000x256.size a
  hwx5_0 : ∀ i : grid5.Coords, EltTy.bits .f32 = 32 ∨ (Rect.block (s := S100000x256) S2000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S170x256.size a ≤ S170x256.size a
  hwx5_1 : ∀ i : grid5.Coords, EltTy.bits .f32 = 32 ∨ (Rect.block (s := S170x256) S170x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S170.size a ≤ S170.size a
  hwx5_2 : ∀ i : grid5.Coords, EltTy.bits .f32 = 32 ∨ (Rect.block (s := S170) S170.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x170.size a ≤ S100000x170.size a
  hwx5_3 : ∀ i : grid5.Coords, EltTy.bits .f32 = 32 ∨ (Rect.block (s := S100000x170) S2000x170.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x170.size a ≤ S100000x170.size a
  hwx6_0 : ∀ i : grid6.Coords, EltTy.bits .f32 = 32 ∨ (Rect.block (s := S100000x170) S2000x170.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x1.size a ≤ S100000x1.size a
  hwx6_1 : ∀ i : grid6.Coords, EltTy.bits .i32 = 32 ∨ (Rect.block (s := S100000x1) S2000x1.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S16x170.size a ≤ S16x170.size a
  hwx6_2 : ∀ i : grid6.Coords, EltTy.bits .f32 = 32 ∨ (Rect.block (s := S16x170) S16x170.size (cc6_transform_2 i) (hinb6_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x32_S64x32_S2000x64_1_1_0_0_n_n : DotDims S2000x32 S64x32 S2000x64 where
  lhsContracting := [1]
  rhsContracting := [1]
  lhsNonContracting := [0]
  rhsNonContracting := [0]
  lhsBatch := []
  rhsBatch := []
  wf := dot_S2000x32_S64x32_S2000x64_1_1_0_0_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S2000x64_S96x64_S2000x96_1_1_0_0_n_n : DotDims S2000x64 S96x64 S2000x96 where
  lhsContracting := [1]
  rhsContracting := [1]
  lhsNonContracting := [0]
  rhsNonContracting := [0]
  lhsBatch := []
  rhsBatch := []
  wf := dot_S2000x64_S96x64_S2000x96_1_1_0_0_n_n_wf
def gather_S100000x96_S1700000x1_S1700000x96_1_0_n_n_0_1_196 : GatherDims S100000x96 S1700000x1 S1700000x96 where
  offsetDims := [1]
  collapsedSliceDims := [0]
  operandBatchingDims := []
  startIndicesBatchingDims := []
  startIndexMap := [0]
  indexVectorDim := 1
  sliceSizes := ![1, 96]
  wf := gather_S100000x96_S1700000x1_S1700000x96_1_0_n_n_0_1_196_wf
def scatter_S100000x96_S1700000x1_S1700000x96_1_0_0_1 : ScatterDims S100000x96 S1700000x1 S1700000x96 where
  updateWindowDims := [1]
  insertedWindowDims := [0]
  scatterDimsToOperandDims := [0]
  indexVectorDim := 1
  wf := scatter_S100000x96_S1700000x1_S1700000x96_1_0_0_1_wf
def dot_S2000x96_S128x96_S2000x128_1_1_0_0_n_n : DotDims S2000x96 S128x96 S2000x128 where
  lhsContracting := [1]
  rhsContracting := [1]
  lhsNonContracting := [0]
  rhsNonContracting := [0]
  lhsBatch := []
  rhsBatch := []
  wf := dot_S2000x96_S128x96_S2000x128_1_1_0_0_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S512x128_S2000x512_1_1_0_0_n_n : DotDims S2000x128 S512x128 S2000x512 where
  lhsContracting := [1]
  rhsContracting := [1]
  lhsNonContracting := [0]
  rhsNonContracting := [0]
  lhsBatch := []
  rhsBatch := []
  wf := dot_S2000x128_S512x128_S2000x512_1_1_0_0_n_n_wf
def dot_S2000x512_S256x512_S2000x256_1_1_0_0_n_n : DotDims S2000x512 S256x512 S2000x256 where
  lhsContracting := [1]
  rhsContracting := [1]
  lhsNonContracting := [0]
  rhsNonContracting := [0]
  lhsBatch := []
  rhsBatch := []
  wf := dot_S2000x512_S256x512_S2000x256_1_1_0_0_n_n_wf
def dot_S2000x256_S170x256_S2000x170_1_1_0_0_n_n : DotDims S2000x256 S170x256 S2000x170 where
  lhsContracting := [1]
  rhsContracting := [1]
  lhsNonContracting := [0]
  rhsNonContracting := [0]
  lhsBatch := []
  rhsBatch := []
  wf := dot_S2000x256_S170x256_S2000x170_1_1_0_0_n_n_wf
def dot_S2000x16_S2000x170_S16x170_0_0_1_1_n_n : DotDims S2000x16 S2000x170 S16x170 where
  lhsContracting := [0]
  rhsContracting := [0]
  lhsNonContracting := [1]
  rhsNonContracting := [1]
  lhsBatch := []
  rhsBatch := []
  wf := dot_S2000x16_S2000x170_S16x170_0_0_1_1_n_n_wf
def scatter_S16_S100000x1_S100000_n_0_0_1 : ScatterDims S16 S100000x1 S100000 where
  updateWindowDims := []
  insertedWindowDims := [0]
  scatterDimsToOperandDims := [0]
  indexVectorDim := 1
  wf := scatter_S16_S100000x1_S100000_n_0_0_1_wf
def dot_S16x170_S170x1_S16x1_1_0_0_1_n_n : DotDims S16x170 S170x1 S16x1 where
  lhsContracting := [1]
  rhsContracting := [0]
  lhsNonContracting := [0]
  rhsNonContracting := [1]
  lhsBatch := []
  rhsBatch := []
  wf := dot_S16x170_S170x1_S16x1_1_0_0_1_n_n_wf

abbrev win0_0 : Pipeline.Window sig grid0 :=
  Pipeline.Window.ofSpec (Memref.whole main_arg0) S2000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S96x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S2000x96.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v59) S2000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S96.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x96.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v73) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg10) S512x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg11) S512.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v74) S2000x512.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v74) S2000x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg12) S256x512.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg13) S256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v75) S2000x256.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v75) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg14) S170x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg15) S170.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v76) S2000x170.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v76) S2000x170.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v77) S2000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v78) S16x170.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S1600000 : Shape := ⟨1, ![1600000]⟩
abbrev S100000 : Shape := ⟨1, ![100000]⟩
abbrev S64x32 : Shape := ⟨2, ![64, 32]⟩
abbrev S64 : Shape := ⟨1, ![64]⟩
abbrev S96x64 : Shape := ⟨2, ![96, 64]⟩
abbrev S96 : Shape := ⟨1, ![96]⟩
abbrev S128x96 : Shape := ⟨2, ![128, 96]⟩
abbrev S128 : Shape := ⟨1, ![128]⟩
abbrev S512x128 : Shape := ⟨2, ![512, 128]⟩
abbrev S512 : Shape := ⟨1, ![512]⟩
abbrev S256x512 : Shape := ⟨2, ![256, 512]⟩
abbrev S256 : Shape := ⟨1, ![256]⟩
abbrev S170x256 : Shape := ⟨2, ![170, 256]⟩
abbrev S170 : Shape := ⟨1, ![170]⟩
abbrev S1x170 : Shape := ⟨2, ![1, 170]⟩
abbrev S1 : Shape := ⟨1, ![1]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S32x64 : Shape := ⟨2, ![32, 64]⟩
abbrev S100000x64 : Shape := ⟨2, ![100000, 64]⟩
abbrev S1700000x64 : Shape := ⟨2, ![1700000, 64]⟩
abbrev S1x64 : Shape := ⟨2, ![1, 64]⟩
abbrev S64x96 : Shape := ⟨2, ![64, 96]⟩
abbrev S100000x96 : Shape := ⟨2, ![100000, 96]⟩
abbrev S1700000x96 : Shape := ⟨2, ![1700000, 96]⟩
abbrev S1x96 : Shape := ⟨2, ![1, 96]⟩
abbrev S96x128 : Shape := ⟨2, ![96, 128]⟩
abbrev S100000x128 : Shape := ⟨2, ![100000, 128]⟩
abbrev S1700000x128 : Shape := ⟨2, ![1700000, 128]⟩
abbrev S1x128 : Shape := ⟨2, ![1, 128]⟩
abbrev S128x512 : Shape := ⟨2, ![128, 512]⟩
abbrev S100000x512 : Shape := ⟨2, ![100000, 512]⟩
abbrev S1x512 : Shape := ⟨2, ![1, 512]⟩
abbrev S512x256 : Shape := ⟨2, ![512, 256]⟩
abbrev S100000x256 : Shape := ⟨2, ![100000, 256]⟩
abbrev S1x256 : Shape := ⟨2, ![1, 256]⟩
abbrev S256x170 : Shape := ⟨2, ![256, 170]⟩
abbrev S100000x170 : Shape := ⟨2, ![100000, 170]⟩
abbrev S16x170 : Shape := ⟨2, ![16, 170]⟩
abbrev S100000x1 : Shape := ⟨2, ![100000, 1]⟩
abbrev S16 : Shape := ⟨1, ![16]⟩
abbrev S16x1 : Shape := ⟨2, ![16, 1]⟩
abbrev S170x1 : Shape := ⟨2, ![170, 1]⟩
abbrev S1x1 : Shape := ⟨2, ![1, 1]⟩

abbrev nBuf : Space → Nat
  | .hbm => 185
  | .vmem => 0
  | .smem => 0
  | _ => 0

abbrev hbmTy0_0 (i : Nat) : BufTy := match i % 128 with
  | 0 => ⟨S100000x32, .f32⟩
  | 1 => ⟨S2x1600000, .i32⟩
  | 2 => ⟨S1600000, .f32⟩
  | 3 => ⟨S100000, .i32⟩
  | 4 => ⟨S64x32, .f32⟩
  | 5 => ⟨S64, .f32⟩
  | 6 => ⟨S96x64, .f32⟩
  | 7 => ⟨S96, .f32⟩
  | 8 => ⟨S128x96, .f32⟩
  | 9 => ⟨S128, .f32⟩
  | 10 => ⟨S512x128, .f32⟩
  | 11 => ⟨S512, .f32⟩
  | 12 => ⟨S256x512, .f32⟩
  | 13 => ⟨S256, .f32⟩
  | 14 => ⟨S170x256, .f32⟩
  | 15 => ⟨S170, .f32⟩
  | 16 => ⟨S1x170, .f32⟩
  | 17 => ⟨S1, .f32⟩
  | 18 => ⟨S100000, .i32⟩
  | 19 => ⟨S1x1600000, .i32⟩
  | 20 => ⟨S1600000, .i32⟩
  | 21 => ⟨S1700000, .i32⟩
  | 22 => ⟨S1x1600000, .i32⟩
  | 23 => ⟨S1600000, .i32⟩
  | 24 => ⟨S1700000, .i32⟩
  | 25 => ⟨S_, .f32⟩
  | 26 => ⟨S100000, .f32⟩
  | 27 => ⟨S1700000, .f32⟩
  | 28 => ⟨S_, .f32⟩
  | 29 => ⟨S100000, .f32⟩
  | 30 => ⟨S1700000x1, .i32⟩
  | 31 => ⟨S100000, .f32⟩
  | 32 => ⟨S_, .f32⟩
  | 33 => ⟨S100000, .f32⟩
  | 34 => ⟨S100000, .i1⟩
  | 35 => ⟨S100000, .f32⟩
  | 36 => ⟨S_, .f32⟩
  | 37 => ⟨S_, .f32⟩
  | 38 => ⟨S100000, .f32⟩
  | 39 => ⟨S100000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000, .f32⟩
  | 59 => ⟨S1700000, .f32⟩
  | 60 => ⟨S32x64, .f32⟩
  | 61 => ⟨S100000x64, .f32⟩
  | 62 => ⟨S_, .i32⟩
  | 63 => ⟨S1700000, .i32⟩
  | 64 => ⟨S1700000, .i1⟩
  | 65 => ⟨S_, .i32⟩
  | 66 => ⟨S1700000, .i32⟩
  | 67 => ⟨S1700000, .i32⟩
  | 68 => ⟨S1700000, .i32⟩
  | 69 => ⟨S1700000x1, .i32⟩
  | 70 => ⟨S1700000x64, .f32⟩
  | 71 => ⟨S1700000x1, .f32⟩
  | 72 => ⟨S1700000x64, .f32⟩
  | 73 => ⟨S1700000x64, .f32⟩
  | 74 => ⟨S_, .f32⟩
  | 75 => ⟨S100000x64, .f32⟩
  | 76 => ⟨S1700000x1, .i32⟩
  | 77 => ⟨S100000x64, .f32⟩
  | 78 => ⟨S1x64, .f32⟩
  | 79 => ⟨S100000x64, .f32⟩
  | 80 => ⟨S100000x64, .f32⟩
  | 81 => ⟨S_, .f32⟩
  | 82 => ⟨S100000x64, .f32⟩
  | 83 => ⟨S100000x64, .f32⟩
  | 84 => ⟨S64x96, .f32⟩
  | 85 => ⟨S100000x96, .f32⟩
  | 86 => ⟨S_, .i32⟩
  | 87 => ⟨S1700000, .i32⟩
  | 88 => ⟨S1700000, .i1⟩
  | 89 => ⟨S_, .i32⟩
  | 90 => ⟨S1700000, .i32⟩
  | 91 => ⟨S1700000, .i32⟩
  | 92 => ⟨S1700000, .i32⟩
  | 93 => ⟨S1700000x1, .i32⟩
  | 94 => ⟨S1700000x96, .f32⟩
  | 95 => ⟨S1700000x1, .f32⟩
  | 96 => ⟨S1700000x96, .f32⟩
  | 97 => ⟨S1700000x96, .f32⟩
  | 98 => ⟨S_, .f32⟩
  | 99 => ⟨S100000x96, .f32⟩
  | 100 => ⟨S1700000x1, .i32⟩
  | 101 => ⟨S100000x96, .f32⟩
  | 102 => ⟨S1x96, .f32⟩
  | 103 => ⟨S100000x96, .f32⟩
  | 104 => ⟨S100000x96, .f32⟩
  | 105 => ⟨S_, .f32⟩
  | 106 => ⟨S100000x96, .f32⟩
  | 107 => ⟨S100000x96, .f32⟩
  | 108 => ⟨S96x128, .f32⟩
  | 109 => ⟨S100000x128, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000x128, .f32⟩
  | 119 => ⟨S1700000x1, .f32⟩
  | 120 => ⟨S1700000x128, .f32⟩
  | 121 => ⟨S1700000x128, .f32⟩
  | 122 => ⟨S_, .f32⟩
  | 123 => ⟨S100000x128, .f32⟩
  | 124 => ⟨S1700000x1, .i32⟩
  | 125 => ⟨S100000x128, .f32⟩
  | 126 => ⟨S1x128, .f32⟩
  | 127 => ⟨S100000x128, .f32⟩
  | _ => ⟨S100000x32, .f32⟩

abbrev hbmTy0_1 (i : Nat) : BufTy := match i % 128 with
  | 0 => ⟨S100000x128, .f32⟩
  | 1 => ⟨S_, .f32⟩
  | 2 => ⟨S100000x128, .f32⟩
  | 3 => ⟨S100000x128, .f32⟩
  | 4 => ⟨S128x512, .f32⟩
  | 5 => ⟨S100000x512, .f32⟩
  | 6 => ⟨S1x512, .f32⟩
  | 7 => ⟨S100000x512, .f32⟩
  | 8 => ⟨S100000x512, .f32⟩
  | 9 => ⟨S_, .f32⟩
  | 10 => ⟨S100000x512, .f32⟩
  | 11 => ⟨S100000x512, .f32⟩
  | 12 => ⟨S512x256, .f32⟩
  | 13 => ⟨S100000x256, .f32⟩
  | 14 => ⟨S1x256, .f32⟩
  | 15 => ⟨S100000x256, .f32⟩
  | 16 => ⟨S100000x256, .f32⟩
  | 17 => ⟨S_, .f32⟩
  | 18 => ⟨S100000x256, .f32⟩
  | 19 => ⟨S100000x256, .f32⟩
  | 20 => ⟨S256x170, .f32⟩
  | 21 => ⟨S100000x170, .f32⟩
  | 22 => ⟨S1x170, .f32⟩
  | 23 => ⟨S100000x170, .f32⟩
  | 24 => ⟨S100000x170, .f32⟩
  | 25 => ⟨S_, .f32⟩
  | 26 => ⟨S100000x170, .f32⟩
  | 27 => ⟨S100000x170, .f32⟩
  | 28 => ⟨S_, .f32⟩
  | 29 => ⟨S16x170, .f32⟩
  | 30 => ⟨S100000x1, .i32⟩
  | 31 => ⟨S16x170, .f32⟩
  | 32 => ⟨S_, .f32⟩
  | 33 => ⟨S100000, .f32⟩
  | 34 => ⟨S_, .f32⟩
  | 35 => ⟨S16, .f32⟩
  | 36 => ⟨S100000x1, .i32⟩
  | 37 => ⟨S16, .f32⟩
  | 38 => ⟨S_, .f32⟩
  | 39 => ⟨S16, .f32⟩
  | 40 => ⟨S16, .f32⟩
  | 41 => ⟨S16x1, .f32⟩
  | 42 => ⟨S16x170, .f32⟩
  | 43 => ⟨S16x170, .f32⟩
  | 44 => ⟨S170x1, .f32⟩
  | 45 => ⟨S16x1, .f32⟩
  | 46 => ⟨S1x1, .f32⟩
  | 47 => ⟨S16x1, .f32⟩
  | 48 => ⟨S16x1, .f32⟩
  | 49 => ⟨S16x1, .f32⟩
  | 50 => ⟨S16x1, .f32⟩
  | 51 => ⟨S_, .f32⟩
  | 52 => ⟨S16x1, .f32⟩
  | 53 => ⟨S16x1, .f32⟩
  | 54 => ⟨S_, .f32⟩
  | 55 => ⟨S16x1, .f32⟩
  | 56 => ⟨S16x1, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_cst_0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_1 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_v15 : Ref sig .tc := ⟨.hbm, 39, rfl⟩
abbrev main_c : Ref sig .tc := ⟨.hbm, 40, rfl⟩
abbrev main_v16 : Ref sig .tc := ⟨.hbm, 41, rfl⟩
abbrev main_v17 : Ref sig .tc := ⟨.hbm, 42, rfl⟩
abbrev main_c_3 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_c_4 : Ref sig .tc := ⟨.hbm, 50, rfl⟩
abbrev main_v24 : Ref sig .tc := ⟨.hbm, 51, rfl⟩
abbrev main_v25 : Ref sig .tc := ⟨.hbm, 52, rfl⟩
abbrev main_c_5 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_c_6 : Ref sig .tc := ⟨.hbm, 62, rfl⟩
abbrev main_v34 : Ref sig .tc := ⟨.hbm, 63, rfl⟩
abbrev main_v35 : Ref sig .tc := ⟨.hbm, 64, rfl⟩
abbrev main_c_7 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_8 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_call1_cst : Ref sig .tc := ⟨.hbm, 81, rfl⟩
abbrev main_call1_v0 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_c_9 : Ref sig .tc := ⟨.hbm, 86, rfl⟩
abbrev main_v53 : Ref sig .tc := ⟨.hbm, 87, rfl⟩
abbrev main_v54 : Ref sig .tc := ⟨.hbm, 88, rfl⟩
abbrev main_c_10 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_11 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_call2_cst : Ref sig .tc := ⟨.hbm, 105, rfl⟩
abbrev main_call2_v0 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_c_12 : Ref sig .tc := ⟨.hbm, 110, rfl⟩
abbrev main_v72 : Ref sig .tc := ⟨.hbm, 111, rfl⟩
abbrev main_v73 : Ref sig .tc := ⟨.hbm, 112, rfl⟩
abbrev main_c_13 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_cst_14 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_call3_cst : Ref sig .tc := ⟨.hbm, 129, rfl⟩
abbrev main_call3_v0 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_call4_cst : Ref sig .tc := ⟨.hbm, 137, rfl⟩
abbrev main_call4_v0 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_call5_cst : Ref sig .tc := ⟨.hbm, 145, rfl⟩
abbrev main_call5_v0 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_call6_cst : Ref sig .tc := ⟨.hbm, 153, rfl⟩
abbrev main_call6_v0 : Ref sig .tc := ⟨.hbm, 154, rfl⟩
abbrev main_v106 : Ref sig .tc := ⟨.hbm, 155, rfl⟩
abbrev main_cst_15 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_cst_16 : Ref sig .tc := ⟨.hbm, 160, rfl⟩
abbrev main_v110 : Ref sig .tc := ⟨.hbm, 161, rfl⟩
abbrev main_cst_17 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_cst_18 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_cst_19 : Ref sig .tc := ⟨.hbm, 179, rfl⟩
abbrev main_v126 : Ref sig .tc := ⟨.hbm, 180, rfl⟩
abbrev main_v127 : Ref sig .tc := ⟨.hbm, 181, rfl⟩
abbrev main_cst_20 : Ref sig .tc := ⟨.hbm, 182, rfl⟩
abbrev main_v128 : Ref sig .tc := ⟨.hbm, 183, rfl⟩
abbrev main_v129 : Ref sig .tc := ⟨.hbm, 184, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  transposes_S64x32_S32x64_1_0 : S64x32.Transposes [1, 0] S32x64
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S96x64_S64x96_1_0 : S96x64.Transposes [1, 0] S64x96
  bcast_S1700000x1_S1700000x96_0_1 : S1700000x1.BroadcastsInDim S1700000x96 (![0, 1] : Fin 2 → Fin S1700000x96.rank)
  bcast_S_S100000x96 : S_.BroadcastsInDim S100000x96 (![] : Fin 0 → Fin S100000x96.rank)
  bcast_S96_S1x96_1 : S96.BroadcastsInDim S1x96 (![1] : Fin 1 → Fin S1x96.rank)
  bcast_S1x96_S100000x96_0_1 : S1x96.BroadcastsInDim S100000x96 (![0, 1] : Fin 2 → Fin S100000x96.rank)
  transposes_S128x96_S96x128_1_0 : S128x96.Transposes [1, 0] S96x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S512x128_S128x512_1_0 : S512x128.Transposes [1, 0] S128x512
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  bcast_S_S100000x512 : S_.BroadcastsInDim S100000x512 (![] : Fin 0 → Fin S100000x512.rank)
  transposes_S256x512_S512x256_1_0 : S256x512.Transposes [1, 0] S512x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  transposes_S170x256_S256x170_1_0 : S170x256.Transposes [1, 0] S256x170
  bcast_S170_S1x170_1 : S170.BroadcastsInDim S1x170 (![1] : Fin 1 → Fin S1x170.rank)
  bcast_S1x170_S100000x170_0_1 : S1x170.BroadcastsInDim S100000x170 (![0, 1] : Fin 2 → Fin S100000x170.rank)
  bcast_S_S100000x170 : S_.BroadcastsInDim S100000x170 (![] : Fin 0 → Fin S100000x170.rank)
  bcast_S_S16x170 : S_.BroadcastsInDim S16x170 (![] : Fin 0 → Fin S16x170.rank)
  bcast_S100000_S100000x1_0 : S100000.BroadcastsInDim S100000x1 (![0] : Fin 1 → Fin S100000x1.rank)
  bcast_S_S16 : S_.BroadcastsInDim S16 (![] : Fin 0 → Fin S16.rank)
  bcast_S16_S16x1_0 : S16.BroadcastsInDim S16x1 (![0] : Fin 1 → Fin S16x1.rank)
  bcast_S16x1_S16x170_0_1 : S16x1.BroadcastsInDim S16x170 (![0, 1] : Fin 2 → Fin S16x170.rank)
  transposes_S1x170_S170x1_1_0 : S1x170.Transposes [1, 0] S170x1
  bcast_S1_S1x1_1 : S1.BroadcastsInDim S1x1 (![1] : Fin 1 → Fin S1x1.rank)
  bcast_S1x1_S16x1_0_1 : S1x1.BroadcastsInDim S16x1 (![0, 1] : Fin 2 → Fin S16x1.rank)
  bcast_S_S16x1 : S_.BroadcastsInDim S16x1 (![] : Fin 0 → Fin S16x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x32_S32x64_S100000x64_1_0_0_1_n_n_wf : DotDims.WF S100000x32 S32x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x96_S100000x96_1_0_0_1_n_n_wf : DotDims.WF S100000x64 S64x96 S100000x96 [1] [0] [0] [1] [] []
  gather_S100000x96_S1700000x1_S1700000x96_1_0_n_n_0_1_196_wf : GatherDims.WF S100000x96 S1700000x1 S1700000x96 [1] [0] [] [0] [] 1 ![1, 96]
  scatter_S100000x96_S1700000x1_S1700000x96_1_0_0_1_wf : ScatterDims.WF S100000x96 S1700000x1 S1700000x96 [1] [0] [0] 1
  dot_S100000x96_S96x128_S100000x128_1_0_0_1_n_n_wf : DotDims.WF S100000x96 S96x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x512_S100000x512_1_0_0_1_n_n_wf : DotDims.WF S100000x128 S128x512 S100000x512 [1] [0] [0] [1] [] []
  dot_S100000x512_S512x256_S100000x256_1_0_0_1_n_n_wf : DotDims.WF S100000x512 S512x256 S100000x256 [1] [0] [0] [1] [] []
  dot_S100000x256_S256x170_S100000x170_1_0_0_1_n_n_wf : DotDims.WF S100000x256 S256x170 S100000x170 [1] [0] [0] [1] [] []
  scatter_S16x170_S100000x1_S100000x170_1_0_0_1_wf : ScatterDims.WF S16x170 S100000x1 S100000x170 [1] [0] [0] 1
  scatter_S16_S100000x1_S100000_n_0_0_1_wf : ScatterDims.WF S16 S100000x1 S100000 [] [0] [0] 1
  dot_S16x170_S170x1_S16x1_1_0_0_1_n_n_wf : DotDims.WF S16x170 S170x1 S16x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x96_S100000x96_1_0_0_1_n_n : DotDims S100000x64 S64x96 S100000x96 where
  lhsContracting := [1]
  rhsContracting := [0]
  lhsNonContracting := [0]
  rhsNonContracting := [1]
  lhsBatch := []
  rhsBatch := []
  wf := dot_S100000x64_S64x96_S100000x96_1_0_0_1_n_n_wf
def gather_S100000x96_S1700000x1_S1700000x96_1_0_n_n_0_1_196 : GatherDims S100000x96 S1700000x1 S1700000x96 where
  offsetDims := [1]
  collapsedSliceDims := [0]
  operandBatchingDims := []
  startIndicesBatchingDims := []
  startIndexMap := [0]
  indexVectorDim := 1
  sliceSizes := ![1, 96]
  wf := gather_S100000x96_S1700000x1_S1700000x96_1_0_n_n_0_1_196_wf
def scatter_S100000x96_S1700000x1_S1700000x96_1_0_0_1 : ScatterDims S100000x96 S1700000x1 S1700000x96 where
  updateWindowDims := [1]
  insertedWindowDims := [0]
  scatterDimsToOperandDims := [0]
  indexVectorDim := 1
  wf := scatter_S100000x96_S1700000x1_S1700000x96_1_0_0_1_wf
def dot_S100000x96_S96x128_S100000x128_1_0_0_1_n_n : DotDims S100000x96 S96x128 S100000x128 where
  lhsContracting := [1]
  rhsContracting := [0]
  lhsNonContracting := [0]
  rhsNonContracting := [1]
  lhsBatch := []
  rhsBatch := []
  wf := dot_S100000x96_S96x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x512_S100000x512_1_0_0_1_n_n : DotDims S100000x128 S128x512 S100000x512 where
  lhsContracting := [1]
  rhsContracting := [0]
  lhsNonContracting := [0]
  rhsNonContracting := [1]
  lhsBatch := []
  rhsBatch := []
  wf := dot_S100000x128_S128x512_S100000x512_1_0_0_1_n_n_wf
def dot_S100000x512_S512x256_S100000x256_1_0_0_1_n_n : DotDims S100000x512 S512x256 S100000x256 where
  lhsContracting := [1]
  rhsContracting := [0]
  lhsNonContracting := [0]
  rhsNonContracting := [1]
  lhsBatch := []
  rhsBatch := []
  wf := dot_S100000x512_S512x256_S100000x256_1_0_0_1_n_n_wf
def dot_S100000x256_S256x170_S100000x170_1_0_0_1_n_n : DotDims S100000x256 S256x170 S100000x170 where
  lhsContracting := [1]
  rhsContracting := [0]
  lhsNonContracting := [0]
  rhsNonContracting := [1]
  lhsBatch := []
  rhsBatch := []
  wf := dot_S100000x256_S256x170_S100000x170_1_0_0_1_n_n_wf
def scatter_S16x170_S100000x1_S100000x170_1_0_0_1 : ScatterDims S16x170 S100000x1 S100000x170 where
  updateWindowDims := [1]
  insertedWindowDims := [0]
  scatterDimsToOperandDims := [0]
  indexVectorDim := 1
  wf := scatter_S16x170_S100000x1_S100000x170_1_0_0_1_wf
def scatter_S16_S100000x1_S100000_n_0_0_1 : ScatterDims S16 S100000x1 S100000 where
  updateWindowDims := []
  insertedWindowDims := [0]
  scatterDimsToOperandDims := [0]
  indexVectorDim := 1
  wf := scatter_S16_S100000x1_S100000_n_0_0_1_wf
def dot_S16x170_S170x1_S16x1_1_0_0_1_n_n : DotDims S16x170 S170x1 S16x1 where
  lhsContracting := [1]
  rhsContracting := [0]
  lhsNonContracting := [0]
  rhsNonContracting := [1]
  lhsBatch := []
  rhsBatch := []
  wf := dot_S16x170_S170x1_S16x1_1_0_0_1_n_n_wf

class Facts : Prop extends Facts₀ where

variable [Facts]
-- ==== Proof.Spec.lean ====
/-
  What the two programs compute between their shared host operations, as functions of whole arrays, index by index,
  on the extended reals.

  * `lin x w`       — every row of `x` against every row of `w`: entry `(i, j)` is `∑ k, x[i,k] · w[j,k]` (that is `x · wᵀ`);
  * `biasRelu x b`  — `max (x[i,j] + b[j]) 0`, the bias added along the rows and the negative part cut off;
  * `pool x seg`    — entry `(g, j)` is the sum of `x[r,j]` over the rows `r` whose segment word `seg r` is the word of `g`
                      (a row whose word names no `g` below 16 is in no sum).
-/
import Idealize.ShloMosaic.Lib.ValueIdx

noncomputable section

open scoped BigOperators

namespace Cert.Spec

open Idealize.ShloMosaic Idealize.ShloMosaic.ValueIdx

/-- A matrix of extended reals, by its two extents. -/
abbrev Mat (a b : Nat) : Type := (⟨2, ![a, b]⟩ : Shape).Idx → EReal
/-- A vector of extended reals, by its extent. -/
abbrev Vc (a : Nat) : Type := (⟨1, ![a]⟩ : Shape).Idx → EReal

/-- `x · wᵀ`: entry `(i, j)` is the sum over `k` of `x[i,k] · w[j,k]`. -/
def lin {n a b : Nat} (x : Mat n a) (w : Mat b a) : Mat n b :=
  fun i => ∑ k : Fin a, x (ix2 (i 0) k) * w (ix2 (i 1) k)

/-- `max (x + b) 0`, the vector `b` added to every row. -/
def biasRelu {n a : Nat} (x : Mat n a) (b : Vc a) : Mat n a :=
  fun i => max (x i + b (ix1 (i 1))) 0

/-- Rows summed by segment: entry `(g, j)` is the sum of `x[r,j]` over the rows `r` whose word `seg r` is `g`'s. -/
def pool {n a : Nat} (x : Mat n a) (seg : Fin n → BitVec 32) : Mat 16 a :=
  fun i => ∑ r : Fin n, if seg r = BitVec.ofNat 32 (i 0).val then x (ix2 r (i 1)) else 0

theorem lin_apply {n a b : Nat} (x : Mat n a) (w : Mat b a) (p : Fin n) (q : Fin b) :
    lin x w (ix2 p q) = ∑ k : Fin a, x (ix2 p k) * w (ix2 q k) := rfl

theorem biasRelu_apply {n a : Nat} (x : Mat n a) (b : Vc a) (p : Fin n) (q : Fin a) :
    biasRelu x b (ix2 p q) = max (x (ix2 p q) + b (ix1 q)) 0 := rfl

theorem pool_apply {n a : Nat} (x : Mat n a) (seg : Fin n → BitVec 32) (g : Fin 16) (q : Fin a) :
    pool x seg (ix2 g q) = ∑ r : Fin n, if seg r = BitVec.ofNat 32 g.val then x (ix2 r q) else 0 := rfl

end Cert.Spec

end
-- ==== Proof.Keep.lean ====
/-
  Buffers that are carried: a buffer that no operation of a host stretch writes keeps its contents across the stretch,
  and a buffer that is none of a region's arrays keeps its contents across the region. Composed boundary by boundary,
  a buffer untouched since the third host stretch holds at a later boundary what it held after that stretch, and an
  argument array holds its launch contents at every boundary.
-/
import proofs.«425327_j74732430950951_1_alg».proof.Proof.Gen.KernelIdeal.Frame

set_option maxRecDepth 16384

noncomputable section

namespace Cert.KernelIdeal.Val

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg) (c : Dev nD)

/-- No operation of the list writes buffer `b`. -/
abbrev Untouched (ops : List (HloOp τ sig (Elt F))) (b : Ref sig .tc) : Prop :=
  ∀ op ∈ ops, (Proc.devRef .tc b : DevRef τ sig) ∉ op.writes

/-- Decides `Untouched ops b` for a literal stretch and a literal buffer: each operation writes its one result buffer,
    which is another reference. -/
macro "untouched" : tactic => `(tactic| (
  refine List.forall_iff_forall_mem.mp ?_
  simp only [hostOps0, hostOps0_1, hostOps0_2, hostOps1, hostOps2, hostOps3, hostOps6, hostOps7, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-- Across a host stretch an untouched buffer keeps its contents. -/
theorem host_keep (ops : List (HloOp τ sig (Elt F))) (W : Valuation τ sig (Elt F)) (b : Ref sig .tc)
    (h : Untouched ops b) : StableHlo.after ops W (Proc.devRef .tc b) = W (Proc.devRef .tc b) :=
  StableHlo.after_of_forall_not_mem (b := Proc.devRef .tc b) _ _ h

/-- At the first region's entry a buffer none of the three leading stretches writes holds its launch contents. -/
theorem back3 (b : Ref sig .tc) (h2 : Untouched (F := F) hostOps0_2 b) (h1 : Untouched (F := F) hostOps0_1 b)
    (h0 : Untouched (F := F) hostOps0 b) :
    W3 m ρ c (Proc.devRef .tc b) = m ((c : Thread nD τ).loc b) :=
  (host_keep hostOps0_2 (W2 m ρ c) b h2).trans ((host_keep hostOps0_1 (W1 m ρ c) b h1).trans
    ((host_keep hostOps0 (W0 m ρ c) b h0).trans rfl))

/-- Past region 0. -/
theorem back4 (b : Ref sig .tc) (r0 : ∀ w, Pipeline.arrRef spec0 w ≠ b) :
    W4 m ρ c (Proc.devRef .tc b) = W3 m ρ c (Proc.devRef .tc b) := W4_of_ne m ρ c b r0
/-- Past the stretch before region 1. -/
theorem back5 (b : Ref sig .tc) (h1 : Untouched (F := F) hostOps1 b) (r0 : ∀ w, Pipeline.arrRef spec0 w ≠ b) :
    W5 m ρ c (Proc.devRef .tc b) = W3 m ρ c (Proc.devRef .tc b) :=
  (host_keep hostOps1 (W4 m ρ c) b h1).trans (back4 m ρ c b r0)
/-- Past region 1. -/
theorem back6 (b : Ref sig .tc) (r1 : ∀ w, Pipeline.arrRef spec1 w ≠ b) (h1 : Untouched (F := F) hostOps1 b)
    (r0 : ∀ w, Pipeline.arrRef spec0 w ≠ b) :
    W6 m ρ c (Proc.devRef .tc b) = W3 m ρ c (Proc.devRef .tc b) :=
  (W6_of_ne m ρ c b r1).trans (back5 m ρ c b h1 r0)
/-- Past the stretch before region 2. -/
theorem back7 (b : Ref sig .tc) (h2 : Untouched (F := F) hostOps2 b) (r1 : ∀ w, Pipeline.arrRef spec1 w ≠ b)
    (h1 : Untouched (F := F) hostOps1 b) (r0 : ∀ w, Pipeline.arrRef spec0 w ≠ b) :
    W7 m ρ c (Proc.devRef .tc b) = W3 m ρ c (Proc.devRef .tc b) :=
  (host_keep hostOps2 (W6 m ρ c) b h2).trans (back6 m ρ c b r1 h1 r0)
/-- Past region 2. -/
theorem back8 (b : Ref sig .tc) (r2 : ∀ w, Pipeline.arrRef spec2 w ≠ b) (h2 : Untouched (F := F) hostOps2 b)
    (r1 : ∀ w, Pipeline.arrRef spec1 w ≠ b) (h1 : Untouched (F := F) hostOps1 b) (r0 : ∀ w, Pipeline.arrRef spec0 w ≠ b) :
    W8 m ρ c (Proc.devRef .tc b) = W3 m ρ c (Proc.devRef .tc b) :=
  (W8_of_ne m ρ c b r2).trans (back7 m ρ c b h2 r1 h1 r0)
/-- Past the stretch before region 3. -/
theorem back9 (b : Ref sig .tc) (h3 : Untouched (F := F) hostOps3 b) (r2 : ∀ w, Pipeline.arrRef spec2 w ≠ b)
    (h2 : Untouched (F := F) hostOps2 b) (r1 : ∀ w, Pipeline.arrRef spec1 w ≠ b) (h1 : Untouched (F := F) hostOps1 b)
    (r0 : ∀ w, Pipeline.arrRef spec0 w ≠ b) :
    W9 m ρ c (Proc.devRef .tc b) = W3 m ρ c (Proc.devRef .tc b) :=
  (host_keep hostOps3 (W8 m ρ c) b h3).trans (back8 m ρ c b r2 h2 r1 h1 r0)
/-- Past region 3. -/
theorem back10 (b : Ref sig .tc) (r3 : ∀ w, Pipeline.arrRef spec3 w ≠ b) (h3 : Untouched (F := F) hostOps3 b)
    (r2 : ∀ w, Pipeline.arrRef spec2 w ≠ b) (h2 : Untouched (F := F) hostOps2 b) (r1 : ∀ w, Pipeline.arrRef spec1 w ≠ b)
    (h1 : Untouched (F := F) hostOps1 b) (r0 : ∀ w, Pipeline.arrRef spec0 w ≠ b) :
    W10 m ρ c (Proc.devRef .tc b) = W3 m ρ c (Proc.devRef .tc b) :=
  (W10_of_ne m ρ c b r3).trans (back9 m ρ c b h3 r2 h2 r1 h1 r0)
/-- Past region 4. -/
theorem back11 (b : Ref sig .tc) (r4 : ∀ w, Pipeline.arrRef spec4 w ≠ b) (r3 : ∀ w, Pipeline.arrRef spec3 w ≠ b)
    (h3 : Untouched (F := F) hostOps3 b) (r2 : ∀ w, Pipeline.arrRef spec2 w ≠ b) (h2 : Untouched (F := F) hostOps2 b)
    (r1 : ∀ w, Pipeline.arrRef spec1 w ≠ b) (h1 : Untouched (F := F) hostOps1 b) (r0 : ∀ w, Pipeline.arrRef spec0 w ≠ b) :
    W11 m ρ c (Proc.devRef .tc b) = W3 m ρ c (Proc.devRef .tc b) :=
  (W11_of_ne m ρ c b r4).trans (back10 m ρ c b r3 h3 r2 h2 r1 h1 r0)
/-- Past region 5. -/
theorem back12 (b : Ref sig .tc) (r5 : ∀ w, Pipeline.arrRef spec5 w ≠ b) (r4 : ∀ w, Pipeline.arrRef spec4 w ≠ b)
    (r3 : ∀ w, Pipeline.arrRef spec3 w ≠ b) (h3 : Untouched (F := F) hostOps3 b) (r2 : ∀ w, Pipeline.arrRef spec2 w ≠ b)
    (h2 : Untouched (F := F) hostOps2 b) (r1 : ∀ w, Pipeline.arrRef spec1 w ≠ b) (h1 : Untouched (F := F) hostOps1 b)
    (r0 : ∀ w, Pipeline.arrRef spec0 w ≠ b) :
    W12 m ρ c (Proc.devRef .tc b) = W3 m ρ c (Proc.devRef .tc b) :=
  (W12_of_ne m ρ c b r5).trans (back11 m ρ c b r4 r3 h3 r2 h2 r1 h1 r0)
/-- Past the stretch before region 6 and past region 6. -/
theorem back14 (b : Ref sig .tc) (r6 : ∀ w, Pipeline.arrRef spec6 w ≠ b) (h6 : Untouched (F := F) hostOps6 b)
    (r5 : ∀ w, Pipeline.arrRef spec5 w ≠ b) (r4 : ∀ w, Pipeline.arrRef spec4 w ≠ b)
    (r3 : ∀ w, Pipeline.arrRef spec3 w ≠ b) (h3 : Untouched (F := F) hostOps3 b) (r2 : ∀ w, Pipeline.arrRef spec2 w ≠ b)
    (h2 : Untouched (F := F) hostOps2 b) (r1 : ∀ w, Pipeline.arrRef spec1 w ≠ b) (h1 : Untouched (F := F) hostOps1 b)
    (r0 : ∀ w, Pipeline.arrRef spec0 w ≠ b) :
    W14 m ρ c (Proc.devRef .tc b) = W3 m ρ c (Proc.devRef .tc b) :=
  (W14_of_ne m ρ c b r6).trans ((host_keep hostOps6 (W12 m ρ c) b h6).trans (back12 m ρ c b r5 r4 r3 h3 r2 h2 r1 h1 r0))

/-! ## The argument arrays where a later stretch or region reads them -/

theorem w3_arg0 : W3 m ρ c (Proc.devRef .tc main_arg0) = m ((c : Thread nD τ).loc main_arg0) :=
  back3 m ρ c main_arg0 (by untouched) (by untouched) (by untouched)
theorem w3_arg4 : W3 m ρ c (Proc.devRef .tc main_arg4) = m ((c : Thread nD τ).loc main_arg4) :=
  back3 m ρ c main_arg4 (by untouched) (by untouched) (by untouched)
theorem w5_arg5 : W5 m ρ c (Proc.devRef .tc main_arg5) = m ((c : Thread nD τ).loc main_arg5) :=
  (back5 m ρ c main_arg5 (by untouched) (by decide)).trans (back3 m ρ c main_arg5 (by untouched) (by untouched) (by untouched))
theorem w5_arg6 : W5 m ρ c (Proc.devRef .tc main_arg6) = m ((c : Thread nD τ).loc main_arg6) :=
  (back5 m ρ c main_arg6 (by untouched) (by decide)).trans (back3 m ρ c main_arg6 (by untouched) (by untouched) (by untouched))
theorem w7_arg7 : W7 m ρ c (Proc.devRef .tc main_arg7) = m ((c : Thread nD τ).loc main_arg7) :=
  (back7 m ρ c main_arg7 (by untouched) (by decide) (by untouched) (by decide)).trans (back3 m ρ c main_arg7 (by untouched) (by untouched) (by untouched))
theorem w7_arg8 : W7 m ρ c (Proc.devRef .tc main_arg8) = m ((c : Thread nD τ).loc main_arg8) :=
  (back7 m ρ c main_arg8 (by untouched) (by decide) (by untouched) (by decide)).trans (back3 m ρ c main_arg8 (by untouched) (by untouched) (by untouched))
theorem w9_arg9 : W9 m ρ c (Proc.devRef .tc main_arg9) = m ((c : Thread nD τ).loc main_arg9) :=
  (back9 m ρ c main_arg9 (by untouched) (by decide) (by untouched) (by decide) (by untouched) (by decide)).trans (back3 m ρ c main_arg9 (by untouched) (by untouched) (by untouched))
theorem w9_arg10 : W9 m ρ c (Proc.devRef .tc main_arg10) = m ((c : Thread nD τ).loc main_arg10) :=
  (back9 m ρ c main_arg10 (by untouched) (by decide) (by untouched) (by decide) (by untouched) (by decide)).trans (back3 m ρ c main_arg10 (by untouched) (by untouched) (by untouched))
theorem w9_arg11 : W9 m ρ c (Proc.devRef .tc main_arg11) = m ((c : Thread nD τ).loc main_arg11) :=
  (back9 m ρ c main_arg11 (by untouched) (by decide) (by untouched) (by decide) (by untouched) (by decide)).trans (back3 m ρ c main_arg11 (by untouched) (by untouched) (by untouched))
theorem w10_arg12 : W10 m ρ c (Proc.devRef .tc main_arg12) = m ((c : Thread nD τ).loc main_arg12) :=
  (back10 m ρ c main_arg12 (by decide) (by untouched) (by decide) (by untouched) (by decide) (by untouched) (by decide)).trans (back3 m ρ c main_arg12 (by untouched) (by untouched) (by untouched))
theorem w10_arg13 : W10 m ρ c (Proc.devRef .tc main_arg13) = m ((c : Thread nD τ).loc main_arg13) :=
  (back10 m ρ c main_arg13 (by decide) (by untouched) (by decide) (by untouched) (by decide) (by untouched) (by decide)).trans (back3 m ρ c main_arg13 (by untouched) (by untouched) (by untouched))
theorem w11_arg14 : W11 m ρ c (Proc.devRef .tc main_arg14) = m ((c : Thread nD τ).loc main_arg14) :=
  (back11 m ρ c main_arg14 (by decide) (by decide) (by untouched) (by decide) (by untouched) (by decide) (by untouched) (by decide)).trans (back3 m ρ c main_arg14 (by untouched) (by untouched) (by untouched))
theorem w11_arg15 : W11 m ρ c (Proc.devRef .tc main_arg15) = m ((c : Thread nD τ).loc main_arg15) :=
  (back11 m ρ c main_arg15 (by decide) (by decide) (by untouched) (by decide) (by untouched) (by decide) (by untouched) (by decide)).trans (back3 m ρ c main_arg15 (by untouched) (by untouched) (by untouched))
theorem w12_arg3 : W12 m ρ c (Proc.devRef .tc main_arg3) = m ((c : Thread nD τ).loc main_arg3) :=
  (back12 m ρ c main_arg3 (by decide) (by decide) (by decide) (by untouched) (by decide) (by untouched) (by decide) (by untouched) (by decide)).trans (back3 m ρ c main_arg3 (by untouched) (by untouched) (by untouched))
theorem w14_arg3 : W14 m ρ c (Proc.devRef .tc main_arg3) = m ((c : Thread nD τ).loc main_arg3) :=
  (back14 m ρ c main_arg3 (by decide) (by untouched) (by decide) (by decide) (by decide) (by untouched) (by decide) (by untouched) (by decide) (by untouched) (by decide)).trans (back3 m ρ c main_arg3 (by untouched) (by untouched) (by untouched))
theorem w14_arg16 : W14 m ρ c (Proc.devRef .tc main_arg16) = m ((c : Thread nD τ).loc main_arg16) :=
  (back14 m ρ c main_arg16 (by decide) (by untouched) (by decide) (by decide) (by decide) (by untouched) (by decide) (by untouched) (by decide) (by untouched) (by decide)).trans (back3 m ρ c main_arg16 (by untouched) (by untouched) (by untouched))
theorem w14_arg17 : W14 m ρ c (Proc.devRef .tc main_arg17) = m ((c : Thread nD τ).loc main_arg17) :=
  (back14 m ρ c main_arg17 (by decide) (by untouched) (by decide) (by decide) (by decide) (by untouched) (by decide) (by untouched) (by decide) (by untouched) (by decide)).trans (back3 m ρ c main_arg17 (by untouched) (by untouched) (by untouched))

end Cert.KernelIdeal.Val

end
-- ==== Proof.Reg0.lean ====
/-
  Region 0 (a plain row-by-row product): once every grid point has written its 2000 rows back, the output array is
  `x · wᵀ` of the two input arrays as the region found them, index by index.
-/
import proofs.«425327_j74732430950951_1_alg».proof.Proof.Gen.KernelIdeal.Frame
import proofs.«425327_j74732430950951_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Val

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Spec

/-- The four coordinates of the product's operand indices: at output entry `i` and contraction index `q` the left operand is
    read at `(i 0, q)` and the right operand at `(i 1, q)` (both operands are contracted along their second axis). -/
theorem reg0_lhs_0 (i : S2000x64.Idx) (q : dot_S2000x32_S64x32_S2000x64_1_1_0_0_n_n.contr.Idx) :
    (dot_S2000x32_S64x32_S2000x64_1_1_0_0_n_n.lhsIdx i q 0).val = (i 0).val := by
  unfold DotDims.lhsIdx
  rw [dif_neg (show ¬(0 : Fin S2000x32.rank) ∈ dot_S2000x32_S64x32_S2000x64_1_1_0_0_n_n.lhsBatch by decide), dif_pos (show (0 : Fin S2000x32.rank) ∈ dot_S2000x32_S64x32_S2000x64_1_1_0_0_n_n.lhsNonContracting by decide)]
  rfl
theorem reg0_lhs_1 (i : S2000x64.Idx) (q : dot_S2000x32_S64x32_S2000x64_1_1_0_0_n_n.contr.Idx) :
    (dot_S2000x32_S64x32_S2000x64_1_1_0_0_n_n.lhsIdx i q 1).val = (q ⟨0, by decide⟩).val :=
  dot_S2000x32_S64x32_S2000x64_1_1_0_0_n_n.lhsIdx_val_of_single rfl i q
theorem reg0_rhs_0 (i : S2000x64.Idx) (q : dot_S2000x32_S64x32_S2000x64_1_1_0_0_n_n.contr.Idx) :
    (dot_S2000x32_S64x32_S2000x64_1_1_0_0_n_n.rhsIdx i q 0).val = (i 1).val := by
  unfold DotDims.rhsIdx
  rw [dif_neg (show ¬(0 : Fin S64x32.rank) ∈ dot_S2000x32_S64x32_S2000x64_1_1_0_0_n_n.rhsBatch by decide), dif_pos (show (0 : Fin S64x32.rank) ∈ dot_S2000x32_S64x32_S2000x64_1_1_0_0_n_n.rhsNonContracting by decide)]
  rfl
theorem reg0_rhs_1 (i : S2000x64.Idx) (q : dot_S2000x32_S64x32_S2000x64_1_1_0_0_n_n.contr.Idx) :
    (dot_S2000x32_S64x32_S2000x64_1_1_0_0_n_n.rhsIdx i q 1).val = (q ⟨0, by decide⟩).val :=
  dot_S2000x32_S64x32_S2000x64_1_1_0_0_n_n.rhsIdx_val_of_single rfl i q

/-- The body's arithmetic at an entry of the block: row `p` of the loaded rows against row `q` of the weights. -/
theorem reg0_pay_apply (x0 : Vec Ideal S2000x32 .f32) (x1 : Vec Ideal S64x32 .f32) (p : Fin 2000) (q : Fin 64) :
    (k0_pay1 (F := Ideal) x0 x1 : S2000x64.Idx → EReal) (ix2 p q) = ∑ k : Fin 32, x0 (ix2 p k) * x1 (ix2 q k) := by
  unfold k0_pay1
  refine (Ideal.matmul_constant_zero_apply dot_S2000x32_S64x32_S2000x64_1_1_0_0_n_n none _ _ (ix2 p q)).trans ?_
  rw [← Equiv.sum_comp (ValueIdx.contrEquiv1 dot_S2000x32_S64x32_S2000x64_1_1_0_0_n_n 32 rfl rfl).symm]
  refine Finset.sum_congr rfl fun k _ => ?_
  have hk := ValueIdx.contrEquiv1_symm_val dot_S2000x32_S64x32_S2000x64_1_1_0_0_n_n 32 rfl rfl k
  have el : dot_S2000x32_S64x32_S2000x64_1_1_0_0_n_n.lhsIdx (ix2 p q) ((ValueIdx.contrEquiv1 dot_S2000x32_S64x32_S2000x64_1_1_0_0_n_n 32 rfl rfl).symm k) = ix2 p k := funext fun a => Fin.ext (by
    match a with
    | ⟨0, _⟩ => exact reg0_lhs_0 _ _
    | ⟨1, _⟩ => exact (reg0_lhs_1 _ _).trans hk)
  have er : dot_S2000x32_S64x32_S2000x64_1_1_0_0_n_n.rhsIdx (ix2 p q) ((ValueIdx.contrEquiv1 dot_S2000x32_S64x32_S2000x64_1_1_0_0_n_n 32 rfl rfl).symm k) = ix2 q k := funext fun a => Fin.ext (by
    match a with
    | ⟨0, _⟩ => exact reg0_rhs_0 _ _
    | ⟨1, _⟩ => exact (reg0_rhs_1 _ _).trans hk)
  rw [el, er]
  rfl

/- The TensorCore's buffer contents when the region is entered: a parameter. -/
variable (V : (c : Dev nD) → (b : Ref sig .tc) → Buf (Elt Ideal) ((c : Thread nD τ).loc b))

/-- The entry of the block in terms of the arrays: when row `p` of the loaded rows is row `r` of the array `X` and
    row `q` of the loaded weights is row `s` of the array `W`, the body's entry `(p, q)` is entry `(r, s)` of `X · Wᵀ`. -/
theorem reg0_point_eq (x0 : Vec Ideal S2000x32 .f32) (x1 : Vec Ideal S64x32 .f32) (X : Mat 100000 32) (W : Mat 64 32)
    (p : Fin 2000) (q : Fin 64) (r : Fin 100000) (s : Fin 64)
    (h0 : ∀ k : Fin 32, x0 (ix2 p k) = X (ix2 r k)) (h1 : ∀ k : Fin 32, x1 (ix2 q k) = W (ix2 s k)) :
    (k0_pay1 (F := Ideal) x0 x1 : S2000x64.Idx → EReal) (ix2 p q) = lin X W (ix2 r s) := by
  rw [reg0_pay_apply, lin_apply]
  exact Finset.sum_congr rfl fun k _ => by rw [h0, h1]

theorem reg0_hz : (![0, 0] : Fin 2 → Nat) = fun _ => 0 := funext fun a => by fin_cases a <;> rfl

/-- The index maps over the grid: point `t` takes block `t` of the rows (of the input and of the output alike), and
    every other block index is 0 (the weights are one whole block; the column axes are not cut). -/
theorem reg0_idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `X · Wᵀ` of the two input arrays as the region found them. -/
theorem reg0_flushed_eq (c : Dev nD) (t : Fin cfg0.N) :
    (dat0 V c).flushed 2 t = ((cfg0.win 2).blk t).view.read (Elt Ideal) (lin (V c (Pipeline.arrRef spec0 0)) (V c (Pipeline.arrRef spec0 1))) := by
  show (cfg0.win 2).cut (grid0.coords t) ((dat0 V c).after 2 t) = _
  rw [after0_2]
  unfold out0_2
  rw [View.canon_unit_zero reg0_hz]
  simp only [View.ld_unit_zero (S := S2000x32) reg0_hz, View.ld_unit_zero (S := S64x32) reg0_hz]
  obtain ⟨e0, e1, e2, e3, e4, e5⟩ := reg0_idx_facts t
  funext j
  obtain ⟨p, q, rfl⟩ : ∃ (p : Fin 2000) (q : Fin 64), j = ix2 p q := ⟨j 0, j 1, eq_ix2 j⟩
  obtain ⟨r, s, hi⟩ : ∃ (r : Fin 100000) (s : Fin 64), ((cfg0.win 2).blk t).view.emb (ix2 p q) = ix2 r s := ⟨_, _, eq_ix2 _⟩
  have hr : win0_2.index t (0 : Fin 2) * 2000 + 1 * p.val = r.val := congrArg Fin.val (congrFun hi 0)
  have hs : win0_2.index t (1 : Fin 2) * 64 + 1 * q.val = s.val := congrArg Fin.val (congrFun hi 1)
  show (k0_pay1 (F := Ideal) (iblk0 V c 0 t) (iblk0 V c 1 t) : S2000x64.Idx → EReal) (ix2 p q)
    = lin (V c (Pipeline.arrRef spec0 0)) (V c (Pipeline.arrRef spec0 1)) (((cfg0.win 2).blk t).view.emb (ix2 p q))
  rw [hi]
  refine reg0_point_eq (iblk0 V c 0 t) (iblk0 V c 1 t) (V c (Pipeline.arrRef spec0 0)) (V c (Pipeline.arrRef spec0 1)) p q r s (fun k => ?_) (fun k => ?_)
  · show V c (Pipeline.arrRef spec0 0) (((cfg0.win 0).blk t).view.emb (ix2 p k)) = V c (Pipeline.arrRef spec0 0) (ix2 r k)
    refine congrArg _ (funext fun a => Fin.ext ?_)
    match a with
    | ⟨0, _⟩ => show win0_0.index t (0 : Fin 2) * 2000 + 1 * p.val = r.val; omega
    | ⟨1, _⟩ => show win0_0.index t (1 : Fin 2) * 32 + 1 * k.val = k.val; omega
  · show V c (Pipeline.arrRef spec0 1) (((cfg0.win 1).blk t).view.emb (ix2 q k)) = V c (Pipeline.arrRef spec0 1) (ix2 s k)
    refine congrArg _ (funext fun a => Fin.ext ?_)
    match a with
    | ⟨0, _⟩ => show win0_1.index t (0 : Fin 2) * 64 + 1 * q.val = s.val; omega
    | ⟨1, _⟩ => show win0_1.index t (1 : Fin 2) * 32 + 1 * k.val = k.val; omega

/-- An index of the output array is in point `t`'s block iff each coordinate is in the block's range on its axis. -/
theorem reg0_mem_blk (t : Fin cfg0.N) (i : S100000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v32).slice (win0_2.rect t)).set ↔ _
  rw [View.set_slice_whole, Rect.mem_set_unit]
  exact Iff.rfl

/-- The blocks tile the output: row `r` is written back by point `r / 2000`. -/
theorem reg0_cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 50 := N_0
  let t : Fin cfg0.N := ⟨(i 0).val / 2000, by rw [hN]; omega⟩
  obtain ⟨e0, e1, e2, e3, e4, e5⟩ := reg0_idx_facts t
  have ht : t.val = (i 0).val / 2000 := rfl
  refine ⟨t, flush0_2 t, ?_⟩
  rw [reg0_mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 64 ≤ (i 1).val ∧ (i 1).val < win0_2.index t (1 : Fin 2) * 64 + 64; omega

/-- Region 0 (a plain row-by-row product): once every grid point has written its 2000 rows back, the output array is
    `x · wᵀ` of the two input arrays as the region found them, entry by entry. -/
theorem reg0_value (c : Dev nD) :
    (dat0 V c).arrAt 2 cfg0.N = lin (V c (Pipeline.arrRef spec0 0)) (V c (Pipeline.arrRef spec0 1)) :=
  (dat0 V c).arrAt_eq_of_cover 2 (lin (V c (Pipeline.arrRef spec0 0)) (V c (Pipeline.arrRef spec0 1)))
    (fun t _ => reg0_flushed_eq V c t) reg0_cover

end Cert.KernelIdeal.Val

end
-- ==== Proof.Reg1.lean ====
/-
  Region 1: the output array is `relu(a + b) · wᵀ` of the three input arrays as the region found them, index by index.
-/
import proofs.«425327_j74732430950951_1_alg».proof.Proof.Gen.KernelIdeal.Frame
import proofs.«425327_j74732430950951_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Val

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Spec

-- The TensorCore's buffer contents when the region is entered: a parameter.
variable (V : (c : Dev nD) → (b : Ref sig .tc) → Buf (Elt Ideal) ((c : Thread nD τ).loc b))

/-! ## The body's matrix product at an index -/

theorem reg1_lhs_0 (i : S2000x96.Idx) (q : dot_S2000x64_S96x64_S2000x96_1_1_0_0_n_n.contr.Idx) :
    (dot_S2000x64_S96x64_S2000x96_1_1_0_0_n_n.lhsIdx i q 0).val = (i 0).val := by
  unfold DotDims.lhsIdx
  rw [dif_neg (show ¬(0 : Fin S2000x64.rank) ∈ dot_S2000x64_S96x64_S2000x96_1_1_0_0_n_n.lhsBatch by decide), dif_pos (show (0 : Fin S2000x64.rank) ∈ dot_S2000x64_S96x64_S2000x96_1_1_0_0_n_n.lhsNonContracting by decide)]
  rfl
theorem reg1_lhs_1 (i : S2000x96.Idx) (q : dot_S2000x64_S96x64_S2000x96_1_1_0_0_n_n.contr.Idx) :
    (dot_S2000x64_S96x64_S2000x96_1_1_0_0_n_n.lhsIdx i q 1).val = (q ⟨0, by decide⟩).val :=
  dot_S2000x64_S96x64_S2000x96_1_1_0_0_n_n.lhsIdx_val_of_single rfl i q
theorem reg1_rhs_0 (i : S2000x96.Idx) (q : dot_S2000x64_S96x64_S2000x96_1_1_0_0_n_n.contr.Idx) :
    (dot_S2000x64_S96x64_S2000x96_1_1_0_0_n_n.rhsIdx i q 0).val = (i 1).val := by
  unfold DotDims.rhsIdx
  rw [dif_neg (show ¬(0 : Fin S96x64.rank) ∈ dot_S2000x64_S96x64_S2000x96_1_1_0_0_n_n.rhsBatch by decide), dif_pos (show (0 : Fin S96x64.rank) ∈ dot_S2000x64_S96x64_S2000x96_1_1_0_0_n_n.rhsNonContracting by decide)]
  rfl
theorem reg1_rhs_1 (i : S2000x96.Idx) (q : dot_S2000x64_S96x64_S2000x96_1_1_0_0_n_n.contr.Idx) :
    (dot_S2000x64_S96x64_S2000x96_1_1_0_0_n_n.rhsIdx i q 1).val = (q ⟨0, by decide⟩).val :=
  dot_S2000x64_S96x64_S2000x96_1_1_0_0_n_n.rhsIdx_val_of_single rfl i q

/-- The product into the zero accumulator, entry `(p, q)`: row `p` of the left operand against row `q` of the right. -/
theorem reg1_matmul_apply (l : FVec Ideal S2000x64 .bf16) (r : FVec Ideal S96x64 .bf16) (p : Fin 2000) (q : Fin 96) :
    matmul dot_S2000x64_S96x64_S2000x96_1_1_0_0_n_n none l r (constant (F := Ideal) S2000x96 .f32 0x00000000#32) (ix2 p q)
      = ∑ k : Fin 64, l (ix2 p k) * r (ix2 q k) := by
  simp only [matmul]
  rw [Ideal.matmul_constant_zero_apply, ← Equiv.sum_comp (ValueIdx.contrEquiv1 dot_S2000x64_S96x64_S2000x96_1_1_0_0_n_n 64 rfl rfl).symm]
  refine Finset.sum_congr rfl fun k _ => ?_
  have hk := ValueIdx.contrEquiv1_symm_val dot_S2000x64_S96x64_S2000x96_1_1_0_0_n_n 64 rfl rfl k
  have el : dot_S2000x64_S96x64_S2000x96_1_1_0_0_n_n.lhsIdx (ix2 p q) ((ValueIdx.contrEquiv1 dot_S2000x64_S96x64_S2000x96_1_1_0_0_n_n 64 rfl rfl).symm k) = ix2 p k := funext fun a => Fin.ext (by
    match a with
    | ⟨0, _⟩ => exact reg1_lhs_0 _ _
    | ⟨1, _⟩ => exact (reg1_lhs_1 _ _).trans hk)
  have er : dot_S2000x64_S96x64_S2000x96_1_1_0_0_n_n.rhsIdx (ix2 p q) ((ValueIdx.contrEquiv1 dot_S2000x64_S96x64_S2000x96_1_1_0_0_n_n 64 rfl rfl).symm k) = ix2 q k := funext fun a => Fin.ext (by
    match a with
    | ⟨0, _⟩ => exact reg1_rhs_0 _ _
    | ⟨1, _⟩ => exact (reg1_rhs_1 _ _).trans hk)
  rw [el, er]

/-- The body's stored value, entry `(p, q)`: the bias added along the rows, the negative part cut off, then the row
    against row `q` of the weights. -/
theorem reg1_pay_apply (x0 : Vec Ideal S2000x64 .f32) (x1 : Vec Ideal S64 .f32) (x2 : Vec Ideal S96x64 .f32)
    (p : Fin 2000) (q : Fin 96) :
    k1_pay1 (F := Ideal) x0 x1 x2 (ix2 p q) = ∑ k : Fin 64, max (x0 (ix2 p k) + x1 (ix1 k)) 0 * x2 (ix2 q k) := by
  unfold k1_pay1
  rw [reg1_matmul_apply]
  refine Finset.sum_congr rfl fun k _ => ?_
  rw [truncf_apply, truncf_apply, maximumf_apply, addf_apply, broadcast_apply, shapeCast_self,
    broadcastTo_1b_ab_apply, shapeCast_a_1a_apply]
  rw [show (FloatOps.ofBits FTy.f32 0x00000000#32 : Ideal .f32) = 0 from Ideal.ofBits_zero_f32]

/-! ## One grid point's block of the result -/

/-- The result at an index whose row lies in the block of rows `2000 n … 2000 n + 1999`: if the three loaded blocks
    are those rows of `a`, the whole of `b` and the whole of `w`, the body's stored value at the row's place inside
    the block is `relu(a + b) · wᵀ` at the index. -/
theorem reg1_point (a : Mat 100000 64) (b : Vc 64) (w : Mat 96 64)
    (x0 : Vec Ideal S2000x64 .f32) (x1 : Vec Ideal S64 .f32) (x2 : Vec Ideal S96x64 .f32) (n : Nat)
    (h0 : ∀ (y : S2000x64.Idx) (i : S100000x64.Idx), (i 0).val = n * 2000 + (y 0).val → (i 1).val = (y 1).val → x0 y = a i)
    (h1 : x1 = b) (h2 : x2 = w)
    (j : S2000x96.Idx) (i : S100000x96.Idx) (hi0 : (i 0).val = n * 2000 + (j 0).val) (hi1 : (i 1).val = (j 1).val) :
    k1_pay1 (F := Ideal) x0 x1 x2 j = lin (biasRelu a b) w i := by
  subst h1 h2
  obtain ⟨p, q, rfl⟩ : ∃ (p : Fin 2000) (q : Fin 96), j = ix2 p q := ⟨j 0, j 1, eq_ix2 j⟩
  obtain ⟨r, q', rfl⟩ : ∃ (r : Fin 100000) (q' : Fin 96), i = ix2 r q' := ⟨i 0, i 1, eq_ix2 i⟩
  obtain rfl : q' = q := Fin.ext hi1
  rw [reg1_pay_apply, lin_apply]
  refine Finset.sum_congr rfl fun k _ => ?_
  rw [biasRelu_apply, h0 (ix2 p k) (ix2 r k) hi0 rfl]

/-! ## From the blocks to the array -/

theorem reg1_hz2 : (![0, 0] : Fin 2 → Nat) = fun _ => 0 := funext fun a => by fin_cases a <;> rfl
theorem reg1_hz1 : (![0] : Fin 1 → Nat) = fun _ => 0 := funext fun a => by fin_cases a; rfl

/-- The index maps over the grid: point `t` reads rows block `t` of `a`, the whole of `b` and `w`, and writes rows block `t`. -/
theorem reg1_idx_facts : ∀ t : Fin cfg1.N, win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Window 0's block at point `t` is rows `2000 t … 2000 t + 1999` of `a`. -/
theorem reg1_iblk0_apply (c : Dev nD) (t : Fin cfg1.N) (y : S2000x64.Idx) (i : S100000x64.Idx)
    (hi0 : (i 0).val = t.val * 2000 + (y 0).val) (hi1 : (i 1).val = (y 1).val) :
    (iblk1 V c 0 t : Vec Ideal S2000x64 .f32) y = (V c (Pipeline.arrRef spec1 0) : S100000x64.Idx → EReal) i := by
  obtain ⟨e0, e1, e2, e3, e4, e5, e6⟩ := reg1_idx_facts t
  unfold iblk1
  rw [View.read_apply]
  show V c (Pipeline.arrRef spec1 0) _ = V c (Pipeline.arrRef spec1 0) i
  refine congrArg _ ?_
  funext a
  apply Fin.ext
  match a with
  | ⟨0, _⟩ => show win1_0.index t (0 : Fin 2) * 2000 + 1 * (y 0).val = (i 0).val; omega
  | ⟨1, _⟩ => show win1_0.index t (1 : Fin 2) * 64 + 1 * (y 1).val = (i 1).val; omega

/-- Window 1's block at every point is the whole of `b`. -/
theorem reg1_iblk1_eq (c : Dev nD) (t : Fin cfg1.N) :
    (iblk1 V c 1 t : Vec Ideal S64 .f32) = (V c (Pipeline.arrRef spec1 1) : S64.Idx → EReal) := by
  obtain ⟨e0, e1, e2, e3, e4, e5, e6⟩ := reg1_idx_facts t
  funext y
  unfold iblk1
  rw [View.read_apply]
  show V c (Pipeline.arrRef spec1 1) _ = V c (Pipeline.arrRef spec1 1) y
  refine congrArg _ ?_
  funext a
  apply Fin.ext
  match a with
  | ⟨0, _⟩ => show win1_1.index t (0 : Fin 1) * 64 + 1 * (y 0).val = (y 0).val; omega

/-- Window 2's block at every point is the whole of `w`. -/
theorem reg1_iblk2_eq (c : Dev nD) (t : Fin cfg1.N) :
    (iblk1 V c 2 t : Vec Ideal S96x64 .f32) = (V c (Pipeline.arrRef spec1 2) : S96x64.Idx → EReal) := by
  obtain ⟨e0, e1, e2, e3, e4, e5, e6⟩ := reg1_idx_facts t
  funext y
  unfold iblk1
  rw [View.read_apply]
  show V c (Pipeline.arrRef spec1 2) _ = V c (Pipeline.arrRef spec1 2) y
  refine congrArg _ ?_
  funext a
  apply Fin.ext
  match a with
  | ⟨0, _⟩ => show win1_2.index t (0 : Fin 2) * 96 + 1 * (y 0).val = (y 0).val; omega
  | ⟨1, _⟩ => show win1_2.index t (1 : Fin 2) * 64 + 1 * (y 1).val = (y 1).val; omega

/-- What point `t` writes back is block `t` of `relu(a + b) · wᵀ` of the arrays as the region finds them. -/
theorem reg1_flushed_eq (c : Dev nD) (t : Fin cfg1.N) :
    (dat1 V c).flushed 3 t = ((cfg1.win 3).blk t).view.read (Elt Ideal)
      (lin (biasRelu (V c (Pipeline.arrRef spec1 0)) (V c (Pipeline.arrRef spec1 1))) (V c (Pipeline.arrRef spec1 2))) := by
  show (cfg1.win 3).cut (grid1.coords t) ((dat1 V c).after 3 t) = _
  rw [after1_3]
  unfold out1_3
  rw [View.canon_unit_zero reg1_hz2]
  simp only [View.ld_unit_zero (S := S2000x64) reg1_hz2, View.ld_unit_zero (S := S64) reg1_hz1, View.ld_unit_zero (S := S96x64) reg1_hz2]
  obtain ⟨e0, e1, e2, e3, e4, e5, e6⟩ := reg1_idx_facts t
  funext j
  show k1_pay1 (F := Ideal) (iblk1 V c 0 t) (iblk1 V c 1 t) (iblk1 V c 2 t) j
    = lin (biasRelu (V c (Pipeline.arrRef spec1 0)) (V c (Pipeline.arrRef spec1 1))) (V c (Pipeline.arrRef spec1 2)) (((cfg1.win 3).blk t).view.emb j)
  refine reg1_point _ _ _ _ _ _ t.val (reg1_iblk0_apply V c t) (reg1_iblk1_eq V c t) (reg1_iblk2_eq V c t) j _ ?_ ?_
  · show win1_3.index t (0 : Fin 2) * 2000 + 1 * (j 0).val = t.val * 2000 + (j 0).val; omega
  · show win1_3.index t (1 : Fin 2) * 96 + 1 * (j 1).val = (j 1).val; omega

/-- An index of the result array is in point `t`'s block iff each coordinate is in the block's range on its axis. -/
theorem reg1_mem_blk (t : Fin cfg1.N) (i : S100000x96.Idx) :
    i ∈ ((cfg1.win 3).blk t).view.set ↔ ∀ a : Fin 2, win1_3.index t a * S2000x96.size a ≤ (i a).val ∧ (i a).val < win1_3.index t a * S2000x96.size a + S2000x96.size a := by
  show i ∈ ((View.whole main_v46).slice (win1_3.rect t)).set ↔ _
  rw [View.set_slice_whole, Rect.mem_set_unit]
  exact Iff.rfl

/-- Every row is in some point's block: row `r` in that of point `r / 2000`. -/
theorem reg1_cover (i : S100000x96.Idx) :
    ∃ t : Fin cfg1.N, (cfg1.win 3).flush t = true ∧ i ∈ ((cfg1.win 3).blk t).view.set := by
  have hi0 : (i 0).val < 100000 := (i 0).isLt
  have hi1 : (i 1).val < 96 := (i 1).isLt
  have hN : grid1.N = 50 := N_1
  obtain ⟨t, ht⟩ : ∃ t : Fin cfg1.N, t.val = (i 0).val / 2000 :=
    ⟨⟨(i 0).val / 2000, by show _ < grid1.N; rw [hN]; omega⟩, rfl⟩
  obtain ⟨e0, e1, e2, e3, e4, e5, e6⟩ := reg1_idx_facts t
  refine ⟨t, flush1_3 t, ?_⟩
  rw [reg1_mem_blk]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 96 ≤ (i 1).val ∧ (i 1).val < win1_3.index t (1 : Fin 2) * 96 + 96; omega

/-- Region 1: the output array is `relu(a + b) · wᵀ` of the three input arrays as the region found them, index by index. -/
theorem reg1_value (c : Dev nD) :
    (dat1 V c).arrAt 3 cfg1.N = lin (biasRelu (V c (Pipeline.arrRef spec1 0)) (V c (Pipeline.arrRef spec1 1))) (V c (Pipeline.arrRef spec1 2)) :=
  (dat1 V c).arrAt_eq_of_cover 3 _ (fun t _ => reg1_flushed_eq V c t) reg1_cover

end Cert.KernelIdeal.Val

end
-- ==== Proof.Reg2.lean ====
/-
  Region 2: the output array is `relu(a + b) · wᵀ` of the three input arrays as the region found them, index by index.
-/
import proofs.«425327_j74732430950951_1_alg».proof.Proof.Gen.KernelIdeal.Frame
import proofs.«425327_j74732430950951_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Val

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Spec

-- The TensorCore's buffer contents when the region is entered: a parameter.
variable (V : (c : Dev nD) → (b : Ref sig .tc) → Buf (Elt Ideal) ((c : Thread nD τ).loc b))

/-! ## The body's matrix product at an index -/

theorem reg2_lhs_0 (i : S2000x128.Idx) (q : dot_S2000x96_S128x96_S2000x128_1_1_0_0_n_n.contr.Idx) :
    (dot_S2000x96_S128x96_S2000x128_1_1_0_0_n_n.lhsIdx i q 0).val = (i 0).val := by
  unfold DotDims.lhsIdx
  rw [dif_neg (show ¬(0 : Fin S2000x96.rank) ∈ dot_S2000x96_S128x96_S2000x128_1_1_0_0_n_n.lhsBatch by decide), dif_pos (show (0 : Fin S2000x96.rank) ∈ dot_S2000x96_S128x96_S2000x128_1_1_0_0_n_n.lhsNonContracting by decide)]
  rfl
theorem reg2_lhs_1 (i : S2000x128.Idx) (q : dot_S2000x96_S128x96_S2000x128_1_1_0_0_n_n.contr.Idx) :
    (dot_S2000x96_S128x96_S2000x128_1_1_0_0_n_n.lhsIdx i q 1).val = (q ⟨0, by decide⟩).val :=
  dot_S2000x96_S128x96_S2000x128_1_1_0_0_n_n.lhsIdx_val_of_single rfl i q
theorem reg2_rhs_0 (i : S2000x128.Idx) (q : dot_S2000x96_S128x96_S2000x128_1_1_0_0_n_n.contr.Idx) :
    (dot_S2000x96_S128x96_S2000x128_1_1_0_0_n_n.rhsIdx i q 0).val = (i 1).val := by
  unfold DotDims.rhsIdx
  rw [dif_neg (show ¬(0 : Fin S128x96.rank) ∈ dot_S2000x96_S128x96_S2000x128_1_1_0_0_n_n.rhsBatch by decide), dif_pos (show (0 : Fin S128x96.rank) ∈ dot_S2000x96_S128x96_S2000x128_1_1_0_0_n_n.rhsNonContracting by decide)]
  rfl
theorem reg2_rhs_1 (i : S2000x128.Idx) (q : dot_S2000x96_S128x96_S2000x128_1_1_0_0_n_n.contr.Idx) :
    (dot_S2000x96_S128x96_S2000x128_1_1_0_0_n_n.rhsIdx i q 1).val = (q ⟨0, by decide⟩).val :=
  dot_S2000x96_S128x96_S2000x128_1_1_0_0_n_n.rhsIdx_val_of_single rfl i q

/-- The product into the zero accumulator, entry `(p, q)`: row `p` of the left operand against row `q` of the right. -/
theorem reg2_matmul_apply (l : FVec Ideal S2000x96 .bf16) (r : FVec Ideal S128x96 .bf16) (p : Fin 2000) (q : Fin 128) :
    matmul dot_S2000x96_S128x96_S2000x128_1_1_0_0_n_n none l r (constant (F := Ideal) S2000x128 .f32 0x00000000#32) (ix2 p q)
      = ∑ k : Fin 96, l (ix2 p k) * r (ix2 q k) := by
  simp only [matmul]
  rw [Ideal.matmul_constant_zero_apply, ← Equiv.sum_comp (ValueIdx.contrEquiv1 dot_S2000x96_S128x96_S2000x128_1_1_0_0_n_n 96 rfl rfl).symm]
  refine Finset.sum_congr rfl fun k _ => ?_
  have hk := ValueIdx.contrEquiv1_symm_val dot_S2000x96_S128x96_S2000x128_1_1_0_0_n_n 96 rfl rfl k
  have el : dot_S2000x96_S128x96_S2000x128_1_1_0_0_n_n.lhsIdx (ix2 p q) ((ValueIdx.contrEquiv1 dot_S2000x96_S128x96_S2000x128_1_1_0_0_n_n 96 rfl rfl).symm k) = ix2 p k := funext fun a => Fin.ext (by
    match a with
    | ⟨0, _⟩ => exact reg2_lhs_0 _ _
    | ⟨1, _⟩ => exact (reg2_lhs_1 _ _).trans hk)
  have er : dot_S2000x96_S128x96_S2000x128_1_1_0_0_n_n.rhsIdx (ix2 p q) ((ValueIdx.contrEquiv1 dot_S2000x96_S128x96_S2000x128_1_1_0_0_n_n 96 rfl rfl).symm k) = ix2 q k := funext fun a => Fin.ext (by
    match a with
    | ⟨0, _⟩ => exact reg2_rhs_0 _ _
    | ⟨1, _⟩ => exact (reg2_rhs_1 _ _).trans hk)
  rw [el, er]

/-- The body's stored value, entry `(p, q)`: the bias added along the rows, the negative part cut off, then the row
    against row `q` of the weights. -/
theorem reg2_pay_apply (x0 : Vec Ideal S2000x96 .f32) (x1 : Vec Ideal S96 .f32) (x2 : Vec Ideal S128x96 .f32)
    (p : Fin 2000) (q : Fin 128) :
    k2_pay1 (F := Ideal) x0 x1 x2 (ix2 p q) = ∑ k : Fin 96, max (x0 (ix2 p k) + x1 (ix1 k)) 0 * x2 (ix2 q k) := by
  unfold k2_pay1
  rw [reg2_matmul_apply]
  refine Finset.sum_congr rfl fun k _ => ?_
  rw [truncf_apply, truncf_apply, maximumf_apply, addf_apply, broadcast_apply, shapeCast_self,
    broadcastTo_1b_ab_apply, shapeCast_a_1a_apply]
  rw [show (FloatOps.ofBits FTy.f32 0x00000000#32 : Ideal .f32) = 0 from Ideal.ofBits_zero_f32]

/-! ## One grid point's block of the result -/

/-- The result at an index whose row lies in the block of rows `2000 n … 2000 n + 1999`: if the three loaded blocks
    are those rows of `a`, the whole of `b` and the whole of `w`, the body's stored value at the row's place inside
    the block is `relu(a + b) · wᵀ` at the index. -/
theorem reg2_point (a : Mat 100000 96) (b : Vc 96) (w : Mat 128 96)
    (x0 : Vec Ideal S2000x96 .f32) (x1 : Vec Ideal S96 .f32) (x2 : Vec Ideal S128x96 .f32) (n : Nat)
    (h0 : ∀ (y : S2000x96.Idx) (i : S100000x96.Idx), (i 0).val = n * 2000 + (y 0).val → (i 1).val = (y 1).val → x0 y = a i)
    (h1 : x1 = b) (h2 : x2 = w)
    (j : S2000x128.Idx) (i : S100000x128.Idx) (hi0 : (i 0).val = n * 2000 + (j 0).val) (hi1 : (i 1).val = (j 1).val) :
    k2_pay1 (F := Ideal) x0 x1 x2 j = lin (biasRelu a b) w i := by
  subst h1 h2
  obtain ⟨p, q, rfl⟩ : ∃ (p : Fin 2000) (q : Fin 128), j = ix2 p q := ⟨j 0, j 1, eq_ix2 j⟩
  obtain ⟨r, q', rfl⟩ : ∃ (r : Fin 100000) (q' : Fin 128), i = ix2 r q' := ⟨i 0, i 1, eq_ix2 i⟩
  obtain rfl : q' = q := Fin.ext hi1
  rw [reg2_pay_apply, lin_apply]
  refine Finset.sum_congr rfl fun k _ => ?_
  rw [biasRelu_apply, h0 (ix2 p k) (ix2 r k) hi0 rfl]

/-! ## From the blocks to the array -/

theorem reg2_hz2 : (![0, 0] : Fin 2 → Nat) = fun _ => 0 := funext fun a => by fin_cases a <;> rfl
theorem reg2_hz1 : (![0] : Fin 1 → Nat) = fun _ => 0 := funext fun a => by fin_cases a; rfl

/-- The index maps over the grid: point `t` reads rows block `t` of `a`, the whole of `b` and `w`, and writes rows block `t`. -/
theorem reg2_idx_facts : ∀ t : Fin cfg2.N, win2_0.index t (0 : Fin 2) = t.val ∧ win2_0.index t (1 : Fin 2) = 0
    ∧ win2_1.index t (0 : Fin 1) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Window 0's block at point `t` is rows `2000 t … 2000 t + 1999` of `a`. -/
theorem reg2_iblk0_apply (c : Dev nD) (t : Fin cfg2.N) (y : S2000x96.Idx) (i : S100000x96.Idx)
    (hi0 : (i 0).val = t.val * 2000 + (y 0).val) (hi1 : (i 1).val = (y 1).val) :
    (iblk2 V c 0 t : Vec Ideal S2000x96 .f32) y = (V c (Pipeline.arrRef spec2 0) : S100000x96.Idx → EReal) i := by
  obtain ⟨e0, e1, e2, e3, e4, e5, e6⟩ := reg2_idx_facts t
  unfold iblk2
  rw [View.read_apply]
  show V c (Pipeline.arrRef spec2 0) _ = V c (Pipeline.arrRef spec2 0) i
  refine congrArg _ ?_
  funext a
  apply Fin.ext
  match a with
  | ⟨0, _⟩ => show win2_0.index t (0 : Fin 2) * 2000 + 1 * (y 0).val = (i 0).val; omega
  | ⟨1, _⟩ => show win2_0.index t (1 : Fin 2) * 96 + 1 * (y 1).val = (i 1).val; omega

/-- Window 1's block at every point is the whole of `b`. -/
theorem reg2_iblk1_eq (c : Dev nD) (t : Fin cfg2.N) :
    (iblk2 V c 1 t : Vec Ideal S96 .f32) = (V c (Pipeline.arrRef spec2 1) : S96.Idx → EReal) := by
  obtain ⟨e0, e1, e2, e3, e4, e5, e6⟩ := reg2_idx_facts t
  funext y
  unfold iblk2
  rw [View.read_apply]
  show V c (Pipeline.arrRef spec2 1) _ = V c (Pipeline.arrRef spec2 1) y
  refine congrArg _ ?_
  funext a
  apply Fin.ext
  match a with
  | ⟨0, _⟩ => show win2_1.index t (0 : Fin 1) * 96 + 1 * (y 0).val = (y 0).val; omega

/-- Window 2's block at every point is the whole of `w`. -/
theorem reg2_iblk2_eq (c : Dev nD) (t : Fin cfg2.N) :
    (iblk2 V c 2 t : Vec Ideal S128x96 .f32) = (V c (Pipeline.arrRef spec2 2) : S128x96.Idx → EReal) := by
  obtain ⟨e0, e1, e2, e3, e4, e5, e6⟩ := reg2_idx_facts t
  funext y
  unfold iblk2
  rw [View.read_apply]
  show V c (Pipeline.arrRef spec2 2) _ = V c (Pipeline.arrRef spec2 2) y
  refine congrArg _ ?_
  funext a
  apply Fin.ext
  match a with
  | ⟨0, _⟩ => show win2_2.index t (0 : Fin 2) * 128 + 1 * (y 0).val = (y 0).val; omega
  | ⟨1, _⟩ => show win2_2.index t (1 : Fin 2) * 96 + 1 * (y 1).val = (y 1).val; omega

/-- What point `t` writes back is block `t` of `relu(a + b) · wᵀ` of the arrays as the region finds them. -/
theorem reg2_flushed_eq (c : Dev nD) (t : Fin cfg2.N) :
    (dat2 V c).flushed 3 t = ((cfg2.win 3).blk t).view.read (Elt Ideal)
      (lin (biasRelu (V c (Pipeline.arrRef spec2 0)) (V c (Pipeline.arrRef spec2 1))) (V c (Pipeline.arrRef spec2 2))) := by
  show (cfg2.win 3).cut (grid2.coords t) ((dat2 V c).after 3 t) = _
  rw [after2_3]
  unfold out2_3
  rw [View.canon_unit_zero reg2_hz2]
  simp only [View.ld_unit_zero (S := S2000x96) reg2_hz2, View.ld_unit_zero (S := S96) reg2_hz1, View.ld_unit_zero (S := S128x96) reg2_hz2]
  obtain ⟨e0, e1, e2, e3, e4, e5, e6⟩ := reg2_idx_facts t
  funext j
  show k2_pay1 (F := Ideal) (iblk2 V c 0 t) (iblk2 V c 1 t) (iblk2 V c 2 t) j
    = lin (biasRelu (V c (Pipeline.arrRef spec2 0)) (V c (Pipeline.arrRef spec2 1))) (V c (Pipeline.arrRef spec2 2)) (((cfg2.win 3).blk t).view.emb j)
  refine reg2_point _ _ _ _ _ _ t.val (reg2_iblk0_apply V c t) (reg2_iblk1_eq V c t) (reg2_iblk2_eq V c t) j _ ?_ ?_
  · show win2_3.index t (0 : Fin 2) * 2000 + 1 * (j 0).val = t.val * 2000 + (j 0).val; omega
  · show win2_3.index t (1 : Fin 2) * 128 + 1 * (j 1).val = (j 1).val; omega

/-- An index of the result array is in point `t`'s block iff each coordinate is in the block's range on its axis. -/
theorem reg2_mem_blk (t : Fin cfg2.N) (i : S100000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v60).slice (win2_3.rect t)).set ↔ _
  rw [View.set_slice_whole, Rect.mem_set_unit]
  exact Iff.rfl

/-- Every row is in some point's block: row `r` in that of point `r / 2000`. -/
theorem reg2_cover (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have hN : grid2.N = 50 := N_2
  obtain ⟨t, ht⟩ : ∃ t : Fin cfg2.N, t.val = (i 0).val / 2000 :=
    ⟨⟨(i 0).val / 2000, by show _ < grid2.N; rw [hN]; omega⟩, rfl⟩
  obtain ⟨e0, e1, e2, e3, e4, e5, e6⟩ := reg2_idx_facts t
  refine ⟨t, flush2_3 t, ?_⟩
  rw [reg2_mem_blk]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 128 ≤ (i 1).val ∧ (i 1).val < win2_3.index t (1 : Fin 2) * 128 + 128; omega

/-- Region 2: the output array is `relu(a + b) · wᵀ` of the three input arrays as the region found them, index by index. -/
theorem reg2_value (c : Dev nD) :
    (dat2 V c).arrAt 3 cfg2.N = lin (biasRelu (V c (Pipeline.arrRef spec2 0)) (V c (Pipeline.arrRef spec2 1))) (V c (Pipeline.arrRef spec2 2)) :=
  (dat2 V c).arrAt_eq_of_cover 3 _ (fun t _ => reg2_flushed_eq V c t) reg2_cover

end Cert.KernelIdeal.Val

end
-- ==== Proof.Reg3.lean ====
/-
  Region 3: the output array is `relu(relu(a + b₁) · wᵀ + b₂)` of the four input arrays as the region found them.
-/
import proofs.«425327_j74732430950951_1_alg».proof.Proof.Gen.KernelIdeal.Frame
import proofs.«425327_j74732430950951_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Val

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Spec

/-! ## The matmul's operand indices, axis by axis -/

theorem lhs_k3_0 (i : S2000x512.Idx) (q : dot_S2000x128_S512x128_S2000x512_1_1_0_0_n_n.contr.Idx) :
    (dot_S2000x128_S512x128_S2000x512_1_1_0_0_n_n.lhsIdx i q 0).val = (i 0).val := by
  unfold DotDims.lhsIdx
  rw [dif_neg (show ¬(0 : Fin S2000x128.rank) ∈ dot_S2000x128_S512x128_S2000x512_1_1_0_0_n_n.lhsBatch by decide), dif_pos (show (0 : Fin S2000x128.rank) ∈ dot_S2000x128_S512x128_S2000x512_1_1_0_0_n_n.lhsNonContracting by decide)]
  rfl
theorem lhs_k3_1 (i : S2000x512.Idx) (q : dot_S2000x128_S512x128_S2000x512_1_1_0_0_n_n.contr.Idx) :
    (dot_S2000x128_S512x128_S2000x512_1_1_0_0_n_n.lhsIdx i q 1).val = (q ⟨0, by decide⟩).val :=
  dot_S2000x128_S512x128_S2000x512_1_1_0_0_n_n.lhsIdx_val_of_single rfl i q
theorem rhs_k3_0 (i : S2000x512.Idx) (q : dot_S2000x128_S512x128_S2000x512_1_1_0_0_n_n.contr.Idx) :
    (dot_S2000x128_S512x128_S2000x512_1_1_0_0_n_n.rhsIdx i q 0).val = (i 1).val := by
  unfold DotDims.rhsIdx
  rw [dif_neg (show ¬(0 : Fin S512x128.rank) ∈ dot_S2000x128_S512x128_S2000x512_1_1_0_0_n_n.rhsBatch by decide), dif_pos (show (0 : Fin S512x128.rank) ∈ dot_S2000x128_S512x128_S2000x512_1_1_0_0_n_n.rhsNonContracting by decide)]
  rfl
theorem rhs_k3_1 (i : S2000x512.Idx) (q : dot_S2000x128_S512x128_S2000x512_1_1_0_0_n_n.contr.Idx) :
    (dot_S2000x128_S512x128_S2000x512_1_1_0_0_n_n.rhsIdx i q 1).val = (q ⟨0, by decide⟩).val :=
  dot_S2000x128_S512x128_S2000x512_1_1_0_0_n_n.rhsIdx_val_of_single rfl i q

/-- The matmul into zeros read at `(p, q)`: row `p` of the left operand against row `q` of the right one. -/
theorem matmul3_apply (l : FVec Ideal S2000x128 .bf16) (r : FVec Ideal S512x128 .bf16) (p : Fin 2000) (q : Fin 512) :
    matmul dot_S2000x128_S512x128_S2000x512_1_1_0_0_n_n none l r (constant (F := Ideal) S2000x512 .f32 0x00000000#32) (ix2 p q)
      = ∑ k : Fin 128, l (ix2 p k) * r (ix2 q k) := by
  simp only [matmul]
  rw [Ideal.matmul_constant_zero_apply, ← Equiv.sum_comp (ValueIdx.contrEquiv1 dot_S2000x128_S512x128_S2000x512_1_1_0_0_n_n 128 rfl rfl).symm]
  refine Finset.sum_congr rfl fun k _ => ?_
  have hk := ValueIdx.contrEquiv1_symm_val dot_S2000x128_S512x128_S2000x512_1_1_0_0_n_n 128 rfl rfl k
  have el : dot_S2000x128_S512x128_S2000x512_1_1_0_0_n_n.lhsIdx (ix2 p q) ((ValueIdx.contrEquiv1 dot_S2000x128_S512x128_S2000x512_1_1_0_0_n_n 128 rfl rfl).symm k) = ix2 p k := funext fun a => Fin.ext (by
    match a with
    | ⟨0, _⟩ => exact lhs_k3_0 _ _
    | ⟨1, _⟩ => exact (lhs_k3_1 _ _).trans hk)
  have er : dot_S2000x128_S512x128_S2000x512_1_1_0_0_n_n.rhsIdx (ix2 p q) ((ValueIdx.contrEquiv1 dot_S2000x128_S512x128_S2000x512_1_1_0_0_n_n 128 rfl rfl).symm k) = ix2 q k := funext fun a => Fin.ext (by
    match a with
    | ⟨0, _⟩ => exact rhs_k3_0 _ _
    | ⟨1, _⟩ => exact (rhs_k3_1 _ _).trans hk)
  rw [el, er]

/-- The body's payload at `(p, q)`. -/
theorem pay3_apply (x0 : Vec Ideal S2000x128 .f32) (x1 : Vec Ideal S128 .f32) (x2 : Vec Ideal S512x128 .f32) (x3 : Vec Ideal S512 .f32)
    (p : Fin 2000) (q : Fin 512) :
    k3_pay1 x0 x1 x2 x3 (ix2 p q)
      = max ((∑ k : Fin 128, max (x0 (ix2 p k) + x1 (ix1 k)) 0 * x2 (ix2 q k)) + x3 (ix1 q)) 0 := by
  unfold k3_pay1
  rw [maximumf_apply, addf_apply, matmul3_apply, broadcast_apply, broadcastTo_1b_ab_apply, shapeCast_a_1a_apply]
  simp only [truncf_apply, maximumf_apply, addf_apply, broadcast_apply, shapeCast_self, broadcastTo_1b_ab_apply, shapeCast_a_1a_apply]
  have h0 : (FloatOps.ofBits (F := Ideal) FTy.f32 0x00000000#32 : EReal) = 0 := Ideal.ofBits_zero_f32
  simp only [h0]

/- The TensorCore's buffer contents when the region is entered: a parameter. -/
variable (V : (c : Dev nD) → (b : Ref sig .tc) → Buf (Elt Ideal) ((c : Thread nD τ).loc b))

theorem zeros2_reg3 : (![0, 0] : Fin 2 → Nat) = fun _ => 0 := funext fun a => by fin_cases a <;> rfl
theorem zeros1_reg3 : (![0] : Fin 1 → Nat) = fun _ => 0 := funext fun a => by fin_cases a <;> rfl

/-- The printed index maps over the grid: the row blocks of the activations and of the output move with the point,
    the small operands stay at block 0. -/
theorem idx_facts3 : ∀ t : Fin cfg3.N, win3_0.index t (0 : Fin 2) = t.val ∧ win3_0.index t (1 : Fin 2) = 0
    ∧ win3_1.index t (0 : Fin 1) = 0
    ∧ win3_2.index t (0 : Fin 2) = 0 ∧ win3_2.index t (1 : Fin 2) = 0
    ∧ win3_3.index t (0 : Fin 1) = 0
    ∧ win3_4.index t (0 : Fin 2) = t.val ∧ win3_4.index t (1 : Fin 2) = 0 :=
  (by decide +kernel : ∀ t : Fin grid3.N, _)

/-- Row `p` of point `t`'s block of the activations is row `2000 t + p` of the array. -/
theorem iblk3_0_apply (c : Dev nD) (t : Fin cfg3.N) (p : Fin 2000) (k : Fin 128) (r : Fin 100000) (hr : r.val = t.val * 2000 + p.val) :
    (iblk3 V c 0 t : Vec Ideal S2000x128 .f32) (ix2 p k) = (V c (Pipeline.arrRef spec3 0) : Mat 100000 128) (ix2 r k) := by
  obtain ⟨e0, e1, -⟩ := idx_facts3 t
  show (V c (Pipeline.arrRef spec3 0) : Mat 100000 128) (((cfg3.win 0).blk t).view.emb (ix2 p k)) = _
  refine congrArg _ (funext fun a => Fin.ext ?_)
  match a with
  | ⟨0, _⟩ => show win3_0.index t (0 : Fin 2) * 2000 + 1 * p.val = r.val; omega
  | ⟨1, _⟩ => show win3_0.index t (1 : Fin 2) * 128 + 1 * k.val = k.val; omega

/-- The first bias's block is the whole vector at every point. -/
theorem iblk3_1_apply (c : Dev nD) (t : Fin cfg3.N) (k : Fin 128) :
    (iblk3 V c 1 t : Vec Ideal S128 .f32) (ix1 k) = (V c (Pipeline.arrRef spec3 1) : Vc 128) (ix1 k) := by
  obtain ⟨-, -, e2, -⟩ := idx_facts3 t
  show (V c (Pipeline.arrRef spec3 1) : Vc 128) (((cfg3.win 1).blk t).view.emb (ix1 k)) = _
  refine congrArg _ (funext fun a => Fin.ext ?_)
  match a with
  | ⟨0, _⟩ => show win3_1.index t (0 : Fin 1) * 128 + 1 * k.val = k.val; omega

/-- The weights' block is the whole matrix at every point. -/
theorem iblk3_2_apply (c : Dev nD) (t : Fin cfg3.N) (q : Fin 512) (k : Fin 128) :
    (iblk3 V c 2 t : Vec Ideal S512x128 .f32) (ix2 q k) = (V c (Pipeline.arrRef spec3 2) : Mat 512 128) (ix2 q k) := by
  obtain ⟨-, -, -, e3, e4, -⟩ := idx_facts3 t
  show (V c (Pipeline.arrRef spec3 2) : Mat 512 128) (((cfg3.win 2).blk t).view.emb (ix2 q k)) = _
  refine congrArg _ (funext fun a => Fin.ext ?_)
  match a with
  | ⟨0, _⟩ => show win3_2.index t (0 : Fin 2) * 512 + 1 * q.val = q.val; omega
  | ⟨1, _⟩ => show win3_2.index t (1 : Fin 2) * 128 + 1 * k.val = k.val; omega

/-- The second bias's block is the whole vector at every point. -/
theorem iblk3_3_apply (c : Dev nD) (t : Fin cfg3.N) (q : Fin 512) :
    (iblk3 V c 3 t : Vec Ideal S512 .f32) (ix1 q) = (V c (Pipeline.arrRef spec3 3) : Vc 512) (ix1 q) := by
  obtain ⟨-, -, -, -, -, e5, -⟩ := idx_facts3 t
  show (V c (Pipeline.arrRef spec3 3) : Vc 512) (((cfg3.win 3).blk t).view.emb (ix1 q)) = _
  refine congrArg _ (funext fun a => Fin.ext ?_)
  match a with
  | ⟨0, _⟩ => show win3_3.index t (0 : Fin 1) * 512 + 1 * q.val = q.val; omega

/-- One point's payload, computed from blocks that are the stated rows of the four arrays, is the specification's value
    at the block's place in the output array. -/
theorem point3 (A : Mat 100000 128) (B1 : Vc 128) (W : Mat 512 128) (B2 : Vc 512)
    (x0 : Vec Ideal S2000x128 .f32) (x1 : Vec Ideal S128 .f32) (x2 : Vec Ideal S512x128 .f32) (x3 : Vec Ideal S512 .f32)
    (n : Nat)
    (h0 : ∀ (p : Fin 2000) (k : Fin 128) (r : Fin 100000), r.val = n * 2000 + p.val → x0 (ix2 p k) = A (ix2 r k))
    (h1 : ∀ k : Fin 128, x1 (ix1 k) = B1 (ix1 k))
    (h2 : ∀ (q : Fin 512) (k : Fin 128), x2 (ix2 q k) = W (ix2 q k))
    (h3 : ∀ q : Fin 512, x3 (ix1 q) = B2 (ix1 q))
    (y : S2000x512.Idx) (i : S100000x512.Idx) (hi0 : (i 0).val = n * 2000 + (y 0).val) (hi1 : (i 1).val = (y 1).val) :
    k3_pay1 x0 x1 x2 x3 y = biasRelu (lin (biasRelu A B1) W) B2 i := by
  obtain ⟨p, q, rfl⟩ : ∃ (p : Fin 2000) (q : Fin 512), y = ix2 p q := ⟨y 0, y 1, eq_ix2 y⟩
  obtain ⟨r, q', rfl⟩ : ∃ (r : Fin 100000) (q' : Fin 512), i = ix2 r q' := ⟨i 0, i 1, eq_ix2 i⟩
  obtain rfl : q' = q := Fin.ext hi1
  rw [pay3_apply, biasRelu_apply, lin_apply]
  simp only [biasRelu_apply, h0 _ _ r hi0, h1, h2, h3]

/-- What point `t` writes back is block `t` of the specification's function of the four arrays as the region found them. -/
theorem flushed3_eq (c : Dev nD) (t : Fin cfg3.N) :
    (dat3 V c).flushed 4 t = ((cfg3.win 4).blk t).view.read (Elt Ideal)
      (biasRelu (lin (biasRelu (V c (Pipeline.arrRef spec3 0)) (V c (Pipeline.arrRef spec3 1))) (V c (Pipeline.arrRef spec3 2))) (V c (Pipeline.arrRef spec3 3))) := by
  show (cfg3.win 4).cut (grid3.coords t) ((dat3 V c).after 4 t) = _
  rw [after3_4]
  unfold out3_4
  rw [View.canon_unit_zero zeros2_reg3]
  simp only [View.ld_unit_zero (S := S2000x128) zeros2_reg3, View.ld_unit_zero (S := S128) zeros1_reg3, View.ld_unit_zero (S := S512x128) zeros2_reg3, View.ld_unit_zero (S := S512) zeros1_reg3]
  funext j
  obtain ⟨-, -, -, -, -, -, e6, e7⟩ := idx_facts3 t
  refine point3 (V c (Pipeline.arrRef spec3 0)) (V c (Pipeline.arrRef spec3 1)) (V c (Pipeline.arrRef spec3 2)) (V c (Pipeline.arrRef spec3 3))
    (iblk3 V c 0 t) (iblk3 V c 1 t) (iblk3 V c 2 t) (iblk3 V c 3 t) t.val
    (fun p k r hr => iblk3_0_apply V c t p k r hr) (iblk3_1_apply V c t) (iblk3_2_apply V c t) (iblk3_3_apply V c t)
    ((win3 4).xinj (grid3.coords t) j) (((cfg3.win 4).blk t).view.emb j) ?_ ?_
  · show win3_4.index t (0 : Fin 2) * 2000 + 1 * (j 0).val = t.val * 2000 + (j 0).val; omega
  · show win3_4.index t (1 : Fin 2) * 512 + 1 * (j 1).val = (j 1).val; omega

/-- An index of the output array is in point `t`'s block iff each coordinate is in the block's range on its axis. -/
theorem mem_blk3 (t : Fin cfg3.N) (i : S100000x512.Idx) :
    i ∈ ((cfg3.win 4).blk t).view.set ↔ ∀ a : Fin 2, win3_4.index t a * S2000x512.size a ≤ (i a).val ∧ (i a).val < win3_4.index t a * S2000x512.size a + S2000x512.size a := by
  show i ∈ ((View.whole main_v74).slice (win3_4.rect t)).set ↔ _
  rw [View.set_slice_whole, Rect.mem_set_unit]
  exact Iff.rfl

/-- The 50 row blocks fill the output: row `r` lies in the block of point `r / 2000`. -/
theorem cover3 (i : S100000x512.Idx) :
    ∃ t : Fin cfg3.N, (cfg3.win 4).flush t = true ∧ i ∈ ((cfg3.win 4).blk t).view.set := by
  have hi0 : (i 0).val < 100000 := (i 0).isLt
  have hi1 : (i 1).val < 512 := (i 1).isLt
  have hN : cfg3.N = 50 := N_3
  obtain ⟨t, ht⟩ : ∃ t : Fin cfg3.N, t.val = (i 0).val / 2000 := ⟨⟨(i 0).val / 2000, by rw [hN]; omega⟩, rfl⟩
  obtain ⟨-, -, -, -, -, -, e6, e7⟩ := idx_facts3 t
  refine ⟨t, flush3_4 t, ?_⟩
  rw [mem_blk3]
  intro a
  match a with
  | ⟨0, _⟩ => show win3_4.index t (0 : Fin 2) * 2000 ≤ (i 0).val ∧ (i 0).val < win3_4.index t (0 : Fin 2) * 2000 + 2000; omega
  | ⟨1, _⟩ => show win3_4.index t (1 : Fin 2) * 512 ≤ (i 1).val ∧ (i 1).val < win3_4.index t (1 : Fin 2) * 512 + 512; omega

/-- Region 3: the output array is `relu(relu(a + b₁) · wᵀ + b₂)` of the four input arrays as the region found them. -/
theorem reg3_value (c : Dev nD) :
    (dat3 V c).arrAt 4 cfg3.N = biasRelu (lin (biasRelu (V c (Pipeline.arrRef spec3 0)) (V c (Pipeline.arrRef spec3 1))) (V c (Pipeline.arrRef spec3 2))) (V c (Pipeline.arrRef spec3 3)) :=
  (dat3 V c).arrAt_eq_of_cover 4 _ (fun t _ => flushed3_eq V c t) cover3

end Cert.KernelIdeal.Val

end
-- ==== Proof.Reg4.lean ====
/-
  Region 4: the output array is `relu(x · wᵀ + b)` of the three input arrays as the region found them.

  The grid has fifty points. Point `t` stages rows `2000 t … 2000 t + 1999` of `x` together with all of the weights
  `w` and of the bias `b`, and writes back rows `2000 t … 2000 t + 1999` of the output. Entry `(p, q)` of what it
  stores is `max (∑ k, x[2000 t + p, k] · w[q, k] + b[q]) 0`: a row of `x` against row `q` of `w` (both operands are
  summed along their second axis), the bias added along the rows, the negative part cut off. That is entry
  `(2000 t + p, q)` of `biasRelu (lin x w) b`; the fifty row blocks fill the output array, so the array is that function.
-/
import proofs.«425327_j74732430950951_1_alg».proof.Proof.Gen.KernelIdeal.Frame
import proofs.«425327_j74732430950951_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Val

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Spec

/-! ## The product of a row block with the weights, entry by entry -/

/-- On the row axis the left operand of the product is read at the result's row. -/
theorem prodLeft4_row (i : S2000x256.Idx) (q : dot_S2000x512_S256x512_S2000x256_1_1_0_0_n_n.contr.Idx) :
    (dot_S2000x512_S256x512_S2000x256_1_1_0_0_n_n.lhsIdx i q 0).val = (i 0).val := by
  unfold DotDims.lhsIdx
  rw [dif_neg (show ¬(0 : Fin S2000x512.rank) ∈ dot_S2000x512_S256x512_S2000x256_1_1_0_0_n_n.lhsBatch by decide), dif_pos (show (0 : Fin S2000x512.rank) ∈ dot_S2000x512_S256x512_S2000x256_1_1_0_0_n_n.lhsNonContracting by decide)]
  rfl
/-- On the summed axis the left operand is read at the summation position. -/
theorem prodLeft4_sum (i : S2000x256.Idx) (q : dot_S2000x512_S256x512_S2000x256_1_1_0_0_n_n.contr.Idx) :
    (dot_S2000x512_S256x512_S2000x256_1_1_0_0_n_n.lhsIdx i q 1).val = (q ⟨0, by decide⟩).val :=
  dot_S2000x512_S256x512_S2000x256_1_1_0_0_n_n.lhsIdx_val_of_single rfl i q
/-- On its row axis the right operand (the weights) is read at the result's column. -/
theorem prodRight4_row (i : S2000x256.Idx) (q : dot_S2000x512_S256x512_S2000x256_1_1_0_0_n_n.contr.Idx) :
    (dot_S2000x512_S256x512_S2000x256_1_1_0_0_n_n.rhsIdx i q 0).val = (i 1).val := by
  unfold DotDims.rhsIdx
  rw [dif_neg (show ¬(0 : Fin S256x512.rank) ∈ dot_S2000x512_S256x512_S2000x256_1_1_0_0_n_n.rhsBatch by decide), dif_pos (show (0 : Fin S256x512.rank) ∈ dot_S2000x512_S256x512_S2000x256_1_1_0_0_n_n.rhsNonContracting by decide)]
  rfl
/-- On the summed axis the right operand is read at the summation position. -/
theorem prodRight4_sum (i : S2000x256.Idx) (q : dot_S2000x512_S256x512_S2000x256_1_1_0_0_n_n.contr.Idx) :
    (dot_S2000x512_S256x512_S2000x256_1_1_0_0_n_n.rhsIdx i q 1).val = (q ⟨0, by decide⟩).val :=
  dot_S2000x512_S256x512_S2000x256_1_1_0_0_n_n.rhsIdx_val_of_single rfl i q

/-- The product into a zero accumulator, at entry `(p, q)`: row `p` of the left operand against row `q` of the right. -/
theorem product4_apply (l : FVec Ideal S2000x512 .bf16) (r : FVec Ideal S256x512 .bf16) (p : Fin 2000) (q : Fin 256) :
    matmul dot_S2000x512_S256x512_S2000x256_1_1_0_0_n_n none l r (constant (F := Ideal) S2000x256 .f32 0x00000000#32) (ix2 p q)
      = ∑ k : Fin 512, l (ix2 p k) * r (ix2 q k) := by
  show FloatOps.matmul dot_S2000x512_S256x512_S2000x256_1_1_0_0_n_n none l r (constant (F := Ideal) S2000x256 .f32 0x00000000#32) (ix2 p q) = _
  rw [Ideal.matmul_constant_zero_apply, ← Equiv.sum_comp (ValueIdx.contrEquiv1 dot_S2000x512_S256x512_S2000x256_1_1_0_0_n_n 512 rfl rfl).symm]
  refine Finset.sum_congr rfl fun k _ => ?_
  have hk := ValueIdx.contrEquiv1_symm_val dot_S2000x512_S256x512_S2000x256_1_1_0_0_n_n 512 rfl rfl k
  have el : dot_S2000x512_S256x512_S2000x256_1_1_0_0_n_n.lhsIdx (ix2 p q) ((ValueIdx.contrEquiv1 dot_S2000x512_S256x512_S2000x256_1_1_0_0_n_n 512 rfl rfl).symm k) = ix2 p k := funext fun a => Fin.ext (by
    match a with
    | ⟨0, _⟩ => exact prodLeft4_row _ _
    | ⟨1, _⟩ => exact (prodLeft4_sum _ _).trans hk)
  have er : dot_S2000x512_S256x512_S2000x256_1_1_0_0_n_n.rhsIdx (ix2 p q) ((ValueIdx.contrEquiv1 dot_S2000x512_S256x512_S2000x256_1_1_0_0_n_n 512 rfl rfl).symm k) = ix2 q k := funext fun a => Fin.ext (by
    match a with
    | ⟨0, _⟩ => exact prodRight4_row _ _
    | ⟨1, _⟩ => exact (prodRight4_sum _ _).trans hk)
  rw [el, er]

/-! ## What the body stores -/

/-- What the body stores, at entry `(p, q)` of the block: row `p` of `x` against row `q` of the weights, plus the
    bias at `q` (the bias vector laid out as one row and repeated down the rows), cut off below at zero. The change of
    format before the product is the identity on the extended reals. -/
theorem stored4_apply (x : Vec Ideal S2000x512 .f32) (w : Vec Ideal S256x512 .f32) (b : Vec Ideal S256 .f32)
    (p : Fin 2000) (q : Fin 256) :
    k4_pay1 (F := Ideal) x w b (ix2 p q) = max ((∑ k : Fin 512, x (ix2 p k) * w (ix2 q k)) + b (ix1 q)) 0 := by
  unfold k4_pay1
  rw [maximumf_apply, addf_apply, product4_apply, broadcastTo_1b_ab_apply, shapeCast_a_1a_apply, shapeCast_self, broadcast_apply]
  show max ((∑ k : Fin 512, x (ix2 p k) * w (ix2 q k)) + b (ix1 q)) (Ideal.ofBits .f32 0x00000000#32) = _
  rw [Ideal.ofBits_zero_f32]

/-- One entry of what the body stores, against the whole arrays: if the row block `x` is rows `r0, r0 + 1, …` of `X`, and
    `w`, `b` are all of `W`, `B`, then entry `j` of the stored block is entry `(r0 + j₀, j₁)` of `relu (X · Wᵀ + B)`. -/
theorem storedEntry4 (X : Mat 100000 512) (W : Mat 256 512) (B : Vc 256)
    (x : Vec Ideal S2000x512 .f32) (w : Vec Ideal S256x512 .f32) (b : Vec Ideal S256 .f32) (r0 : Nat)
    (hx : ∀ (p : Fin 2000) (k : Fin 512) (i : S100000x512.Idx), (i 0).val = r0 + p.val → (i 1).val = k.val → x (ix2 p k) = X i)
    (hw : ∀ (q : Fin 256) (k : Fin 512), w (ix2 q k) = W (ix2 q k))
    (hb : ∀ q : Fin 256, b (ix1 q) = B (ix1 q))
    (j : S2000x256.Idx) (i : S100000x256.Idx) (hi0 : (i 0).val = r0 + (j 0).val) (hi1 : (i 1).val = (j 1).val) :
    k4_pay1 (F := Ideal) x w b j = biasRelu (lin X W) B i := by
  obtain ⟨p, q, rfl⟩ : ∃ (p : Fin 2000) (q : Fin 256), j = ix2 p q := ⟨j 0, j 1, eq_ix2 j⟩
  obtain ⟨p', q', rfl⟩ : ∃ (p' : Fin 100000) (q' : Fin 256), i = ix2 p' q' := ⟨i 0, i 1, eq_ix2 i⟩
  obtain rfl : q' = q := Fin.ext hi1
  rw [stored4_apply, biasRelu_apply, lin_apply, hb]
  refine congrArg (fun s => max (s + B (ix1 q')) 0) (Finset.sum_congr rfl fun k _ => ?_)
  rw [hx p k (ix2 p' k) hi0 rfl, hw]

/-! ## From the row blocks to the array -/

-- The TensorCore's buffer contents when the region is entered: a parameter.
variable (V : (c : Dev nD) → (b : Ref sig .tc) → Buf (Elt Ideal) ((c : Thread nD τ).loc b))

/-- The body reads and writes its whole staging buffers: the offsets of its accesses are all zero. -/
theorem zeroOffsets4_2 : (![0, 0] : Fin 2 → Nat) = fun _ => 0 := funext fun a => by fin_cases a <;> rfl
theorem zeroOffsets4_1 : (![0] : Fin 1 → Nat) = fun _ => 0 := funext fun a => by fin_cases a <;> rfl

/-- The index maps over the grid: point `t` stages row block `t` of `x` and of the output, and the one block of the
    weights and of the bias. -/
theorem blockIndex4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = t.val ∧ win4_3.index t (1 : Fin 2) = 0 :=
  (by decide +kernel : ∀ t : Fin grid4.N, _)

/-- What point `t` writes back is row block `t` of `relu (x · wᵀ + b)` of the arrays as the region finds them: an
    element of a staged block sits in its array at block index × block size + its coordinate inside the block. -/
theorem writtenBack4_eq (c : Dev nD) (t : Fin cfg4.N) :
    (dat4 V c).flushed 3 t = ((cfg4.win 3).blk t).view.read (Elt Ideal) (biasRelu (lin (V c (Pipeline.arrRef spec4 0)) (V c (Pipeline.arrRef spec4 1))) (V c (Pipeline.arrRef spec4 2))) := by
  show (cfg4.win 3).cut (grid4.coords t) ((dat4 V c).after 3 t) = _
  rw [after4_3]
  unfold out4_3
  rw [View.canon_unit_zero zeroOffsets4_2]
  simp only [View.ld_unit_zero (S := S2000x512) zeroOffsets4_2, View.ld_unit_zero (S := S256x512) zeroOffsets4_2, View.ld_unit_zero (S := S256) zeroOffsets4_1]
  obtain ⟨e00, e01, e10, e11, e20, e30, e31⟩ := blockIndex4 t
  funext j
  refine storedEntry4 (V c (Pipeline.arrRef spec4 0)) (V c (Pipeline.arrRef spec4 1)) (V c (Pipeline.arrRef spec4 2))
    (iblk4 V c 0 t) (iblk4 V c 1 t) (iblk4 V c 2 t) (t.val * 2000) ?_ ?_ ?_ ((win4 3).xinj (grid4.coords t) j) (((cfg4.win 3).blk t).view.emb j) ?_ ?_
  · intro p k i h0 h1
    show V c (Pipeline.arrRef spec4 0) (((cfg4.win 0).blk t).view.emb (ix2 p k)) = V c (Pipeline.arrRef spec4 0) i
    refine congrArg _ (funext fun a => Fin.ext ?_)
    match a with
    | ⟨0, _⟩ => show win4_0.index t (0 : Fin 2) * 2000 + 1 * p.val = (i 0).val; omega
    | ⟨1, _⟩ => show win4_0.index t (1 : Fin 2) * 512 + 1 * k.val = (i 1).val; omega
  · intro q k
    show V c (Pipeline.arrRef spec4 1) (((cfg4.win 1).blk t).view.emb (ix2 q k)) = V c (Pipeline.arrRef spec4 1) (ix2 q k)
    refine congrArg _ (funext fun a => Fin.ext ?_)
    match a with
    | ⟨0, _⟩ => show win4_1.index t (0 : Fin 2) * 256 + 1 * q.val = q.val; omega
    | ⟨1, _⟩ => show win4_1.index t (1 : Fin 2) * 512 + 1 * k.val = k.val; omega
  · intro q
    show V c (Pipeline.arrRef spec4 2) (((cfg4.win 2).blk t).view.emb (ix1 q)) = V c (Pipeline.arrRef spec4 2) (ix1 q)
    refine congrArg _ (funext fun a => Fin.ext ?_)
    match a with
    | ⟨0, _⟩ => show win4_2.index t (0 : Fin 1) * 256 + 1 * q.val = q.val; omega
  · show win4_3.index t (0 : Fin 2) * 2000 + 1 * (j 0).val = t.val * 2000 + (j 0).val; omega
  · show win4_3.index t (1 : Fin 2) * 256 + 1 * (j 1).val = (j 1).val; omega

/-- An index of the output array is in point `t`'s block iff each coordinate is in the block's range on its axis. -/
theorem mem_rowBlock4 (t : Fin cfg4.N) (i : S100000x256.Idx) :
    i ∈ ((cfg4.win 3).blk t).view.set ↔ ∀ a : Fin 2, win4_3.index t a * S2000x256.size a ≤ (i a).val ∧ (i a).val < win4_3.index t a * S2000x256.size a + S2000x256.size a := by
  show i ∈ ((View.whole main_v75).slice (win4_3.rect t)).set ↔ _
  rw [View.set_slice_whole, Rect.mem_set_unit]
  exact Iff.rfl

/-- Every row `r` of the output lies in the block of point `r / 2000`: the fifty row blocks fill the array. -/
theorem rowBlocks_cover4 (i : S100000x256.Idx) :
    ∃ t : Fin cfg4.N, (cfg4.win 3).flush t = true ∧ i ∈ ((cfg4.win 3).blk t).view.set := by
  have hi0 : (i 0).val < 100000 := (i 0).isLt
  have hi1 : (i 1).val < 256 := (i 1).isLt
  have hN : cfg4.N = 50 := N_4
  obtain ⟨t, ht⟩ : ∃ t : Fin cfg4.N, t.val = (i 0).val / 2000 := ⟨⟨(i 0).val / 2000, by rw [hN]; omega⟩, rfl⟩
  obtain ⟨-, -, -, -, -, e30, e31⟩ := blockIndex4 t
  refine ⟨t, flush4_3 t, ?_⟩
  rw [mem_rowBlock4]
  intro a
  match a with
  | ⟨0, _⟩ => show win4_3.index t (0 : Fin 2) * 2000 ≤ (i 0).val ∧ (i 0).val < win4_3.index t (0 : Fin 2) * 2000 + 2000; omega
  | ⟨1, _⟩ => show win4_3.index t (1 : Fin 2) * 256 ≤ (i 1).val ∧ (i 1).val < win4_3.index t (1 : Fin 2) * 256 + 256; omega

/-- Region 4: the output array is `relu(x · wᵀ + b)` of the three input arrays as the region found them. -/
theorem reg4_value (c : Dev nD) :
    (dat4 V c).arrAt 3 cfg4.N = biasRelu (lin (V c (Pipeline.arrRef spec4 0)) (V c (Pipeline.arrRef spec4 1))) (V c (Pipeline.arrRef spec4 2)) :=
  (dat4 V c).arrAt_eq_of_cover 3 _ (fun t _ => writtenBack4_eq V c t) (rowBlocks_cover4)

end Cert.KernelIdeal.Val

end
-- ==== Proof.Reg5.lean ====
/-
  Region 5: the output array is `relu(x · wᵀ + b)` of the three input arrays as the region found them.

  The grid has fifty points. Point `t` stages rows `2000 t … 2000 t + 1999` of `x` (256 columns) together with all of
  the weights `w` (170 rows of 256) and of the bias `b` (170 entries), and writes back rows `2000 t … 2000 t + 1999` of
  the output (170 columns). Entry `(p, q)` of what it stores is `max (∑ k, x[2000 t + p, k] · w[q, k] + b[q]) 0`: a row
  of `x` against row `q` of `w` (both operands are summed along their second axis), the bias added along the rows, the
  negative part cut off. That is entry `(2000 t + p, q)` of `biasRelu (lin x w) b`; the fifty row blocks fill the output
  array, so the array is that function.
-/
import proofs.«425327_j74732430950951_1_alg».proof.Proof.Gen.KernelIdeal.Frame
import proofs.«425327_j74732430950951_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Val

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Spec

/-! ## The product of a row block with the weights, entry by entry -/

/-- On the row axis the left operand of the product is read at the result's row. -/
theorem prodLeft5_row (i : S2000x170.Idx) (q : dot_S2000x256_S170x256_S2000x170_1_1_0_0_n_n.contr.Idx) :
    (dot_S2000x256_S170x256_S2000x170_1_1_0_0_n_n.lhsIdx i q 0).val = (i 0).val := by
  unfold DotDims.lhsIdx
  rw [dif_neg (show ¬(0 : Fin S2000x256.rank) ∈ dot_S2000x256_S170x256_S2000x170_1_1_0_0_n_n.lhsBatch by decide), dif_pos (show (0 : Fin S2000x256.rank) ∈ dot_S2000x256_S170x256_S2000x170_1_1_0_0_n_n.lhsNonContracting by decide)]
  rfl
/-- On the summed axis the left operand is read at the summation position. -/
theorem prodLeft5_sum (i : S2000x170.Idx) (q : dot_S2000x256_S170x256_S2000x170_1_1_0_0_n_n.contr.Idx) :
    (dot_S2000x256_S170x256_S2000x170_1_1_0_0_n_n.lhsIdx i q 1).val = (q ⟨0, by decide⟩).val :=
  dot_S2000x256_S170x256_S2000x170_1_1_0_0_n_n.lhsIdx_val_of_single rfl i q
/-- On its row axis the right operand (the weights) is read at the result's column. -/
theorem prodRight5_row (i : S2000x170.Idx) (q : dot_S2000x256_S170x256_S2000x170_1_1_0_0_n_n.contr.Idx) :
    (dot_S2000x256_S170x256_S2000x170_1_1_0_0_n_n.rhsIdx i q 0).val = (i 1).val := by
  unfold DotDims.rhsIdx
  rw [dif_neg (show ¬(0 : Fin S170x256.rank) ∈ dot_S2000x256_S170x256_S2000x170_1_1_0_0_n_n.rhsBatch by decide), dif_pos (show (0 : Fin S170x256.rank) ∈ dot_S2000x256_S170x256_S2000x170_1_1_0_0_n_n.rhsNonContracting by decide)]
  rfl
/-- On the summed axis the right operand is read at the summation position. -/
theorem prodRight5_sum (i : S2000x170.Idx) (q : dot_S2000x256_S170x256_S2000x170_1_1_0_0_n_n.contr.Idx) :
    (dot_S2000x256_S170x256_S2000x170_1_1_0_0_n_n.rhsIdx i q 1).val = (q ⟨0, by decide⟩).val :=
  dot_S2000x256_S170x256_S2000x170_1_1_0_0_n_n.rhsIdx_val_of_single rfl i q

/-- The product into a zero accumulator, at entry `(p, q)`: row `p` of the left operand against row `q` of the right. -/
theorem product5_apply (l : FVec Ideal S2000x256 .bf16) (r : FVec Ideal S170x256 .bf16) (p : Fin 2000) (q : Fin 170) :
    matmul dot_S2000x256_S170x256_S2000x170_1_1_0_0_n_n none l r (constant (F := Ideal) S2000x170 .f32 0x00000000#32) (ix2 p q)
      = ∑ k : Fin 256, l (ix2 p k) * r (ix2 q k) := by
  show FloatOps.matmul dot_S2000x256_S170x256_S2000x170_1_1_0_0_n_n none l r (constant (F := Ideal) S2000x170 .f32 0x00000000#32) (ix2 p q) = _
  rw [Ideal.matmul_constant_zero_apply, ← Equiv.sum_comp (ValueIdx.contrEquiv1 dot_S2000x256_S170x256_S2000x170_1_1_0_0_n_n 256 rfl rfl).symm]
  refine Finset.sum_congr rfl fun k _ => ?_
  have hk := ValueIdx.contrEquiv1_symm_val dot_S2000x256_S170x256_S2000x170_1_1_0_0_n_n 256 rfl rfl k
  have el : dot_S2000x256_S170x256_S2000x170_1_1_0_0_n_n.lhsIdx (ix2 p q) ((ValueIdx.contrEquiv1 dot_S2000x256_S170x256_S2000x170_1_1_0_0_n_n 256 rfl rfl).symm k) = ix2 p k := funext fun a => Fin.ext (by
    match a with
    | ⟨0, _⟩ => exact prodLeft5_row _ _
    | ⟨1, _⟩ => exact (prodLeft5_sum _ _).trans hk)
  have er : dot_S2000x256_S170x256_S2000x170_1_1_0_0_n_n.rhsIdx (ix2 p q) ((ValueIdx.contrEquiv1 dot_S2000x256_S170x256_S2000x170_1_1_0_0_n_n 256 rfl rfl).symm k) = ix2 q k := funext fun a => Fin.ext (by
    match a with
    | ⟨0, _⟩ => exact prodRight5_row _ _
    | ⟨1, _⟩ => exact (prodRight5_sum _ _).trans hk)
  rw [el, er]

/-! ## What the body stores -/

/-- What the body stores, at entry `(p, q)` of the block: row `p` of `x` against row `q` of the weights, plus the
    bias at `q` (the bias vector laid out as one row and repeated down the rows), cut off below at zero. The change of
    format before the product is the identity on the extended reals. -/
theorem stored5_apply (x : Vec Ideal S2000x256 .f32) (w : Vec Ideal S170x256 .f32) (b : Vec Ideal S170 .f32)
    (p : Fin 2000) (q : Fin 170) :
    k5_pay1 (F := Ideal) x w b (ix2 p q) = max ((∑ k : Fin 256, x (ix2 p k) * w (ix2 q k)) + b (ix1 q)) 0 := by
  unfold k5_pay1
  rw [maximumf_apply, addf_apply, product5_apply, broadcastTo_1b_ab_apply, shapeCast_a_1a_apply, shapeCast_self, broadcast_apply]
  show max ((∑ k : Fin 256, x (ix2 p k) * w (ix2 q k)) + b (ix1 q)) (Ideal.ofBits .f32 0x00000000#32) = _
  rw [Ideal.ofBits_zero_f32]

/-- One entry of what the body stores, against the whole arrays: if the row block `x` is rows `r0, r0 + 1, …` of `X`, and
    `w`, `b` are all of `W`, `B`, then entry `j` of the stored block is entry `(r0 + j₀, j₁)` of `relu (X · Wᵀ + B)`. -/
theorem storedEntry5 (X : Mat 100000 256) (W : Mat 170 256) (B : Vc 170)
    (x : Vec Ideal S2000x256 .f32) (w : Vec Ideal S170x256 .f32) (b : Vec Ideal S170 .f32) (r0 : Nat)
    (hx : ∀ (p : Fin 2000) (k : Fin 256) (i : S100000x256.Idx), (i 0).val = r0 + p.val → (i 1).val = k.val → x (ix2 p k) = X i)
    (hw : ∀ (q : Fin 170) (k : Fin 256), w (ix2 q k) = W (ix2 q k))
    (hb : ∀ q : Fin 170, b (ix1 q) = B (ix1 q))
    (j : S2000x170.Idx) (i : S100000x170.Idx) (hi0 : (i 0).val = r0 + (j 0).val) (hi1 : (i 1).val = (j 1).val) :
    k5_pay1 (F := Ideal) x w b j = biasRelu (lin X W) B i := by
  obtain ⟨p, q, rfl⟩ : ∃ (p : Fin 2000) (q : Fin 170), j = ix2 p q := ⟨j 0, j 1, eq_ix2 j⟩
  obtain ⟨p', q', rfl⟩ : ∃ (p' : Fin 100000) (q' : Fin 170), i = ix2 p' q' := ⟨i 0, i 1, eq_ix2 i⟩
  obtain rfl : q' = q := Fin.ext hi1
  rw [stored5_apply, biasRelu_apply, lin_apply, hb]
  refine congrArg (fun s => max (s + B (ix1 q')) 0) (Finset.sum_congr rfl fun k _ => ?_)
  rw [hx p k (ix2 p' k) hi0 rfl, hw]

/-! ## From the row blocks to the array -/

-- The TensorCore's buffer contents when the region is entered: a parameter.
variable (V : (c : Dev nD) → (b : Ref sig .tc) → Buf (Elt Ideal) ((c : Thread nD τ).loc b))

/-- The body reads and writes its whole staging buffers: the offsets of its accesses are all zero. -/
theorem zeroOffsets5_2 : (![0, 0] : Fin 2 → Nat) = fun _ => 0 := funext fun a => by fin_cases a <;> rfl
theorem zeroOffsets5_1 : (![0] : Fin 1 → Nat) = fun _ => 0 := funext fun a => by fin_cases a <;> rfl

/-- The index maps over the grid: point `t` stages row block `t` of `x` and of the output, and the one block of the
    weights and of the bias. -/
theorem blockIndex5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 1) = 0
    ∧ win5_3.index t (0 : Fin 2) = t.val ∧ win5_3.index t (1 : Fin 2) = 0 :=
  (by decide +kernel : ∀ t : Fin grid5.N, _)

/-- What point `t` writes back is row block `t` of `relu (x · wᵀ + b)` of the arrays as the region finds them: an
    element of a staged block sits in its array at block index × block size + its coordinate inside the block. -/
theorem writtenBack5_eq (c : Dev nD) (t : Fin cfg5.N) :
    (dat5 V c).flushed 3 t = ((cfg5.win 3).blk t).view.read (Elt Ideal) (biasRelu (lin (V c (Pipeline.arrRef spec5 0)) (V c (Pipeline.arrRef spec5 1))) (V c (Pipeline.arrRef spec5 2))) := by
  show (cfg5.win 3).cut (grid5.coords t) ((dat5 V c).after 3 t) = _
  rw [after5_3]
  unfold out5_3
  rw [View.canon_unit_zero zeroOffsets5_2]
  simp only [View.ld_unit_zero (S := S2000x256) zeroOffsets5_2, View.ld_unit_zero (S := S170x256) zeroOffsets5_2, View.ld_unit_zero (S := S170) zeroOffsets5_1]
  obtain ⟨e00, e01, e10, e11, e20, e30, e31⟩ := blockIndex5 t
  funext j
  refine storedEntry5 (V c (Pipeline.arrRef spec5 0)) (V c (Pipeline.arrRef spec5 1)) (V c (Pipeline.arrRef spec5 2))
    (iblk5 V c 0 t) (iblk5 V c 1 t) (iblk5 V c 2 t) (t.val * 2000) ?_ ?_ ?_ ((win5 3).xinj (grid5.coords t) j) (((cfg5.win 3).blk t).view.emb j) ?_ ?_
  · intro p k i h0 h1
    show V c (Pipeline.arrRef spec5 0) (((cfg5.win 0).blk t).view.emb (ix2 p k)) = V c (Pipeline.arrRef spec5 0) i
    refine congrArg _ (funext fun a => Fin.ext ?_)
    match a with
    | ⟨0, _⟩ => show win5_0.index t (0 : Fin 2) * 2000 + 1 * p.val = (i 0).val; omega
    | ⟨1, _⟩ => show win5_0.index t (1 : Fin 2) * 256 + 1 * k.val = (i 1).val; omega
  · intro q k
    show V c (Pipeline.arrRef spec5 1) (((cfg5.win 1).blk t).view.emb (ix2 q k)) = V c (Pipeline.arrRef spec5 1) (ix2 q k)
    refine congrArg _ (funext fun a => Fin.ext ?_)
    match a with
    | ⟨0, _⟩ => show win5_1.index t (0 : Fin 2) * 170 + 1 * q.val = q.val; omega
    | ⟨1, _⟩ => show win5_1.index t (1 : Fin 2) * 256 + 1 * k.val = k.val; omega
  · intro q
    show V c (Pipeline.arrRef spec5 2) (((cfg5.win 2).blk t).view.emb (ix1 q)) = V c (Pipeline.arrRef spec5 2) (ix1 q)
    refine congrArg _ (funext fun a => Fin.ext ?_)
    match a with
    | ⟨0, _⟩ => show win5_2.index t (0 : Fin 1) * 170 + 1 * q.val = q.val; omega
  · show win5_3.index t (0 : Fin 2) * 2000 + 1 * (j 0).val = t.val * 2000 + (j 0).val; omega
  · show win5_3.index t (1 : Fin 2) * 170 + 1 * (j 1).val = (j 1).val; omega

/-- An index of the output array is in point `t`'s block iff each coordinate is in the block's range on its axis. -/
theorem mem_rowBlock5 (t : Fin cfg5.N) (i : S100000x170.Idx) :
    i ∈ ((cfg5.win 3).blk t).view.set ↔ ∀ a : Fin 2, win5_3.index t a * S2000x170.size a ≤ (i a).val ∧ (i a).val < win5_3.index t a * S2000x170.size a + S2000x170.size a := by
  show i ∈ ((View.whole main_v76).slice (win5_3.rect t)).set ↔ _
  rw [View.set_slice_whole, Rect.mem_set_unit]
  exact Iff.rfl

/-- Every row `r` of the output lies in the block of point `r / 2000`: the fifty row blocks fill the array. -/
theorem rowBlocks_cover5 (i : S100000x170.Idx) :
    ∃ t : Fin cfg5.N, (cfg5.win 3).flush t = true ∧ i ∈ ((cfg5.win 3).blk t).view.set := by
  have hi0 : (i 0).val < 100000 := (i 0).isLt
  have hi1 : (i 1).val < 170 := (i 1).isLt
  have hN : cfg5.N = 50 := N_5
  obtain ⟨t, ht⟩ : ∃ t : Fin cfg5.N, t.val = (i 0).val / 2000 := ⟨⟨(i 0).val / 2000, by rw [hN]; omega⟩, rfl⟩
  obtain ⟨-, -, -, -, -, e30, e31⟩ := blockIndex5 t
  refine ⟨t, flush5_3 t, ?_⟩
  rw [mem_rowBlock5]
  intro a
  match a with
  | ⟨0, _⟩ => show win5_3.index t (0 : Fin 2) * 2000 ≤ (i 0).val ∧ (i 0).val < win5_3.index t (0 : Fin 2) * 2000 + 2000; omega
  | ⟨1, _⟩ => show win5_3.index t (1 : Fin 2) * 170 ≤ (i 1).val ∧ (i 1).val < win5_3.index t (1 : Fin 2) * 170 + 170; omega

/-- Region 5: the output array is `relu(x · wᵀ + b)` of the three input arrays as the region found them. -/
theorem reg5_value (c : Dev nD) :
    (dat5 V c).arrAt 3 cfg5.N = biasRelu (lin (V c (Pipeline.arrRef spec5 0)) (V c (Pipeline.arrRef spec5 1))) (V c (Pipeline.arrRef spec5 2)) :=
  (dat5 V c).arrAt_eq_of_cover 3 _ (fun t _ => writtenBack5_eq V c t) (rowBlocks_cover5)

end Cert.KernelIdeal.Val

end
-- ==== Proof.Reg6.lean ====
/-
  Region 6 (the pooling): the one output block is zeroed at the first grid point and every point adds its 2000 rows'
  one-hot product, so after the last point the output array is the rows of the input summed by segment word.

  The road: (1) what each of the body's two cases leaves in the output's staging buffer, as the body's arithmetic of the
  blocks it loads; (2) that arithmetic at an entry `(g, j)`: what the block held plus the sum over the point's 2000 rows
  of `x[r,j]` where row `r`'s segment word is the word of `g` (the one-hot factor is `1` or `0`, and `1 · a = a`,
  `0 · a = 0` for every extended real, so no finiteness is asked); (3) by induction on the point, after point `n` the
  block holds the sum over the rows below `2000 (n + 1)`; (4) the block is written back once, after the last point, and
  it is the whole array.
-/
import proofs.«425327_j74732430950951_1_alg».proof.Proof.Gen.KernelIdeal.Frame
import proofs.«425327_j74732430950951_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Val

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Spec

/-! ## What each case of the body leaves in the output's staging buffer -/

section Pieces
variable {F : FTy → Type} [FloatOps F]

theorem reg6_hz : (![0, 0] : Fin 2 → Nat) = fun _ => 0 := funext fun a => by fin_cases a <;> rfl

/-- At a point other than the first the body's one store covers the output block: it leaves the update of what the
    block held (`xo`) by the point's id block and row block, all three read whole. -/
theorem reg6_out_B (c : Dev nD) (i : grid6.Coords) (a1 : Memref sig .tc .vmem S2000x170 .f32) (h1 : a1.IsWhole)
    (a2 : Memref sig .tc .vmem S2000x1 .i32) (h2 : a2.IsWhole) (a3 : Memref sig .tc .vmem S16x170 .f32) (h3 : a3.IsWhole)
    (hc : ¬cond6_0 i) (x : Vec F S2000x170 .f32) (ids : Vec F S2000x1 .i32) (xo : Vec F S16x170 .f32) :
    out6_B_2 c i a1 h1 a2 h2 a3 h3 hc x ids xo = k6_pay2 ids x xo := by
  unfold out6_B_2
  rw [View.read_writes_eq_canon _ _ _ (cover6_B_2 c i a1 h1 a2 h2 a3 h3 hc x ids xo)]
  unfold kernelRun6_B
  dsimp only
  sl_unfold_words
  rw [View.canon_unit_zero (S := S16x170) reg6_hz]
  simp only [View.readAt_eq_ld, h1.read_unread, h2.read_unread, h3.read_unread, View.ld_unit_zero (S := S2000x1) reg6_hz,
    View.ld_unit_zero (S := S2000x170) reg6_hz, View.ld_unit_zero (S := S16x170) reg6_hz]

/-- At the first point the body stores the zero block, reads it back, and stores the update of it: the later store
    covers the block, and what it read back is the zero block. -/
theorem reg6_out_A (c : Dev nD) (i : grid6.Coords) (a1 : Memref sig .tc .vmem S2000x170 .f32) (h1 : a1.IsWhole)
    (a2 : Memref sig .tc .vmem S2000x1 .i32) (h2 : a2.IsWhole) (a3 : Memref sig .tc .vmem S16x170 .f32) (h3 : a3.IsWhole)
    (hc : cond6_0 i) (x : Vec F S2000x170 .f32) (ids : Vec F S2000x1 .i32) :
    out6_A_2 c i a1 h1 a2 h2 a3 h3 hc x ids = k6_pay2 ids x (k6_pay1 (F := F)) := by
  unfold out6_A_2
  rw [View.read_writes_eq_canon _ _ _ (cover6_A_2 c i a1 h1 a2 h2 a3 h3 hc x ids)]
  unfold kernelRun6_A
  dsimp only
  sl_unfold_words
  rw [View.canon_cons_unit_zero (S := S16x170) reg6_hz, View.readCov_unit_zero (S := S16x170) _ reg6_hz]
  simp only [View.readAt_eq_ld, h1.read_unread, h2.read_unread, View.ld_unit_zero (S := S2000x1) reg6_hz,
    View.ld_unit_zero (S := S2000x170) reg6_hz]

end Pieces

/-! ## The body's arithmetic at an index -/

theorem lhs_k6_0 (i : S16x170.Idx) (q : dot_S2000x16_S2000x170_S16x170_0_0_1_1_n_n.contr.Idx) :
    (dot_S2000x16_S2000x170_S16x170_0_0_1_1_n_n.lhsIdx i q 0).val = (q ⟨0, by decide⟩).val :=
  dot_S2000x16_S2000x170_S16x170_0_0_1_1_n_n.lhsIdx_val_of_single rfl i q
theorem lhs_k6_1 (i : S16x170.Idx) (q : dot_S2000x16_S2000x170_S16x170_0_0_1_1_n_n.contr.Idx) :
    (dot_S2000x16_S2000x170_S16x170_0_0_1_1_n_n.lhsIdx i q 1).val = (i 0).val := by
  unfold DotDims.lhsIdx
  rw [dif_neg (show ¬(1 : Fin S2000x16.rank) ∈ dot_S2000x16_S2000x170_S16x170_0_0_1_1_n_n.lhsBatch by decide), dif_pos (show (1 : Fin S2000x16.rank) ∈ dot_S2000x16_S2000x170_S16x170_0_0_1_1_n_n.lhsNonContracting by decide)]
  rfl
theorem rhs_k6_0 (i : S16x170.Idx) (q : dot_S2000x16_S2000x170_S16x170_0_0_1_1_n_n.contr.Idx) :
    (dot_S2000x16_S2000x170_S16x170_0_0_1_1_n_n.rhsIdx i q 0).val = (q ⟨0, by decide⟩).val :=
  dot_S2000x16_S2000x170_S16x170_0_0_1_1_n_n.rhsIdx_val_of_single rfl i q
theorem rhs_k6_1 (i : S16x170.Idx) (q : dot_S2000x16_S2000x170_S16x170_0_0_1_1_n_n.contr.Idx) :
    (dot_S2000x16_S2000x170_S16x170_0_0_1_1_n_n.rhsIdx i q 1).val = (i 1).val := by
  unfold DotDims.rhsIdx
  rw [dif_neg (show ¬(1 : Fin S2000x170.rank) ∈ dot_S2000x16_S2000x170_S16x170_0_0_1_1_n_n.rhsBatch by decide), dif_pos (show (1 : Fin S2000x170.rank) ∈ dot_S2000x16_S2000x170_S16x170_0_0_1_1_n_n.rhsNonContracting by decide)]
  rfl

/-- The product into a zero accumulator, entry `(g, j)`: both operands are contracted along their ROWS, so it is the sum
    over the 2000 rows `r` of `L[r,g] · R[r,j]`. -/
theorem matmul6_apply (L : FVec Ideal S2000x16 .bf16) (R : FVec Ideal S2000x170 .bf16) (g : Fin 16) (j : Fin 170) :
    matmul dot_S2000x16_S2000x170_S16x170_0_0_1_1_n_n none L R (constant S16x170 .f32 0x00000000#32) (ix2 g j)
      = ∑ r : Fin 2000, L (ix2 r g) * R (ix2 r j) := by
  simp only [matmul]
  rw [Ideal.matmul_constant_zero_apply, ← Equiv.sum_comp (ValueIdx.contrEquiv1 dot_S2000x16_S2000x170_S16x170_0_0_1_1_n_n 2000 rfl rfl).symm]
  refine Finset.sum_congr rfl fun k _ => ?_
  have hk := ValueIdx.contrEquiv1_symm_val dot_S2000x16_S2000x170_S16x170_0_0_1_1_n_n 2000 rfl rfl k
  have el : dot_S2000x16_S2000x170_S16x170_0_0_1_1_n_n.lhsIdx (ix2 g j) ((ValueIdx.contrEquiv1 dot_S2000x16_S2000x170_S16x170_0_0_1_1_n_n 2000 rfl rfl).symm k) = ix2 k g := funext fun a => Fin.ext (by
    match a with
    | ⟨0, _⟩ => exact (lhs_k6_0 _ _).trans hk
    | ⟨1, _⟩ => exact lhs_k6_1 _ _)
  have er : dot_S2000x16_S2000x170_S16x170_0_0_1_1_n_n.rhsIdx (ix2 g j) ((ValueIdx.contrEquiv1 dot_S2000x16_S2000x170_S16x170_0_0_1_1_n_n 2000 rfl rfl).symm k) = ix2 k j := funext fun a => Fin.ext (by
    match a with
    | ⟨0, _⟩ => exact (rhs_k6_0 _ _).trans hk
    | ⟨1, _⟩ => exact rhs_k6_1 _ _)
  rw [el, er]

/-- The one-hot operand, entry `(r, g)`: the comparison of row `r`'s segment word (broadcast along the 16 columns)
    with the column number, widened and converted — one where the word is the word of `g`, zero elsewhere. -/
theorem onehot6_apply (ib : Vec Ideal S2000x1 .i32) (r : Fin 2000) (g : Fin 16) :
    (truncf .bf16 (sitofp (F := Ideal) .f32 (extui 32 (cmpi .eq (broadcastTo S2000x16 (shapeCast S2000x1 ib shapeCasts_S2000x1_S2000x1) broadcasts_S2000x1_S2000x16)
        (iota .tc S2000x16 32 [1] iota_S2000x16_d1_w32)) natLt_1_32)) bitsLt_bf16_f32 : FVec Ideal S2000x16 .bf16) (ix2 r g)
      = if ib (ix2 r (0 : Fin 1)) = BitVec.ofNat 32 g.val then (1 : EReal) else 0 := by
  show ((((IntOp.cmpi .eq (broadcastTo S2000x16 (shapeCast S2000x1 ib shapeCasts_S2000x1_S2000x1) broadcasts_S2000x1_S2000x16 (ix2 r g))
        (iota .tc S2000x16 32 [1] iota_S2000x16_d1_w32 (ix2 r g))).setWidth 32).toInt : ℝ) : EReal) = _
  rw [shapeCast_self, iota_single_apply,
    broadcastTo_apply ib broadcasts_S2000x1_S2000x16 (ix2 r g) (ix2 r (0 : Fin 1)) (fun a => by
      match a with
      | ⟨0, _⟩ => rfl
      | ⟨1, _⟩ => rfl)]
  show ((((IntOp.cmpi .eq (ib (ix2 r (0 : Fin 1))) (BitVec.ofNat 32 g.val)).setWidth 32).toInt : ℝ) : EReal) = _
  by_cases h : ib (ix2 r (0 : Fin 1)) = BitVec.ofNat 32 g.val
  · rw [if_pos h, IntOp.cmpi_eq.mpr h]
    norm_num
  · rw [if_neg h, eq_zero_of_ne_one (mt IntOp.cmpi_eq.mp h)]
    norm_num

/-- The block the first point stores is zero everywhere. -/
theorem k6_pay1_apply (i : S16x170.Idx) : k6_pay1 (F := Ideal) i = 0 := by
  show Ideal.ofBits .f32 0x00000000#32 = 0
  exact Ideal.ofBits_zero_f32

/-- What every point stores, entry `(g, j)`: what the output block held there plus the sum, over the point's 2000 rows,
    of the rows of `x` whose segment word is the word of `g` (a one-hot factor is `1` or `0`, and `1 · a = a`, `0 · a = 0`
    for every extended real `a`). -/
theorem k6_pay2_apply (ib : Vec Ideal S2000x1 .i32) (xb : Vec Ideal S2000x170 .f32) (xo : Vec Ideal S16x170 .f32) (g : Fin 16) (j : Fin 170) :
    k6_pay2 (F := Ideal) ib xb xo (ix2 g j)
      = xo (ix2 g j) + ∑ r : Fin 2000, (if ib (ix2 r (0 : Fin 1)) = BitVec.ofNat 32 g.val then xb (ix2 r j) else 0) := by
  unfold k6_pay2
  dsimp only
  refine (addf_apply _ _ _).trans ?_
  rw [shapeCast_self]
  refine congrArg (xo (ix2 g j) + ·) ?_
  refine (matmul6_apply _ _ g j).trans ?_
  refine Finset.sum_congr rfl fun r _ => ?_
  rw [onehot6_apply, truncf_apply, shapeCast_self]
  by_cases h : ib (ix2 r (0 : Fin 1)) = BitVec.ofNat 32 g.val
  · rw [if_pos h, if_pos h, one_mul]
  · rw [if_neg h, if_neg h, zero_mul]

/- The TensorCore's buffer contents when the region is entered: a parameter. -/
variable (V : (c : Dev nD) → (b : Ref sig .tc) → Buf (Elt Ideal) ((c : Thread nD τ).loc b))

/-! ## The arrays and their blocks -/

/-- The rows `x` [100000,170] and the segment words [100000,1], as the region finds them; -/
abbrev xarr6 (c : Dev nD) : Vec Ideal S100000x170 .f32 := V c (Pipeline.arrRef spec6 0)
abbrev idarr6 (c : Dev nD) : Vec Ideal S100000x1 .i32 := V c (Pipeline.arrRef spec6 1)
/-- and point `t`'s blocks of them: 2000 rows each. -/
abbrev xblk6 (c : Dev nD) (t : Fin cfg6.N) : Vec Ideal S2000x170 .f32 := iblk6 V c 0 t
abbrev idblk6 (c : Dev nD) (t : Fin cfg6.N) : Vec Ideal S2000x1 .i32 := iblk6 V c 1 t

/-- The index maps over the grid: point `t` reads row block `t` of both inputs, and the output's block never moves. -/
theorem idx_facts6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0 :=
  (by decide +kernel : ∀ t : Fin grid6.N, _)

/-- Row `r` of point `t`'s block of `x` is row `2000 t + r` of `x`. -/
theorem xblk6_apply (c : Dev nD) (t : Fin cfg6.N) (r : Fin 2000) (j : Fin 170) (h : 2000 * t.val + r.val < 100000) :
    xblk6 V c t (ix2 r j) = xarr6 V c (ix2 ⟨2000 * t.val + r.val, h⟩ j) := by
  obtain ⟨e0, e1, -⟩ := idx_facts6 t
  unfold xblk6 iblk6
  rw [View.read_apply]
  refine congrArg (V c (Pipeline.arrRef spec6 0)) (funext fun a => Fin.ext ?_)
  match a with
  | ⟨0, _⟩ => show win6_0.index t (0 : Fin 2) * 2000 + 1 * r.val = 2000 * t.val + r.val; omega
  | ⟨1, _⟩ => show win6_0.index t (1 : Fin 2) * 170 + 1 * j.val = j.val; omega

/-- Row `r` of point `t`'s block of the segment words is row `2000 t + r` of them. -/
theorem idblk6_apply (c : Dev nD) (t : Fin cfg6.N) (r : Fin 2000) (h : 2000 * t.val + r.val < 100000) :
    idblk6 V c t (ix2 r (0 : Fin 1)) = idarr6 V c (ix2 ⟨2000 * t.val + r.val, h⟩ (0 : Fin 1)) := by
  obtain ⟨-, -, e2, e3, -⟩ := idx_facts6 t
  unfold idblk6 iblk6
  rw [View.read_apply]
  refine congrArg (V c (Pipeline.arrRef spec6 1)) (funext fun a => Fin.ext ?_)
  match a with
  | ⟨0, _⟩ => show win6_1.index t (0 : Fin 2) * 2000 + 1 * r.val = 2000 * t.val + r.val; omega
  | ⟨1, _⟩ => show win6_1.index t (1 : Fin 2) * 1 + 1 * 0 = 0; omega

/-! ## The accumulation -/

/-- Row `r`'s share of entry `(g, j)`: `x[r,j]` if the row's segment word is the word of `g`, else nothing; -/
def share6 (c : Dev nD) (g : Fin 16) (j : Fin 170) (r : Fin 100000) : EReal :=
  if idarr6 V c (ix2 r (0 : Fin 1)) = BitVec.ofNat 32 g.val then xarr6 V c (ix2 r j) else 0
/-- the same by the row's number, nothing past the last row. -/
def shareN6 (c : Dev nD) (g : Fin 16) (j : Fin 170) (k : ℕ) : EReal :=
  if h : k < 100000 then share6 V c g j ⟨k, h⟩ else 0

/-- The sum over point `t`'s 2000 rows is the sum of the shares of rows `2000 t … 2000 t + 1999`. -/
theorem block_rows6 (c : Dev nD) (t : Fin cfg6.N) (g : Fin 16) (j : Fin 170) :
    (∑ r : Fin 2000, (if idblk6 V c t (ix2 r (0 : Fin 1)) = BitVec.ofNat 32 g.val then xblk6 V c t (ix2 r j) else 0))
      = ∑ k ∈ Finset.range 2000, shareN6 V c g j (2000 * t.val + k) := by
  have hN : t.val < 50 := lt_of_lt_of_eq t.isLt (show cfg6.N = 50 from N_6)
  rw [Finset.sum_range]
  refine Finset.sum_congr rfl fun r _ => ?_
  have hr : 2000 * t.val + r.val < 100000 := by have := r.isLt; omega
  rw [shareN6, dif_pos hr, share6, idblk6_apply V c t r hr, xblk6_apply V c t r j hr]

/-- The first point leaves its own rows' sum (it starts from the zero block). -/
theorem first_point6 (c : Dev nD) (t : Fin cfg6.N) (h0 : t.val % 50 = 0) (g : Fin 16) (j : Fin 170) :
    outsAt6 V c t.val t.isLt (ix2 g j)
      = ∑ r : Fin 2000, (if idblk6 V c t (ix2 r (0 : Fin 1)) = BitVec.ofNat 32 g.val then xblk6 V c t (ix2 r j) else 0) := by
  rw [outsAt6_A V c t h0]
  refine (congrFun (reg6_out_A (F := Ideal) c (grid6.coords t) (ms6_0 t) (hs6_0 t) (ms6_1 t) (hs6_1 t) (ms6_2 t) (hs6_2 t)
    ((hcond6_0 t).mpr h0) (iblk6 V c 0 t) (iblk6 V c 1 t)) (ix2 g j)).trans ?_
  refine (k6_pay2_apply (idblk6 V c t) (xblk6 V c t) (k6_pay1 (F := Ideal)) g j).trans ?_
  rw [k6_pay1_apply, zero_add]

/-- A later point adds its rows' sum to what the point before left. -/
theorem later_point6 (c : Dev nD) (t : Fin cfg6.N) (h0 : ¬t.val % 50 = 0) (g : Fin 16) (j : Fin 170) :
    outsAt6 V c t.val t.isLt (ix2 g j)
      = outsAt6 V c (t.val - 1) (Nat.lt_of_le_of_lt (Nat.sub_le _ _) t.isLt) (ix2 g j)
        + ∑ r : Fin 2000, (if idblk6 V c t (ix2 r (0 : Fin 1)) = BitVec.ofNat 32 g.val then xblk6 V c t (ix2 r j) else 0) := by
  rw [outsAt6_B V c t h0]
  refine (congrFun (reg6_out_B (F := Ideal) c (grid6.coords t) (ms6_0 t) (hs6_0 t) (ms6_1 t) (hs6_1 t) (ms6_2 t) (hs6_2 t)
    (fun h => h0 ((hcond6_0 t).mp h)) (iblk6 V c 0 t) (iblk6 V c 1 t)
    (outsAt6 V c (t.val - 1) (Nat.lt_of_le_of_lt (Nat.sub_le _ _) t.isLt))) (ix2 g j)).trans ?_
  exact k6_pay2_apply (idblk6 V c t) (xblk6 V c t) (outsAt6 V c (t.val - 1) (Nat.lt_of_le_of_lt (Nat.sub_le _ _) t.isLt)) g j

/-- THE INVARIANT: after point `n` the output block's entry `(g, j)` is the sum of the shares of the rows below
    `2000 (n + 1)` — by induction on the point. -/
theorem outsAt6_eq (c : Dev nD) (g : Fin 16) (j : Fin 170) : ∀ (n : ℕ) (hn : n < cfg6.N),
    outsAt6 V c n hn (ix2 g j) = ∑ k ∈ Finset.range (2000 * (n + 1)), shareN6 V c g j k
  | 0, hn => by
    refine (first_point6 V c ⟨0, hn⟩ rfl g j).trans ?_
    rw [block_rows6]
    refine Finset.sum_congr rfl fun k _ => ?_
    show shareN6 V c g j (2000 * 0 + k) = _
    rw [Nat.mul_zero, Nat.zero_add]
  | n + 1, hn => by
    have hN : cfg6.N = 50 := N_6
    have hB : ¬(⟨n + 1, hn⟩ : Fin cfg6.N).val % 50 = 0 := by dsimp only; omega
    refine (later_point6 V c ⟨n + 1, hn⟩ hB g j).trans ?_
    rw [block_rows6]
    show outsAt6 V c n _ (ix2 g j) + ∑ k ∈ Finset.range 2000, shareN6 V c g j (2000 * (n + 1) + k) = _
    rw [outsAt6_eq c g j n, show 2000 * (n + 1 + 1) = 2000 * (n + 1) + 2000 by ring, Finset.sum_range_add]

/-- The sum over all rows, as the specification has it, is the sum of all the shares. -/
theorem pool6_eq_range (c : Dev nD) (g : Fin 16) (j : Fin 170) :
    pool (xarr6 V c) (fun r => idarr6 V c (ix2 r (0 : Fin 1))) (ix2 g j) = ∑ k ∈ Finset.range 100000, shareN6 V c g j k := by
  rw [pool_apply, Finset.sum_range]
  refine Finset.sum_congr rfl fun r _ => ?_
  rw [shareN6, dif_pos r.isLt]
  rfl

/-! ## The write-back -/

/-- The output's block index is `(0, 0)` at every point, so its block is the whole [16,170] array: read through it, any
    contents `G` of the array are `G`; -/
theorem read_blk6 (t : Fin cfg6.N) (G : S16x170.Idx → EReal) (g : Fin 16) (j : Fin 170) :
    ((cfg6.win 2).blk t).view.read (Elt Ideal) G (ix2 g j) = G (ix2 g j) := by
  obtain ⟨-, -, -, -, e4, e5⟩ := idx_facts6 t
  rw [View.read_apply]
  refine congrArg G (funext fun a => Fin.ext ?_)
  match a with
  | ⟨0, _⟩ => show win6_2.index t (0 : Fin 2) * 16 + 1 * g.val = g.val; omega
  | ⟨1, _⟩ => show win6_2.index t (1 : Fin 2) * 170 + 1 * j.val = j.val; omega

/-- and the block is never cut at the array's end: all of the staging buffer is written back. -/
theorem cut_blk6 (t : Fin cfg6.N) (X : S16x170.Idx → EReal) (g : Fin 16) (j : Fin 170) :
    (cfg6.win 2).cut (grid6.coords t) X (ix2 g j) = X (ix2 g j) :=
  congrArg X (funext fun a => Fin.ext rfl)

/-- The one write-back, after the last point, writes the sum over all 100000 rows. -/
theorem flushed6_eq (c : Dev nD) (t : Fin cfg6.N) (hf : (cfg6.win 2).flush t = true) :
    (dat6 V c).flushed 2 t
      = ((cfg6.win 2).blk t).view.read (Elt Ideal) (pool (xarr6 V c) (fun r => idarr6 V c (ix2 r (0 : Fin 1)))) := by
  have hN : t.val < 50 := lt_of_lt_of_eq t.isLt (show cfg6.N = 50 from N_6)
  have h49 : t.val = 49 := by have := (flush6_2 t).mp hf; omega
  have hrows : 2000 * (t.val + 1) = 100000 := by omega
  show (cfg6.win 2).cut (grid6.coords t) ((dat6 V c).after 2 t) = _
  rw [after6_2]
  funext y
  obtain ⟨g, j, rfl⟩ : ∃ (g : Fin 16) (j : Fin 170), y = ix2 g j := ⟨y 0, y 1, eq_ix2 y⟩
  refine (cut_blk6 t (outsAt6 V c t.val t.isLt) g j).trans ?_
  refine Eq.trans ?_ (read_blk6 t (pool (xarr6 V c) (fun r => idarr6 V c (ix2 r (0 : Fin 1)))) g j).symm
  rw [pool6_eq_range, outsAt6_eq V c g j t.val t.isLt, hrows]

/-- An index of the output array is in point `t`'s block iff each coordinate is in the block's range on its axis. -/
theorem mem_blk6 (t : Fin cfg6.N) (i : S16x170.Idx) :
    i ∈ ((cfg6.win 2).blk t).view.set ↔ ∀ a : Fin 2, win6_2.index t a * S16x170.size a ≤ (i a).val ∧ (i a).val < win6_2.index t a * S16x170.size a + S16x170.size a := by
  show i ∈ ((View.whole main_v78).slice (win6_2.rect t)).set ↔ _
  rw [View.set_slice_whole, Rect.mem_set_unit]
  exact Iff.rfl

/-- Region 6 (the pooling): the one output block is zeroed at the first grid point and every point adds its 2000 rows'
    one-hot product, so after the last point the output array is the rows of `x` summed by segment word: the one
    write-back's block covers the whole array. -/
theorem reg6_value (c : Dev nD) :
    (dat6 V c).arrAt 2 cfg6.N = pool (V c (Pipeline.arrRef spec6 0)) (fun r => V c (Pipeline.arrRef spec6 1) (ix2 r (0 : Fin 1))) := by
  have hlt : 49 < cfg6.N := by rw [show cfg6.N = 50 from N_6]; decide
  refine (dat6 V c).arrAt_eq_of_cover 2 _ (flushed6_eq V c) fun i => ⟨⟨49, hlt⟩, (flush6_2 _).mpr rfl, ?_⟩
  obtain ⟨-, -, -, -, e4, e5⟩ := idx_facts6 ⟨49, hlt⟩
  rw [mem_blk6]
  intro a
  have h0 : (i 0).val < 16 := (i 0).isLt
  have h1 : (i 1).val < 170 := (i 1).isLt
  match a with
  | ⟨0, _⟩ => show win6_2.index ⟨49, hlt⟩ (0 : Fin 2) * 16 ≤ (i 0).val ∧ (i 0).val < win6_2.index ⟨49, hlt⟩ (0 : Fin 2) * 16 + 16; omega
  | ⟨1, _⟩ => show win6_2.index ⟨49, hlt⟩ (1 : Fin 2) * 170 ≤ (i 1).val ∧ (i 1).val < win6_2.index ⟨49, hlt⟩ (1 : Fin 2) * 170 + 170; omega

end Cert.KernelIdeal.Val

end
-- ==== Proof.RefDense.lean ====
/-
  The reference's dense stages, read at the extended reals: each `dot_general` against a transposed weight, with the
  bias broadcasts and the `maximum` against zero around it, is the specification's row-by-row product and bias-relu of
  the stage before it. Each lemma reads one stretch of the reference's operations index by index.
-/
import proofs.«425327_j74732430950951_1_alg».proof.Proof.Gen.ReferenceIdeal.Run
import proofs.«425327_j74732430950951_1_alg».proof.Proof.Gen.ReferenceIdeal.Read
import proofs.«425327_j74732430950951_1_alg».proof.Proof.Spec
import Idealize.ShloMosaic.Lib.ValueIdx
import Idealize.ShloMosaic.PureOps.Ideal.Laws

noncomputable section

open scoped BigOperators

namespace Cert.ReferenceIdeal.RefVal

open Idealize.ShloMosaic Idealize.ShloMosaic.TcCoe Idealize.SL.Sem Idealize.ShloMosaic.ValueIdx
open Cert.ReferenceIdeal Cert.ReferenceIdeal.Gen Cert.ReferenceIdeal.Read Cert.Spec

/-! ## The two kinds of stage

Between two aggregation stages the reference does two things. It adds a bias vector to every row and cuts the negative
part off: the vector is broadcast to one row, that row to all rows, the sum is taken, and the maximum with an array of
zeros. And it multiplies by a weight matrix: the matrix is transposed and the rows of the left operand are contracted
against the columns of the transpose, which are the rows of the matrix itself. Read at one entry `(p, q)` the first is
`max (x[p,q] + b[q]) 0` and the second `∑ k, x[p,k] · w[q,k]`: the specification's `biasRelu` and `lin`. -/

section Stages

variable (x0 : (⟨S100000x32, .f32⟩ : BufTy).Contents (Elt Ideal)) (x1 : (⟨S2x1600000, .i32⟩ : BufTy).Contents (Elt Ideal))
  (x2 : (⟨S1600000, .f32⟩ : BufTy).Contents (Elt Ideal)) (x4 : (⟨S64x32, .f32⟩ : BufTy).Contents (Elt Ideal))
  (x5 : (⟨S64, .f32⟩ : BufTy).Contents (Elt Ideal)) (x6 : (⟨S96x64, .f32⟩ : BufTy).Contents (Elt Ideal))
  (x7 : (⟨S96, .f32⟩ : BufTy).Contents (Elt Ideal)) (x8 : (⟨S128x96, .f32⟩ : BufTy).Contents (Elt Ideal))
  (x9 : (⟨S128, .f32⟩ : BufTy).Contents (Elt Ideal)) (x10 : (⟨S512x128, .f32⟩ : BufTy).Contents (Elt Ideal))
  (x11 : (⟨S512, .f32⟩ : BufTy).Contents (Elt Ideal)) (x12 : (⟨S256x512, .f32⟩ : BufTy).Contents (Elt Ideal))
  (x13 : (⟨S256, .f32⟩ : BufTy).Contents (Elt Ideal)) (x14 : (⟨S170x256, .f32⟩ : BufTy).Contents (Elt Ideal))
  (x15 : (⟨S170, .f32⟩ : BufTy).Contents (Elt Ideal))

/-! ### Bias and cut-off

Entry `(p, q)` of the broadcast bias is the vector's entry `q` (the row coordinate is dropped by the second broadcast,
the unit axis by the first), the zeros are the word `0x00000000` read as an extended real, which is `0`. -/

/-- The first layer's bias and cut-off. -/
theorem biasRelu_v50 : val_main_v50 (F := Ideal) x0 x1 x2 x4 x5 = biasRelu (val_main_v46 (F := Ideal) x0 x1 x2 x4) x5 := by
  funext i
  obtain ⟨p, q, rfl⟩ : ∃ (p : Fin 100000) (q : Fin 64), i = ix2 p q := ⟨i 0, i 1, eq_ix2 i⟩
  have eb : idx_main_v47 (idx_main_v48 (ix2 p q)) = ix1 q :=
    funext fun a => by match a with | ⟨0, _⟩ => rfl
  rw [val_main_v50_apply, val_main_v49_apply, val_main_v48_apply, val_main_v47_apply, eb,
    val_main_call1_v0_apply, val_main_call1_cst_apply, biasRelu_apply,
    Ideal.maximumf_def, Ideal.addf_def, Ideal.ofBits_def, Ideal.ofBits_zero_f32]

/-- The second layer's bias and cut-off. -/
theorem biasRelu_v69 :
    val_main_v69 (F := Ideal) x0 x1 x2 x4 x5 x6 x7 = biasRelu (val_main_v65 (F := Ideal) x0 x1 x2 x4 x5 x6) x7 := by
  funext i
  obtain ⟨p, q, rfl⟩ : ∃ (p : Fin 100000) (q : Fin 96), i = ix2 p q := ⟨i 0, i 1, eq_ix2 i⟩
  have eb : idx_main_v66 (idx_main_v67 (ix2 p q)) = ix1 q :=
    funext fun a => by match a with | ⟨0, _⟩ => rfl
  rw [val_main_v69_apply, val_main_v68_apply, val_main_v67_apply, val_main_v66_apply, eb,
    val_main_call2_v0_apply, val_main_call2_cst_apply, biasRelu_apply,
    Ideal.maximumf_def, Ideal.addf_def, Ideal.ofBits_def, Ideal.ofBits_zero_f32]

/-- The third layer's bias and cut-off. -/
theorem biasRelu_v88 :
    val_main_v88 (F := Ideal) x0 x1 x2 x4 x5 x6 x7 x8 x9
      = biasRelu (val_main_v84 (F := Ideal) x0 x1 x2 x4 x5 x6 x7 x8) x9 := by
  funext i
  obtain ⟨p, q, rfl⟩ : ∃ (p : Fin 100000) (q : Fin 128), i = ix2 p q := ⟨i 0, i 1, eq_ix2 i⟩
  have eb : idx_main_v85 (idx_main_v86 (ix2 p q)) = ix1 q :=
    funext fun a => by match a with | ⟨0, _⟩ => rfl
  rw [val_main_v88_apply, val_main_v87_apply, val_main_v86_apply, val_main_v85_apply, eb,
    val_main_call3_v0_apply, val_main_call3_cst_apply, biasRelu_apply,
    Ideal.maximumf_def, Ideal.addf_def, Ideal.ofBits_def, Ideal.ofBits_zero_f32]

/-- The bias and cut-off after the product with the `512 × 128` matrix. -/
theorem biasRelu_v94 :
    val_main_v94 (F := Ideal) x0 x1 x2 x4 x5 x6 x7 x8 x9 x10 x11
      = biasRelu (val_main_v90 (F := Ideal) x0 x1 x2 x4 x5 x6 x7 x8 x9 x10) x11 := by
  funext i
  obtain ⟨p, q, rfl⟩ : ∃ (p : Fin 100000) (q : Fin 512), i = ix2 p q := ⟨i 0, i 1, eq_ix2 i⟩
  have eb : idx_main_v91 (idx_main_v92 (ix2 p q)) = ix1 q :=
    funext fun a => by match a with | ⟨0, _⟩ => rfl
  rw [val_main_v94_apply, val_main_v93_apply, val_main_v92_apply, val_main_v91_apply, eb,
    val_main_call4_v0_apply, val_main_call4_cst_apply, biasRelu_apply,
    Ideal.maximumf_def, Ideal.addf_def, Ideal.ofBits_def, Ideal.ofBits_zero_f32]

/-- The bias and cut-off after the product with the `256 × 512` matrix. -/
theorem biasRelu_v100 :
    val_main_v100 (F := Ideal) x0 x1 x2 x4 x5 x6 x7 x8 x9 x10 x11 x12 x13
      = biasRelu (val_main_v96 (F := Ideal) x0 x1 x2 x4 x5 x6 x7 x8 x9 x10 x11 x12) x13 := by
  funext i
  obtain ⟨p, q, rfl⟩ : ∃ (p : Fin 100000) (q : Fin 256), i = ix2 p q := ⟨i 0, i 1, eq_ix2 i⟩
  have eb : idx_main_v97 (idx_main_v98 (ix2 p q)) = ix1 q :=
    funext fun a => by match a with | ⟨0, _⟩ => rfl
  rw [val_main_v100_apply, val_main_v99_apply, val_main_v98_apply, val_main_v97_apply, eb,
    val_main_call5_v0_apply, val_main_call5_cst_apply, biasRelu_apply,
    Ideal.maximumf_def, Ideal.addf_def, Ideal.ofBits_def, Ideal.ofBits_zero_f32]

/-- The bias and cut-off after the product with the `170 × 256` matrix. -/
theorem biasRelu_v106 :
    val_main_v106 (F := Ideal) x0 x1 x2 x4 x5 x6 x7 x8 x9 x10 x11 x12 x13 x14 x15
      = biasRelu (val_main_v102 (F := Ideal) x0 x1 x2 x4 x5 x6 x7 x8 x9 x10 x11 x12 x13 x14) x15 := by
  funext i
  obtain ⟨p, q, rfl⟩ : ∃ (p : Fin 100000) (q : Fin 170), i = ix2 p q := ⟨i 0, i 1, eq_ix2 i⟩
  have eb : idx_main_v103 (idx_main_v104 (ix2 p q)) = ix1 q :=
    funext fun a => by match a with | ⟨0, _⟩ => rfl
  rw [val_main_v106_apply, val_main_v105_apply, val_main_v104_apply, val_main_v103_apply, eb,
    val_main_call6_v0_apply, val_main_call6_cst_apply, biasRelu_apply,
    Ideal.maximumf_def, Ideal.addf_def, Ideal.ofBits_def, Ideal.ofBits_zero_f32]

/-! ### Product with a transposed weight

Entry `(p, q)` of the product sums, over the contracted coordinate `k`, the left operand at `(p, k)` times the
transposed weight at `(k, q)`, and the transpose at `(k, q)` is the weight at `(q, k)`. -/

/-- The product with the `96 × 64` matrix. -/
theorem lin_v52 :
    val_main_v52 (F := Ideal) x0 x1 x2 x4 x5 x6 = lin (val_main_v50 (F := Ideal) x0 x1 x2 x4 x5) x6 := by
  funext i
  obtain ⟨p, q, rfl⟩ : ∃ (p : Fin 100000) (q : Fin 96), i = ix2 p q := ⟨i 0, i 1, eq_ix2 i⟩
  rw [val_main_v52_apply, lin_apply]
  refine Finset.sum_congr rfl fun k _ => ?_
  have el : lidx_main_v52 (ix2 p q) k = ix2 p k :=
    funext fun a => by match a with | ⟨0, _⟩ => rfl | ⟨1, _⟩ => rfl
  have er : idx_main_v51 (ridx_main_v52 (ix2 p q) k) = ix2 q k :=
    funext fun a => by match a with | ⟨0, _⟩ => rfl | ⟨1, _⟩ => rfl
  rw [val_main_v51_apply, el, er]

/-- The product with the `128 × 96` matrix. -/
theorem lin_v71 :
    val_main_v71 (F := Ideal) x0 x1 x2 x4 x5 x6 x7 x8 = lin (val_main_v69 (F := Ideal) x0 x1 x2 x4 x5 x6 x7) x8 := by
  funext i
  obtain ⟨p, q, rfl⟩ : ∃ (p : Fin 100000) (q : Fin 128), i = ix2 p q := ⟨i 0, i 1, eq_ix2 i⟩
  rw [val_main_v71_apply, lin_apply]
  refine Finset.sum_congr rfl fun k _ => ?_
  have el : lidx_main_v71 (ix2 p q) k = ix2 p k :=
    funext fun a => by match a with | ⟨0, _⟩ => rfl | ⟨1, _⟩ => rfl
  have er : idx_main_v70 (ridx_main_v71 (ix2 p q) k) = ix2 q k :=
    funext fun a => by match a with | ⟨0, _⟩ => rfl | ⟨1, _⟩ => rfl
  rw [val_main_v70_apply, el, er]

/-- The product with the `512 × 128` matrix. -/
theorem lin_v90 :
    val_main_v90 (F := Ideal) x0 x1 x2 x4 x5 x6 x7 x8 x9 x10
      = lin (val_main_v88 (F := Ideal) x0 x1 x2 x4 x5 x6 x7 x8 x9) x10 := by
  funext i
  obtain ⟨p, q, rfl⟩ : ∃ (p : Fin 100000) (q : Fin 512), i = ix2 p q := ⟨i 0, i 1, eq_ix2 i⟩
  rw [val_main_v90_apply, lin_apply]
  refine Finset.sum_congr rfl fun k _ => ?_
  have el : lidx_main_v90 (ix2 p q) k = ix2 p k :=
    funext fun a => by match a with | ⟨0, _⟩ => rfl | ⟨1, _⟩ => rfl
  have er : idx_main_v89 (ridx_main_v90 (ix2 p q) k) = ix2 q k :=
    funext fun a => by match a with | ⟨0, _⟩ => rfl | ⟨1, _⟩ => rfl
  rw [val_main_v89_apply, el, er]

/-- The product with the `256 × 512` matrix. -/
theorem lin_v96 :
    val_main_v96 (F := Ideal) x0 x1 x2 x4 x5 x6 x7 x8 x9 x10 x11 x12
      = lin (val_main_v94 (F := Ideal) x0 x1 x2 x4 x5 x6 x7 x8 x9 x10 x11) x12 := by
  funext i
  obtain ⟨p, q, rfl⟩ : ∃ (p : Fin 100000) (q : Fin 256), i = ix2 p q := ⟨i 0, i 1, eq_ix2 i⟩
  rw [val_main_v96_apply, lin_apply]
  refine Finset.sum_congr rfl fun k _ => ?_
  have el : lidx_main_v96 (ix2 p q) k = ix2 p k :=
    funext fun a => by match a with | ⟨0, _⟩ => rfl | ⟨1, _⟩ => rfl
  have er : idx_main_v95 (ridx_main_v96 (ix2 p q) k) = ix2 q k :=
    funext fun a => by match a with | ⟨0, _⟩ => rfl | ⟨1, _⟩ => rfl
  rw [val_main_v95_apply, el, er]

/-- The product with the `170 × 256` matrix. -/
theorem lin_v102 :
    val_main_v102 (F := Ideal) x0 x1 x2 x4 x5 x6 x7 x8 x9 x10 x11 x12 x13 x14
      = lin (val_main_v100 (F := Ideal) x0 x1 x2 x4 x5 x6 x7 x8 x9 x10 x11 x12 x13) x14 := by
  funext i
  obtain ⟨p, q, rfl⟩ : ∃ (p : Fin 100000) (q : Fin 170), i = ix2 p q := ⟨i 0, i 1, eq_ix2 i⟩
  rw [val_main_v102_apply, lin_apply]
  refine Finset.sum_congr rfl fun k _ => ?_
  have el : lidx_main_v102 (ix2 p q) k = ix2 p k :=
    funext fun a => by match a with | ⟨0, _⟩ => rfl | ⟨1, _⟩ => rfl
  have er : idx_main_v101 (ridx_main_v102 (ix2 p q) k) = ix2 q k :=
    funext fun a => by match a with | ⟨0, _⟩ => rfl | ⟨1, _⟩ => rfl
  rw [val_main_v101_apply, el, er]

end Stages

/-! ## The stages of the reference -/

/-- `x @ Wc0.T`. -/
theorem ref_h0 (x0 : (⟨S100000x32, .f32⟩ : BufTy).Contents (Elt Ideal)) (x4 : (⟨S64x32, .f32⟩ : BufTy).Contents (Elt Ideal)) :
    val_main_v33 (F := Ideal) x0 x4 = lin x0 x4 := by
  funext i
  obtain ⟨p, q, rfl⟩ : ∃ (p : Fin 100000) (q : Fin 64), i = ix2 p q := ⟨i 0, i 1, eq_ix2 i⟩
  rw [val_main_v33_apply, lin_apply]
  refine Finset.sum_congr rfl fun k _ => ?_
  have el : lidx_main_v33 (ix2 p q) k = ix2 p k :=
    funext fun a => by match a with | ⟨0, _⟩ => rfl | ⟨1, _⟩ => rfl
  have er : idx_main_v32 (ridx_main_v33 (ix2 p q) k) = ix2 q k :=
    funext fun a => by match a with | ⟨0, _⟩ => rfl | ⟨1, _⟩ => rfl
  rw [val_main_v32_apply, el, er]

/-- `relu(agg0 + bc0) @ Wc1.T`. -/
theorem ref_h1 (x0 : (⟨S100000x32, .f32⟩ : BufTy).Contents (Elt Ideal)) (x1 : (⟨S2x1600000, .i32⟩ : BufTy).Contents (Elt Ideal)) (x2 : (⟨S1600000, .f32⟩ : BufTy).Contents (Elt Ideal)) (x4 : (⟨S64x32, .f32⟩ : BufTy).Contents (Elt Ideal)) (x5 : (⟨S64, .f32⟩ : BufTy).Contents (Elt Ideal)) (x6 : (⟨S96x64, .f32⟩ : BufTy).Contents (Elt Ideal)) :
    val_main_v52 (F := Ideal) x0 x1 x2 x4 x5 x6 = lin (biasRelu (val_main_v46 (F := Ideal) x0 x1 x2 x4) x5) x6 := by
  rw [lin_v52, biasRelu_v50]

/-- `relu(agg1 + bc1) @ Wc2.T`. -/
theorem ref_h2 (x0 : (⟨S100000x32, .f32⟩ : BufTy).Contents (Elt Ideal)) (x1 : (⟨S2x1600000, .i32⟩ : BufTy).Contents (Elt Ideal)) (x2 : (⟨S1600000, .f32⟩ : BufTy).Contents (Elt Ideal)) (x4 : (⟨S64x32, .f32⟩ : BufTy).Contents (Elt Ideal)) (x5 : (⟨S64, .f32⟩ : BufTy).Contents (Elt Ideal)) (x6 : (⟨S96x64, .f32⟩ : BufTy).Contents (Elt Ideal)) (x7 : (⟨S96, .f32⟩ : BufTy).Contents (Elt Ideal)) (x8 : (⟨S128x96, .f32⟩ : BufTy).Contents (Elt Ideal)) :
    val_main_v71 (F := Ideal) x0 x1 x2 x4 x5 x6 x7 x8 = lin (biasRelu (val_main_v65 (F := Ideal) x0 x1 x2 x4 x5 x6) x7) x8 := by
  rw [lin_v71, biasRelu_v69]

/-- `relu(relu(agg2 + bc2) @ Wl.T + bl)`. -/
theorem ref_x3 (x0 : (⟨S100000x32, .f32⟩ : BufTy).Contents (Elt Ideal)) (x1 : (⟨S2x1600000, .i32⟩ : BufTy).Contents (Elt Ideal)) (x2 : (⟨S1600000, .f32⟩ : BufTy).Contents (Elt Ideal)) (x4 : (⟨S64x32, .f32⟩ : BufTy).Contents (Elt Ideal)) (x5 : (⟨S64, .f32⟩ : BufTy).Contents (Elt Ideal)) (x6 : (⟨S96x64, .f32⟩ : BufTy).Contents (Elt Ideal)) (x7 : (⟨S96, .f32⟩ : BufTy).Contents (Elt Ideal)) (x8 : (⟨S128x96, .f32⟩ : BufTy).Contents (Elt Ideal)) (x9 : (⟨S128, .f32⟩ : BufTy).Contents (Elt Ideal)) (x10 : (⟨S512x128, .f32⟩ : BufTy).Contents (Elt Ideal)) (x11 : (⟨S512, .f32⟩ : BufTy).Contents (Elt Ideal)) :
    val_main_v94 (F := Ideal) x0 x1 x2 x4 x5 x6 x7 x8 x9 x10 x11 = biasRelu (lin (biasRelu (val_main_v84 (F := Ideal) x0 x1 x2 x4 x5 x6 x7 x8) x9) x10) x11 := by
  rw [biasRelu_v94, lin_v90, biasRelu_v88]

/-- `relu(x3 @ Wm0.T + bm0)`. -/
theorem ref_x4 (x0 : (⟨S100000x32, .f32⟩ : BufTy).Contents (Elt Ideal)) (x1 : (⟨S2x1600000, .i32⟩ : BufTy).Contents (Elt Ideal)) (x2 : (⟨S1600000, .f32⟩ : BufTy).Contents (Elt Ideal)) (x4 : (⟨S64x32, .f32⟩ : BufTy).Contents (Elt Ideal)) (x5 : (⟨S64, .f32⟩ : BufTy).Contents (Elt Ideal)) (x6 : (⟨S96x64, .f32⟩ : BufTy).Contents (Elt Ideal)) (x7 : (⟨S96, .f32⟩ : BufTy).Contents (Elt Ideal)) (x8 : (⟨S128x96, .f32⟩ : BufTy).Contents (Elt Ideal)) (x9 : (⟨S128, .f32⟩ : BufTy).Contents (Elt Ideal)) (x10 : (⟨S512x128, .f32⟩ : BufTy).Contents (Elt Ideal)) (x11 : (⟨S512, .f32⟩ : BufTy).Contents (Elt Ideal)) (x12 : (⟨S256x512, .f32⟩ : BufTy).Contents (Elt Ideal)) (x13 : (⟨S256, .f32⟩ : BufTy).Contents (Elt Ideal)) :
    val_main_v100 (F := Ideal) x0 x1 x2 x4 x5 x6 x7 x8 x9 x10 x11 x12 x13 = biasRelu (lin (val_main_v94 (F := Ideal) x0 x1 x2 x4 x5 x6 x7 x8 x9 x10 x11) x12) x13 := by
  rw [biasRelu_v100, lin_v96]

/-- `relu(x4 @ Wm1.T + bm1)`. -/
theorem ref_x5 (x0 : (⟨S100000x32, .f32⟩ : BufTy).Contents (Elt Ideal)) (x1 : (⟨S2x1600000, .i32⟩ : BufTy).Contents (Elt Ideal)) (x2 : (⟨S1600000, .f32⟩ : BufTy).Contents (Elt Ideal)) (x4 : (⟨S64x32, .f32⟩ : BufTy).Contents (Elt Ideal)) (x5 : (⟨S64, .f32⟩ : BufTy).Contents (Elt Ideal)) (x6 : (⟨S96x64, .f32⟩ : BufTy).Contents (Elt Ideal)) (x7 : (⟨S96, .f32⟩ : BufTy).Contents (Elt Ideal)) (x8 : (⟨S128x96, .f32⟩ : BufTy).Contents (Elt Ideal)) (x9 : (⟨S128, .f32⟩ : BufTy).Contents (Elt Ideal)) (x10 : (⟨S512x128, .f32⟩ : BufTy).Contents (Elt Ideal)) (x11 : (⟨S512, .f32⟩ : BufTy).Contents (Elt Ideal)) (x12 : (⟨S256x512, .f32⟩ : BufTy).Contents (Elt Ideal)) (x13 : (⟨S256, .f32⟩ : BufTy).Contents (Elt Ideal)) (x14 : (⟨S170x256, .f32⟩ : BufTy).Contents (Elt Ideal)) (x15 : (⟨S170, .f32⟩ : BufTy).Contents (Elt Ideal)) :
    val_main_v106 (F := Ideal) x0 x1 x2 x4 x5 x6 x7 x8 x9 x10 x11 x12 x13 x14 x15 = biasRelu (lin (val_main_v100 (F := Ideal) x0 x1 x2 x4 x5 x6 x7 x8 x9 x10 x11 x12 x13) x14) x15 := by
  rw [biasRelu_v106, lin_v102]

end Cert.ReferenceIdeal.RefVal

end
-- ==== Proof.RefPool.lean ====
/-
  The reference's segment sum, read at the extended reals: the accumulating scatter of the rows of a [100000, 170] array
  into 16 rows, at the start indices `batch` (one word per row, read signed, not clamped; a row whose word is no row index
  of the result is dropped), from zeros, is the specification's sum of rows by segment word.

  The road. With the scatter's dimension numbers (window axis 1 of the updates, inserted axis 0 of the operand, the one
  start component on operand axis 0), the update at (r, c) lands at operand index (s + 0, 0 + c), where s is the signed
  reading of row r's word, whenever that index is inside the operand: so it lands at (g, q) exactly when s = g and c = q.
  For g below 16 the signed reading of a word is g exactly when the word is g's word. The sum over the updates that land
  at (g, q), split by coordinates, keeps in each row r only column q, and only when r's word is g's.
-/
import proofs.«425327_j74732430950951_1_alg».proof.Proof.Gen.ReferenceIdeal.Run
import proofs.«425327_j74732430950951_1_alg».proof.Proof.Gen.ReferenceIdeal.Read
import proofs.«425327_j74732430950951_1_alg».proof.Proof.Spec
import Idealize.ShloMosaic.Lib.ValueIdx
import Idealize.ShloMosaic.Lib.WordArith
import Idealize.ShloMosaic.PureOps.Ideal.Laws

noncomputable section

open scoped BigOperators

namespace Cert.ReferenceIdeal.RefVal

open Idealize.ShloMosaic Idealize.ShloMosaic.TcCoe Idealize.SL.Sem Idealize.ShloMosaic.ValueIdx
open Cert.ReferenceIdeal Cert.ReferenceIdeal.Gen Cert.ReferenceIdeal.Read Cert.Spec

/-! ## The scatter's dimension numbers, read on one update index

The lemmas of this section are stated for the dimension numbers as literal lists over any proof `hwf` of their side
conditions, so that they apply to the program's record whatever proof it carries. -/

section Dims
variable (hwf : ScatterDims.WF S16x170 S100000x1 S100000x170 [1] [0] [0] 1)

/-- The segment sum's scatter dimension numbers: the updates' axis 1 is the window, the operand's axis 0 is inserted, and
    the one component of a start index names operand axis 0. -/
abbrev poolDims : ScatterDims S16x170 S100000x1 S100000x170 :=
  { updateWindowDims := [1], insertedWindowDims := [0], scatterDimsToOperandDims := [0], indexVectorDim := 1, wf := hwf }

/-- The update at `j` reads its start index at row `j 0` of the index column. -/
theorem poolDims_siIdx (j : S100000x170.Idx) (c : Fin (poolDims hwf).scatterDimsToOperandDims.length) :
    (poolDims hwf).siIdx j c = ix2 (j 0) (0 : Fin 1) := by
  funext b
  match b with
  | ⟨0, _⟩ => rfl
  | ⟨1, _⟩ =>
    apply Fin.ext
    have : c.val < 1 := c.isLt
    show c.val = 0
    omega

/-- On operand axis 0 the window starts at the signed reading of the row's word. -/
theorem poolDims_start0 (j : S100000x170.Idx) (idx : IVec S100000x1 32) :
    (poolDims hwf).start j idx 0 = (idx (ix2 (j 0) (0 : Fin 1))).toInt := by
  unfold ScatterDims.start
  rw [dif_pos (show (0 : Fin 2) ∈ ([0] : List (Fin 2)) by decide)]
  exact congrArg (fun k => (idx k).toInt) (poolDims_siIdx hwf j _)

/-- On operand axis 1, which no start component names, the window starts at 0. -/
theorem poolDims_start1 (j : S100000x170.Idx) (idx : IVec S100000x1 32) :
    (poolDims hwf).start j idx 1 = 0 := by
  unfold ScatterDims.start
  rw [dif_neg (show ¬ (1 : Fin 2) ∈ ([0] : List (Fin 2)) by decide)]

/-- The inserted operand axis 0 has window coordinate 0. -/
theorem poolDims_window0 (j : S100000x170.Idx) : (poolDims hwf).window j 0 = 0 := by
  unfold ScatterDims.window
  rw [dif_neg (show ¬ (0 : Fin 2) ∈ S16x170.kept [0] by decide)]

/-- On operand axis 1 the window coordinate is the update's column. -/
theorem poolDims_window1 (j : S100000x170.Idx) : (poolDims hwf).window j 1 = (j 1).val := by
  unfold ScatterDims.window
  rw [dif_pos (show (1 : Fin 2) ∈ S16x170.kept [0] by decide)]
  rfl

/-- The update at `(r, c)` lands at `(g, q)` exactly when row `r`'s word reads signed as `g` and `c = q`. -/
theorem poolDims_resultIdx_iff (idx : IVec S100000x1 32) (r : Fin 100000) (c : Fin 170) (g : Fin 16) (q : Fin 170) :
    (poolDims hwf).resultIdx? (ix2 r c) idx = some (ix2 g q) ↔ (idx (ix2 r (0 : Fin 1))).toInt = (g.val : ℤ) ∧ c = q := by
  have h00 : (poolDims hwf).start (ix2 r c) idx 0 = (idx (ix2 r (0 : Fin 1))).toInt := poolDims_start0 hwf (ix2 r c) idx
  have h01 : (poolDims hwf).start (ix2 r c) idx 1 = 0 := poolDims_start1 hwf (ix2 r c) idx
  have hw0 : (poolDims hwf).window (ix2 r c) 0 = 0 := poolDims_window0 hwf (ix2 r c)
  have hw1 : (poolDims hwf).window (ix2 r c) 1 = c.val := poolDims_window1 hwf (ix2 r c)
  have hg : g.val < 16 := g.isLt
  have hc170 : c.val < 170 := c.isLt
  unfold ScatterDims.resultIdx?
  constructor
  · intro h
    by_cases hc : ∀ a, 0 ≤ (poolDims hwf).start (ix2 r c) idx a + (poolDims hwf).window (ix2 r c) a ∧
        (poolDims hwf).start (ix2 r c) idx a + (poolDims hwf).window (ix2 r c) a < S16x170.size a
    · rw [dif_pos hc] at h
      have hf := Option.some.inj h
      have e0 : ((poolDims hwf).start (ix2 r c) idx 0 + (poolDims hwf).window (ix2 r c) 0).toNat = g.val :=
        congrArg (fun f : S16x170.Idx => (f 0).val) hf
      have e1 : ((poolDims hwf).start (ix2 r c) idx 1 + (poolDims hwf).window (ix2 r c) 1).toNat = q.val :=
        congrArg (fun f : S16x170.Idx => (f 1).val) hf
      have p0 := (hc 0).1
      rw [h00, hw0] at e0 p0
      rw [h01, hw1] at e1
      refine ⟨by omega, Fin.ext (by omega)⟩
    · rw [dif_neg hc] at h
      cases h
  · rintro ⟨hT, rfl⟩
    have hc : ∀ a, 0 ≤ (poolDims hwf).start (ix2 r c) idx a + (poolDims hwf).window (ix2 r c) a ∧
        (poolDims hwf).start (ix2 r c) idx a + (poolDims hwf).window (ix2 r c) a < S16x170.size a := by
      refine Fin.forall_fin_two.2 ⟨?_, ?_⟩
      · rw [h00, hw0, hT]
        show 0 ≤ (g.val : ℤ) + ((0 : ℕ) : ℤ) ∧ (g.val : ℤ) + ((0 : ℕ) : ℤ) < ((16 : ℕ) : ℤ)
        omega
      · rw [h01, hw1]
        show 0 ≤ (0 : ℤ) + (c.val : ℤ) ∧ (0 : ℤ) + (c.val : ℤ) < ((170 : ℕ) : ℤ)
        omega
    rw [dif_pos hc]
    apply congrArg some
    funext a
    revert a
    refine Fin.forall_fin_two.2 ⟨?_, ?_⟩
    · apply Fin.ext
      show ((poolDims hwf).start (ix2 r c) idx 0 + (poolDims hwf).window (ix2 r c) 0).toNat = g.val
      rw [h00, hw0, hT]
      omega
    · apply Fin.ext
      show ((poolDims hwf).start (ix2 r c) idx 1 + (poolDims hwf).window (ix2 r c) 1).toNat = c.val
      rw [h01, hw1]
      omega

/-- A 32-bit word reads signed as a number below 16 exactly when it is that number's word. -/
theorem toInt_eq_small (w : BitVec 32) (g : ℕ) (hg : g < 16) : w.toInt = (g : ℤ) ↔ w = BitVec.ofNat 32 g := by
  constructor
  · intro h
    apply BitVec.eq_of_toInt_eq
    rw [h, WordArith.toInt_ofNat_small g (by omega)]
  · rintro rfl
    exact WordArith.toInt_ofNat_small g (by omega)

/-- The sum over the updates that land at `(g, q)` is the sum over the rows whose word is `g`'s of the row's column `q`. -/
theorem poolDims_sum (idx : IVec S100000x1 32) (upd : S100000x170.Idx → EReal) (g : Fin 16) (q : Fin 170)
    [DecidablePred fun j : S100000x170.Idx => (poolDims hwf).resultIdx? j idx = some (ix2 g q)] :
    ∑ j ∈ Finset.univ.filter (fun j : S100000x170.Idx => (poolDims hwf).resultIdx? j idx = some (ix2 g q)), upd j
      = ∑ r : Fin 100000, if idx (ix2 r (0 : Fin 1)) = BitVec.ofNat 32 g.val then upd (ix2 r q) else 0 := by
  rw [Finset.sum_filter, sum_idx2]
  refine Finset.sum_congr rfl fun r _ => ?_
  by_cases hw : idx (ix2 r (0 : Fin 1)) = BitVec.ofNat 32 g.val
  · rw [if_pos hw, Finset.sum_eq_single q]
    · rw [if_pos ((poolDims_resultIdx_iff hwf idx r q g q).2 ⟨(toInt_eq_small _ _ g.isLt).2 hw, rfl⟩)]
    · intro c _ hcq
      rw [if_neg]
      intro h
      exact hcq ((poolDims_resultIdx_iff hwf idx r c g q).1 h).2
    · intro h
      exact absurd (Finset.mem_univ q) h
  · rw [if_neg hw]
    apply Finset.sum_eq_zero
    intro c _
    rw [if_neg]
    intro h
    exact hw ((toInt_eq_small _ _ g.isLt).1 ((poolDims_resultIdx_iff hwf idx r c g q).1 h).1)

/-- The accumulating scatter with these dimension numbers, from an operand that is zero everywhere: entry `(g, q)` is
    the sum over the rows whose word is `g`'s of the row's column `q`. -/
theorem poolDims_scatterAdd (idx : IVec S100000x1 32) (upd : S100000x170.Idx → EReal) (z : S16x170.Idx → EReal)
    (hz : ∀ i, z i = 0) :
    Ideal.hostScatterAdd (poolDims hwf) z idx upd
      = fun i => ∑ r : Fin 100000, if idx (ix2 r (0 : Fin 1)) = BitVec.ofNat 32 (i 0).val then upd (ix2 r (i 1)) else 0 := by
  funext i
  obtain ⟨g, q, rfl⟩ : ∃ (g : Fin 16) (q : Fin 170), i = ix2 g q := ⟨i 0, i 1, eq_ix2 i⟩
  unfold Ideal.hostScatterAdd
  rw [hz, zero_add]
  exact poolDims_sum hwf idx upd g q

end Dims

/-- The accumulating scatter of `upd`'s rows at the words `idx`, from zeros: entry `(g, j)` is the sum of `upd[r, j]` over
    the rows `r` whose word is `g`'s. -/
theorem scatterAdd_pool (idx : (⟨S100000, .i32⟩ : BufTy).Contents (Elt Ideal)) (upd : (⟨S100000x170, .f32⟩ : BufTy).Contents (Elt Ideal)) :
    Host.scatterAdd (F := Ideal) (φ := .f32) scatter_S16x170_S100000x1_S100000x170_1_0_0_1 (val_main_v107 (F := Ideal)) (val_main_v108 (F := Ideal) idx) upd
      = pool upd (fun r => idx (ix1 r)) := by
  have hz : ∀ i : S16x170.Idx, val_main_v107 (F := Ideal) i = 0 := fun i => by
    rw [val_main_v107_apply, val_main_cst_15_apply]
    exact Ideal.ofBits_zero_f32
  have hrow : ∀ r : Fin 100000, val_main_v108 (F := Ideal) idx (ix2 r (0 : Fin 1)) = idx (ix1 r) := fun r => by
    rw [val_main_v108_apply]
    congr 1
    funext a
    match a with
    | ⟨0, _⟩ => rfl
  generalize val_main_v107 (F := Ideal) = z at hz
  generalize val_main_v108 (F := Ideal) idx = col at hrow
  refine (poolDims_scatterAdd scatter_S16x170_S100000x1_S100000x170_1_0_0_1.wf col upd z hz).trans ?_
  funext i
  unfold Cert.Spec.pool
  refine Finset.sum_congr rfl fun r _ => ?_
  rw [hrow r]

/-- `segment_sum(x5, batch, 16)`. -/
theorem ref_sums (x0 : (⟨S100000x32, .f32⟩ : BufTy).Contents (Elt Ideal)) (x1 : (⟨S2x1600000, .i32⟩ : BufTy).Contents (Elt Ideal)) (x2 : (⟨S1600000, .f32⟩ : BufTy).Contents (Elt Ideal)) (x3 : (⟨S100000, .i32⟩ : BufTy).Contents (Elt Ideal)) (x4 : (⟨S64x32, .f32⟩ : BufTy).Contents (Elt Ideal)) (x5 : (⟨S64, .f32⟩ : BufTy).Contents (Elt Ideal)) (x6 : (⟨S96x64, .f32⟩ : BufTy).Contents (Elt Ideal)) (x7 : (⟨S96, .f32⟩ : BufTy).Contents (Elt Ideal)) (x8 : (⟨S128x96, .f32⟩ : BufTy).Contents (Elt Ideal)) (x9 : (⟨S128, .f32⟩ : BufTy).Contents (Elt Ideal)) (x10 : (⟨S512x128, .f32⟩ : BufTy).Contents (Elt Ideal)) (x11 : (⟨S512, .f32⟩ : BufTy).Contents (Elt Ideal)) (x12 : (⟨S256x512, .f32⟩ : BufTy).Contents (Elt Ideal)) (x13 : (⟨S256, .f32⟩ : BufTy).Contents (Elt Ideal)) (x14 : (⟨S170x256, .f32⟩ : BufTy).Contents (Elt Ideal)) (x15 : (⟨S170, .f32⟩ : BufTy).Contents (Elt Ideal)) :
    val_main_v109 (F := Ideal) x0 x1 x2 x3 x4 x5 x6 x7 x8 x9 x10 x11 x12 x13 x14 x15 = pool (val_main_v106 (F := Ideal) x0 x1 x2 x4 x5 x6 x7 x8 x9 x10 x11 x12 x13 x14 x15) (fun r => x3 (ix1 r)) :=
  scatterAdd_pool x3 _

end Cert.ReferenceIdeal.RefVal

end
-- ==== Proof.Stages.lean ====
/-
  The idealized kernel's buffers at every boundary of its @main — after each host stretch and after each region — read
  as the reference's stages of the same argument arrays. The two programs share their host operations (the edge
  normalisation, the three gather–scale–scatter aggregations, the pooled head), so a host stretch of the kernel applied to
  buffers that already hold the reference's stages holds the reference's next stage, the two terms being the same
  operations; a region's output array is the specification's function of the region's input arrays, and so is the
  reference's stage of the stage before it. Chained from the launch to the result buffer.
-/
import proofs.«425327_j74732430950951_1_alg».proof.Proof.Gen.KernelIdeal.Frame
import proofs.«425327_j74732430950951_1_alg».proof.Proof.Gen.ReferenceIdeal.Read
import proofs.«425327_j74732430950951_1_alg».proof.Proof.Spec
import proofs.«425327_j74732430950951_1_alg».proof.Proof.Keep
import proofs.«425327_j74732430950951_1_alg».proof.Proof.Reg0
import proofs.«425327_j74732430950951_1_alg».proof.Proof.Reg1
import proofs.«425327_j74732430950951_1_alg».proof.Proof.Reg2
import proofs.«425327_j74732430950951_1_alg».proof.Proof.Reg3
import proofs.«425327_j74732430950951_1_alg».proof.Proof.Reg4
import proofs.«425327_j74732430950951_1_alg».proof.Proof.Reg5
import proofs.«425327_j74732430950951_1_alg».proof.Proof.Reg6
import proofs.«425327_j74732430950951_1_alg».proof.Proof.RefDense
import proofs.«425327_j74732430950951_1_alg».proof.Proof.RefPool
import Idealize.ShloMosaic.Lib.Pipeline.Value

set_option maxRecDepth 16384

noncomputable section

namespace Cert.KernelIdeal.Val

open Idealize.ShloMosaic Idealize.ShloMosaic.TcCoe Idealize.SL.Sem Idealize.ShloMosaic.StableHlo Idealize.ShloMosaic.ValueIdx
open Cert.KernelIdeal Cert.KernelIdeal.Gen Cert.Spec
open Cert.ReferenceIdeal.Read (val_main_v3 val_main_v6 val_main_v8 val_main_v13 val_main_v14 val_main_cst_2 val_main_v15 val_main_v31
  val_main_v33 val_main_v46 val_main_v52 val_main_v65 val_main_v71 val_main_v84 val_main_v94 val_main_v100 val_main_v106
  val_main_v109 val_main_v129)
open Cert.ReferenceIdeal.RefVal (ref_h0 ref_h1 ref_h2 ref_x3 ref_x4 ref_x5 ref_sums)

/-! ## The specification's functions respect equal arguments -/

theorem lin_congr {n a b : Nat} {x x' : Mat n a} {w w' : Mat b a} (hx : x = x') (hw : w = w') : lin x w = lin x' w' := by
  rw [hx, hw]
theorem biasRelu_congr {n a : Nat} {x x' : Mat n a} {b b' : Vc a} (hx : x = x') (hb : b = b') : biasRelu x b = biasRelu x' b' := by
  rw [hx, hb]
theorem pool_congr {n a : Nat} {x x' : Mat n a} {s s' : Fin n → BitVec 32} (hx : x = x') (hs : s = s') : pool x s = pool x' s' := by
  rw [hx, hs]

/-! # The host stretches, at any float instance

The two programs' host operations are the same operations, whatever the floats are: each stretch of the kernel, applied to
buffers that hold the reference's stages, holds the reference's next stage. A stretch that follows a region takes the
region's output as a hypothesis. -/

section Host

variable {F : FTy → Type} [FloatOps F]
variable (m : (ℓ : Loc nD τ sig) → Buf (Elt F) ℓ) (ρ : Dev nD → PrngReg) (c : Dev nD)

set_option quotPrecheck false
local notation "A0" => m ((c : Thread nD τ).loc main_arg0)
local notation "A1" => m ((c : Thread nD τ).loc main_arg1)
local notation "A2" => m ((c : Thread nD τ).loc main_arg2)
local notation "A3" => m ((c : Thread nD τ).loc main_arg3)
local notation "A4" => m ((c : Thread nD τ).loc main_arg4)
local notation "A5" => m ((c : Thread nD τ).loc main_arg5)
local notation "A6" => m ((c : Thread nD τ).loc main_arg6)
local notation "A7" => m ((c : Thread nD τ).loc main_arg7)
local notation "A8" => m ((c : Thread nD τ).loc main_arg8)
local notation "A9" => m ((c : Thread nD τ).loc main_arg9)
local notation "A10" => m ((c : Thread nD τ).loc main_arg10)
local notation "A11" => m ((c : Thread nD τ).loc main_arg11)
local notation "A12" => m ((c : Thread nD τ).loc main_arg12)
local notation "A13" => m ((c : Thread nD τ).loc main_arg13)
local notation "A14" => m ((c : Thread nD τ).loc main_arg14)
local notation "A15" => m ((c : Thread nD τ).loc main_arg15)
local notation "A16" => m ((c : Thread nD τ).loc main_arg16)
local notation "A17" => m ((c : Thread nD τ).loc main_arg17)

/-! ## The edge normalisation (the three leading host stretches) -/

/-- After the first stretch: the source indices with the self loops appended. -/
theorem w1_v3 : W1 m ρ c (Proc.devRef .tc main_v3) = val_main_v3 (F := F) A1 := by
  show StableHlo.after hostOps0 (W0 m ρ c) (Proc.devRef .tc main_v3) = _
  dsimp only [hostOps0]
  after_results
  rfl
/-- The target indices with the self loops appended. -/
theorem w1_v6 : W1 m ρ c (Proc.devRef .tc main_v6) = val_main_v6 (F := F) A1 := by
  show StableHlo.after hostOps0 (W0 m ρ c) (Proc.devRef .tc main_v6) = _
  dsimp only [hostOps0]
  after_results
  rfl
/-- The edge weights with the self loops' ones appended. -/
theorem w1_v8 : W1 m ρ c (Proc.devRef .tc main_v8) = val_main_v8 (F := F) A2 := by
  show StableHlo.after hostOps0 (W0 m ρ c) (Proc.devRef .tc main_v8) = _
  dsimp only [hostOps0]
  after_results
  rfl
/-- Where the degree is positive. -/
theorem w1_v13 : W1 m ρ c (Proc.devRef .tc main_v13) = val_main_v13 (F := F) A1 A2 := by
  show StableHlo.after hostOps0 (W0 m ρ c) (Proc.devRef .tc main_v13) = _
  dsimp only [hostOps0]
  after_results
  rfl
/-- The reciprocal square root of the degree. -/
theorem w1_v14 : W1 m ρ c (Proc.devRef .tc main_v14) = val_main_v14 (F := F) A1 A2 := by
  show StableHlo.after hostOps0 (W0 m ρ c) (Proc.devRef .tc main_v14) = _
  dsimp only [hostOps0]
  after_results
  rfl
/-- The zero the selection falls back to. -/
theorem w1_cst_2 : W1 m ρ c (Proc.devRef .tc main_cst_2) = val_main_cst_2 (F := F) := by
  show StableHlo.after hostOps0 (W0 m ρ c) (Proc.devRef .tc main_cst_2) = _
  dsimp only [hostOps0]
  after_results
  rfl

/-- After the second stretch: the degree's reciprocal square root where the degree is positive, zero elsewhere. -/
theorem w2_v15 : W2 m ρ c (Proc.devRef .tc main_v15) = val_main_v15 (F := F) A1 A2 := by
  have e13 := w1_v13 m ρ c
  have e14 := w1_v14 m ρ c
  have e2 := w1_cst_2 m ρ c
  show StableHlo.after hostOps0_1 (W1 m ρ c) (Proc.devRef .tc main_v15) = _
  generalize W1 m ρ c = V at e13 e14 e2 ⊢
  dsimp only [hostOps0_1]
  after_results
  rw [e13, e14, e2]
  rfl
theorem w2_v3 : W2 m ρ c (Proc.devRef .tc main_v3) = val_main_v3 (F := F) A1 :=
  (host_keep hostOps0_1 (W1 m ρ c) main_v3 (by untouched)).trans (w1_v3 m ρ c)
theorem w2_v6 : W2 m ρ c (Proc.devRef .tc main_v6) = val_main_v6 (F := F) A1 :=
  (host_keep hostOps0_1 (W1 m ρ c) main_v6 (by untouched)).trans (w1_v6 m ρ c)
theorem w2_v8 : W2 m ρ c (Proc.devRef .tc main_v8) = val_main_v8 (F := F) A2 :=
  (host_keep hostOps0_1 (W1 m ρ c) main_v8 (by untouched)).trans (w1_v8 m ρ c)

set_option maxHeartbeats 8000000 in
/-- After the third stretch: the symmetric normalisation of every edge. -/
theorem w3_v31 : W3 m ρ c (Proc.devRef .tc main_v31) = val_main_v31 (F := F) A1 A2 := by
  have e3 := w2_v3 m ρ c
  have e6 := w2_v6 m ρ c
  have e8 := w2_v8 m ρ c
  have e15 := w2_v15 m ρ c
  show StableHlo.after hostOps0_2 (W2 m ρ c) (Proc.devRef .tc main_v31) = _
  generalize W2 m ρ c = V at e3 e6 e8 e15 ⊢
  dsimp only [hostOps0_2]
  after_results
  rw [e3, e6, e8, e15]
  rfl
theorem w3_v3 : W3 m ρ c (Proc.devRef .tc main_v3) = val_main_v3 (F := F) A1 :=
  (host_keep hostOps0_2 (W2 m ρ c) main_v3 (by untouched)).trans (w2_v3 m ρ c)
theorem w3_v6 : W3 m ρ c (Proc.devRef .tc main_v6) = val_main_v6 (F := F) A1 :=
  (host_keep hostOps0_2 (W2 m ρ c) main_v6 (by untouched)).trans (w2_v6 m ρ c)

/-! ## The three carried buffers (source indices, target indices, normalisation) at the aggregations' entries -/

theorem w4_v3 : W4 m ρ c (Proc.devRef .tc main_v3) = val_main_v3 (F := F) A1 :=
  (back4 m ρ c main_v3 (by decide)).trans (w3_v3 m ρ c)
theorem w4_v6 : W4 m ρ c (Proc.devRef .tc main_v6) = val_main_v6 (F := F) A1 :=
  (back4 m ρ c main_v6 (by decide)).trans (w3_v6 m ρ c)
theorem w4_v31 : W4 m ρ c (Proc.devRef .tc main_v31) = val_main_v31 (F := F) A1 A2 :=
  (back4 m ρ c main_v31 (by decide)).trans (w3_v31 m ρ c)
theorem w6_v3 : W6 m ρ c (Proc.devRef .tc main_v3) = val_main_v3 (F := F) A1 :=
  (back6 m ρ c main_v3 (by decide) (by untouched) (by decide)).trans (w3_v3 m ρ c)
theorem w6_v6 : W6 m ρ c (Proc.devRef .tc main_v6) = val_main_v6 (F := F) A1 :=
  (back6 m ρ c main_v6 (by decide) (by untouched) (by decide)).trans (w3_v6 m ρ c)
theorem w6_v31 : W6 m ρ c (Proc.devRef .tc main_v31) = val_main_v31 (F := F) A1 A2 :=
  (back6 m ρ c main_v31 (by decide) (by untouched) (by decide)).trans (w3_v31 m ρ c)
theorem w8_v3 : W8 m ρ c (Proc.devRef .tc main_v3) = val_main_v3 (F := F) A1 :=
  (back8 m ρ c main_v3 (by decide) (by untouched) (by decide) (by untouched) (by decide)).trans (w3_v3 m ρ c)
theorem w8_v6 : W8 m ρ c (Proc.devRef .tc main_v6) = val_main_v6 (F := F) A1 :=
  (back8 m ρ c main_v6 (by decide) (by untouched) (by decide) (by untouched) (by decide)).trans (w3_v6 m ρ c)
theorem w8_v31 : W8 m ρ c (Proc.devRef .tc main_v31) = val_main_v31 (F := F) A1 A2 :=
  (back8 m ρ c main_v31 (by decide) (by untouched) (by decide) (by untouched) (by decide)).trans (w3_v31 m ρ c)

/-! ## The stretches that follow a region, given the region's output -/

set_option maxHeartbeats 8000000 in
/-- The first aggregation: region 0's output gathered by source, scaled by the normalisation, summed by target. -/
theorem w5_of (e : W4 m ρ c (Proc.devRef .tc main_v32) = val_main_v33 (F := F) A0 A4) :
    W5 m ρ c (Proc.devRef .tc main_v45) = val_main_v46 (F := F) A0 A1 A2 A4 := by
  show StableHlo.after hostOps1 (W4 m ρ c) (Proc.devRef .tc main_v45) = _
  dsimp only [hostOps1]
  after_results
  rw [e, w4_v3 m ρ c, w4_v6 m ρ c, w4_v31 m ρ c]
  rfl

set_option maxHeartbeats 8000000 in
/-- The second aggregation, of region 1's output. -/
theorem w7_of (e : W6 m ρ c (Proc.devRef .tc main_v46) = val_main_v52 (F := F) A0 A1 A2 A4 A5 A6) :
    W7 m ρ c (Proc.devRef .tc main_v59) = val_main_v65 (F := F) A0 A1 A2 A4 A5 A6 := by
  show StableHlo.after hostOps2 (W6 m ρ c) (Proc.devRef .tc main_v59) = _
  dsimp only [hostOps2]
  after_results
  rw [e, w6_v3 m ρ c, w6_v6 m ρ c, w6_v31 m ρ c]
  rfl

set_option maxHeartbeats 8000000 in
/-- The third aggregation, of region 2's output. -/
theorem w9_of (e : W8 m ρ c (Proc.devRef .tc main_v60) = val_main_v71 (F := F) A0 A1 A2 A4 A5 A6 A7 A8) :
    W9 m ρ c (Proc.devRef .tc main_v73) = val_main_v84 (F := F) A0 A1 A2 A4 A5 A6 A7 A8 := by
  show StableHlo.after hostOps3 (W8 m ρ c) (Proc.devRef .tc main_v73) = _
  dsimp only [hostOps3]
  after_results
  rw [e, w8_v3 m ρ c, w8_v6 m ρ c, w8_v31 m ρ c]
  rfl

/-- The segment ids laid out as a column: entry `(r, 0)` is the id of row `r`. -/
theorem w13_v77 (r : Fin 100000) :
    W13 m ρ c (Proc.devRef .tc main_v77) (ix2 r (0 : Fin 1)) = A3 (ix1 r) := by
  show StableHlo.after hostOps6 (W12 m ρ c) (Proc.devRef .tc main_v77) (ix2 r (0 : Fin 1)) = _
  dsimp only [hostOps6]
  after_results
  rw [w12_arg3 m ρ c]
  exact shapeCast_apply _ _ _ _ (by
    show ((⟨1, ![100000]⟩ : Shape).rowMajor (ix1 r)).val = ((⟨2, ![100000, 1]⟩ : Shape).rowMajor (ix2 r (0 : Fin 1))).val
    rw [Shape.rowMajor_val_one, Shape.rowMajor_val_two]
    show r.val = r.val * 1 + 0
    omega)

set_option maxHeartbeats 8000000 in
/-- The head, of region 6's output: the pooled sums over the segment counts, against the last weight, plus its bias, through the logistic function. -/
theorem w15_of (e : W14 m ρ c (Proc.devRef .tc main_v78) = val_main_v109 (F := F) A0 A1 A2 A3 A4 A5 A6 A7 A8 A9 A10 A11 A12 A13 A14 A15) :
    W15 m ρ c (Proc.devRef .tc main_v98) = val_main_v129 (F := F) A0 A1 A2 A3 A4 A5 A6 A7 A8 A9 A10 A11 A12 A13 A14 A15 A16 A17 := by
  show StableHlo.after hostOps7 (W14 m ρ c) (Proc.devRef .tc main_v98) = _
  dsimp only [hostOps7]
  after_results
  rw [e, w14_arg3 m ρ c, w14_arg16 m ρ c, w14_arg17 m ρ c]
  rfl

end Host

/-! # The regions, on the extended reals

A region's output array is the specification's function of its input arrays, and so is the reference's stage of the stage
before it; the host stretches between them are the lemmas above. -/

section Regions

variable (m : (ℓ : Loc nD τ sig) → Buf (Elt Ideal) ℓ) (ρ : Dev nD → PrngReg) (c : Dev nD)

set_option quotPrecheck false
local notation "A0" => m ((c : Thread nD τ).loc main_arg0)
local notation "A1" => m ((c : Thread nD τ).loc main_arg1)
local notation "A2" => m ((c : Thread nD τ).loc main_arg2)
local notation "A3" => m ((c : Thread nD τ).loc main_arg3)
local notation "A4" => m ((c : Thread nD τ).loc main_arg4)
local notation "A5" => m ((c : Thread nD τ).loc main_arg5)
local notation "A6" => m ((c : Thread nD τ).loc main_arg6)
local notation "A7" => m ((c : Thread nD τ).loc main_arg7)
local notation "A8" => m ((c : Thread nD τ).loc main_arg8)
local notation "A9" => m ((c : Thread nD τ).loc main_arg9)
local notation "A10" => m ((c : Thread nD τ).loc main_arg10)
local notation "A11" => m ((c : Thread nD τ).loc main_arg11)
local notation "A12" => m ((c : Thread nD τ).loc main_arg12)
local notation "A13" => m ((c : Thread nD τ).loc main_arg13)
local notation "A14" => m ((c : Thread nD τ).loc main_arg14)
local notation "A15" => m ((c : Thread nD τ).loc main_arg15)
local notation "A16" => m ((c : Thread nD τ).loc main_arg16)
local notation "A17" => m ((c : Thread nD τ).loc main_arg17)

/-! ## The first convolution -/

/-- Region 0's output array: the node features against the first weight's rows. -/
theorem w4_v32 : W4 m ρ c (Proc.devRef .tc main_v32) = val_main_v33 (F := Ideal) A0 A4 :=
  (W4_arr m ρ c 2).trans ((reg0_value (V3 m ρ) c).trans
    ((lin_congr (w3_arg0 m ρ c) (w3_arg4 m ρ c)).trans (ref_h0 A0 A4).symm))

/-- The first aggregation: gathered by source, scaled by the normalisation, summed by target. -/
theorem w5_v45 : W5 m ρ c (Proc.devRef .tc main_v45) = val_main_v46 (F := Ideal) A0 A1 A2 A4 :=
  w5_of m ρ c (w4_v32 m ρ c)

/-! ## The second convolution -/

/-- Region 1's output array. -/
theorem w6_v46 : W6 m ρ c (Proc.devRef .tc main_v46) = val_main_v52 (F := Ideal) A0 A1 A2 A4 A5 A6 :=
  (W6_arr m ρ c 3).trans ((reg1_value (V5 m ρ) c).trans
    ((lin_congr (biasRelu_congr (w5_v45 m ρ c) (w5_arg5 m ρ c)) (w5_arg6 m ρ c)).trans (ref_h1 A0 A1 A2 A4 A5 A6).symm))

/-- The second aggregation. -/
theorem w7_v59 : W7 m ρ c (Proc.devRef .tc main_v59) = val_main_v65 (F := Ideal) A0 A1 A2 A4 A5 A6 :=
  w7_of m ρ c (w6_v46 m ρ c)

/-! ## The third convolution -/

/-- Region 2's output array. -/
theorem w8_v60 : W8 m ρ c (Proc.devRef .tc main_v60) = val_main_v71 (F := Ideal) A0 A1 A2 A4 A5 A6 A7 A8 :=
  (W8_arr m ρ c 3).trans ((reg2_value (V7 m ρ) c).trans
    ((lin_congr (biasRelu_congr (w7_v59 m ρ c) (w7_arg7 m ρ c)) (w7_arg8 m ρ c)).trans (ref_h2 A0 A1 A2 A4 A5 A6 A7 A8).symm))

/-- The third aggregation. -/
theorem w9_v73 : W9 m ρ c (Proc.devRef .tc main_v73) = val_main_v84 (F := Ideal) A0 A1 A2 A4 A5 A6 A7 A8 :=
  w9_of m ρ c (w8_v60 m ρ c)

/-! ## The dense layers -/

/-- Region 3's output array. -/
theorem w10_v74 : W10 m ρ c (Proc.devRef .tc main_v74) = val_main_v94 (F := Ideal) A0 A1 A2 A4 A5 A6 A7 A8 A9 A10 A11 :=
  (W10_arr m ρ c 4).trans ((reg3_value (V9 m ρ) c).trans
    ((biasRelu_congr (lin_congr (biasRelu_congr (w9_v73 m ρ c) (w9_arg9 m ρ c)) (w9_arg10 m ρ c)) (w9_arg11 m ρ c)).trans
      (ref_x3 A0 A1 A2 A4 A5 A6 A7 A8 A9 A10 A11).symm))

/-- Region 4's output array. -/
theorem w11_v75 : W11 m ρ c (Proc.devRef .tc main_v75) = val_main_v100 (F := Ideal) A0 A1 A2 A4 A5 A6 A7 A8 A9 A10 A11 A12 A13 :=
  (W11_arr m ρ c 3).trans ((reg4_value (V10 m ρ) c).trans
    ((biasRelu_congr (lin_congr (w10_v74 m ρ c) (w10_arg12 m ρ c)) (w10_arg13 m ρ c)).trans (ref_x4 A0 A1 A2 A4 A5 A6 A7 A8 A9 A10 A11 A12 A13).symm))

/-- Region 5's output array. -/
theorem w12_v76 : W12 m ρ c (Proc.devRef .tc main_v76) = val_main_v106 (F := Ideal) A0 A1 A2 A4 A5 A6 A7 A8 A9 A10 A11 A12 A13 A14 A15 :=
  (W12_arr m ρ c 3).trans ((reg5_value (V11 m ρ) c).trans
    ((biasRelu_congr (lin_congr (w11_v75 m ρ c) (w11_arg14 m ρ c)) (w11_arg15 m ρ c)).trans (ref_x5 A0 A1 A2 A4 A5 A6 A7 A8 A9 A10 A11 A12 A13 A14 A15).symm))

/-! ## The pooling -/

/-- The last dense layer's output is carried across the one-operation stretch that lays the segment ids out as a column. -/
theorem w13_v76 : W13 m ρ c (Proc.devRef .tc main_v76) = val_main_v106 (F := Ideal) A0 A1 A2 A4 A5 A6 A7 A8 A9 A10 A11 A12 A13 A14 A15 :=
  (host_keep hostOps6 (W12 m ρ c) main_v76 (by untouched)).trans (w12_v76 m ρ c)

/-- Region 6's output array: the rows of the last dense layer summed by segment id. -/
theorem w14_v78 : W14 m ρ c (Proc.devRef .tc main_v78) = val_main_v109 (F := Ideal) A0 A1 A2 A3 A4 A5 A6 A7 A8 A9 A10 A11 A12 A13 A14 A15 :=
  (W14_arr m ρ c 2).trans ((reg6_value (V13 m ρ) c).trans
    ((pool_congr (w13_v76 m ρ c) (funext fun r => w13_v77 m ρ c r)).trans (ref_sums A0 A1 A2 A3 A4 A5 A6 A7 A8 A9 A10 A11 A12 A13 A14 A15).symm))

/-! ## The head -/

/-- The result buffer: the pooled sums over the segment counts, against the last weight, plus its bias, through the logistic function. -/
theorem w15_v98 : W15 m ρ c (Proc.devRef .tc main_v98) = val_main_v129 (F := Ideal) A0 A1 A2 A3 A4 A5 A6 A7 A8 A9 A10 A11 A12 A13 A14 A15 A16 A17 :=
  w15_of m ρ c (w14_v78 m ρ c)

end Regions

end Cert.KernelIdeal.Val

end
-- ==== Proof.lean ====
/-
  The certificate of the graph network's kernel against its reference.

  Both programs compute, for 100000 nodes and 1.7 million edges (the given ones and one self loop per node), the
  symmetric normalisation `d[src]^(-1/2) · w · d[dst]^(-1/2)` of every edge, three convolutions `h ↦ relu(agg(h · Wᵀ) + b)`
  with `agg` the gather by source, scaling by the normalisation and sum by target, three dense layers
  `x ↦ relu(x · Wᵀ + b)`, the sum of the rows by graph id over the graph's node count, and a logistic head. The host
  operations — normalisation, the three aggregations, the head — are the same in both programs. The kernel computes each
  product `x · Wᵀ` (with the bias and `relu` around it) in 50 blocks of 2000 rows with operands rounded to bf16, which on the
  extended reals is the identity, and the sum of rows by graph id as a product with the one-hot matrix of the ids
  accumulated over the 50 blocks; the reference uses one `dot_general` per layer and one accumulating scatter. On the
  extended reals a block-wise product is the whole product row by row, and the one-hot product is the scatter's sum:
  `1 · x = x` and `0 · x = 0` for every extended real, an id that is no graph's matches no one-hot column and lands
  outside the scatter's result, so neither sum sees its row. No property of the inputs is used.

  The three frames are the generated ones (the reference's is its run with the result dropped); the idealization rewrote
  nothing; the algebraic claim pairs the kernel's run, its result buffer read boundary by boundary as the reference's stages
  (Proof/Stages.lean over Proof/KRun.lean), with the reference's run.
-/
import proofs.«425327_j74732430950951_1_alg».proof.Defs
import proofs.«425327_j74732430950951_1_alg».proof.Proof.Gen.Kernel
import proofs.«425327_j74732430950951_1_alg».proof.Proof.Gen.Kernel.Frame
import proofs.«425327_j74732430950951_1_alg».proof.Proof.Gen.KernelIdeal
import proofs.«425327_j74732430950951_1_alg».proof.Proof.Gen.KernelIdeal.Frame
import proofs.«425327_j74732430950951_1_alg».proof.Proof.Gen.ReferenceIdeal
import proofs.«425327_j74732430950951_1_alg».proof.Proof.Gen.ReferenceIdeal.Run
import proofs.«425327_j74732430950951_1_alg».proof.Proof.Gen.ReferenceIdeal.Read
import proofs.«425327_j74732430950951_1_alg».proof.Proof.Gen.Pre_finite_inputs
import proofs.«425327_j74732430950951_1_alg».proof.Proof.KRun
import proofs.«425327_j74732430950951_1_alg».proof.Proof.Stages
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a host program: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments the two programs end with the same [16, 1] result: the reference's last
    stage of the arguments. -/
theorem algebraic : Cert.algebraic_KernelIdeal_ReferenceIdeal := by
  intro m ρ m' ρ' _ hagree
  refine ⟨fun c => Cert.ReferenceIdeal.Read.val_main_v129 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13))
    (m ((c.tc : Thread Cert.KernelIdeal.nD Cert.KernelIdeal.τ).loc Cert.KernelIdeal.main_arg14))
    (m ((c.tc : Thread Cert.KernelIdeal.nD Cert.KernelIdeal.τ).loc Cert.KernelIdeal.main_arg15))
    (m ((c.tc : Thread Cert.KernelIdeal.nD Cert.KernelIdeal.τ).loc Cert.KernelIdeal.main_arg16))
    (m ((c.tc : Thread Cert.KernelIdeal.nD Cert.KernelIdeal.τ).loc Cert.KernelIdeal.main_arg17)), ?_, ?_⟩
  · exact (θ_run Cert.KernelIdeal.defs _ _).mono
      (fun r h c => ⟨(h c).1.trans (Cert.KernelIdeal.Val.w15_v98 m ρ c), (h c).2⟩)
      (Cert.KernelIdeal.Val.run_main (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17⟩ := hagree c
    rw [Cert.ReferenceIdeal.Read.val_main_v129_eq, h0, h1, h2, h3, h4, h5, h6, h7, h8, h9, h10, h11, h12, h13, h14, h15, h16, h17]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
